-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S2x1600000 : Shape := ⟨2, ![2, 1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part4 {F : FTy → Type} [FloatOps F] (main_arg14 : FVec F S32 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  main_v73

def fn_part3 {F : FTy → Type} [FloatOps F] (main_arg11 : FVec F S64x32 .f32) (main_arg12 : FVec F S32 .f32) (main_arg13 : FVec F S32x32 .f32) (main_arg14 : FVec F S32 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg11
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg12
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x32 .f32 := Host.absf main_arg13
  let main_cst_24 : FVec F S_ .f32 := constant S_ .f32 0x7F800000#32
  let main_v65 : FVec F S32x32 .f32 := broadcastInDim S32x32 ![] bcast_S_S32x32 main_cst_24
  let main_v66 : IVec S32x32 1 := cmpf .olt main_v64 main_v65
  let main_c_25 : IVec S_ 1 := constantI S_ 1 1#1
  let main_v67 : IVec S_ 1 := (fun x v => Host.reduce IntOp.andi x v reducesTo_S32x32_S_d0_1 h_S_) main_v66 main_c_25
  fn_part4 (F := F) main_arg14 main_v63 main_v67

def fn_part2 {F : FTy → Type} [FloatOps F] (main_arg7 : FVec F S64x64 .f32) (main_arg8 : FVec F S64 .f32) (main_arg9 : FVec F S64 .f32) (main_arg10 : FVec F S64 .f32) (main_arg11 : FVec F S64x32 .f32) (main_arg12 : FVec F S32 .f32) (main_arg13 : FVec F S32x32 .f32) (main_arg14 : FVec F S32 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64x32 .f32) (main_arg12 : FVec F S32 .f32) (main_arg13 : FVec F S32x32 .f32) (main_arg14 : FVec F S32 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x512 .f32) (main_arg1 : FVec F S512x128 .f32) (main_arg2 : FVec F S128 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64 .f32) (main_arg10 : FVec F S64 .f32) (main_arg11 : FVec F S64x32 .f32) (main_arg12 : FVec F S32 .f32) (main_arg13 : FVec F S32x32 .f32) (main_arg14 : FVec F S32 .f32) (main_arg15 : IVec S2x1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S2x1600000 : Shape := ⟨2, ![2, 1600000]⟩
abbrev S1x1600000 : Shape := ⟨2, ![1, 1600000]⟩
abbrev S1600000 : Shape := ⟨1, ![1600000]⟩
abbrev S100000x128 : Shape := ⟨2, ![100000, 128]⟩
abbrev S2000x512 : Shape := ⟨2, ![2000, 512]⟩
abbrev S2000x128 : Shape := ⟨2, ![2000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S2000x64 : Shape := ⟨2, ![2000, 64]⟩
abbrev S1x64 : Shape := ⟨2, ![1, 64]⟩
abbrev S1600000x64 : Shape := ⟨2, ![1600000, 64]⟩
abbrev S100000x32 : Shape := ⟨2, ![100000, 32]⟩
abbrev S2000x32 : Shape := ⟨2, ![2000, 32]⟩
abbrev S1x32 : Shape := ⟨2, ![1, 32]⟩

abbrev nBuf : Space → Nat
  | .hbm => 132
  | .vmem => 34
  | .smem => 0
  | _ => 0

abbrev hbmTy0_0 (i : Nat) : BufTy := match i % 128 with
  | 0 => ⟨S100000x512, .f32⟩
  | 1 => ⟨S512x128, .f32⟩
  | 2 => ⟨S128, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64x32, .f32⟩
  | 12 => ⟨S32, .f32⟩
  | 13 => ⟨S32x32, .f32⟩
  | 14 => ⟨S32, .f32⟩
  | 15 => ⟨S2x1600000, .i32⟩
  | 16 => ⟨S1x1600000, .i32⟩
  | 17 => ⟨S1600000, .i32⟩
  | 18 => ⟨S1x1600000, .i32⟩
  | 19 => ⟨S1600000, .i32⟩
  | 20 => ⟨S100000x128, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S_, .f32⟩
  | 35 => ⟨S1600000x1, .f32⟩
  | 36 => ⟨S_, .f32⟩
  | 37 => ⟨S100000x1, .f32⟩
  | 38 => ⟨S1600000x1, .i32⟩
  | 39 => ⟨S100000x1, .f32⟩
  | 40 => ⟨S_, .f32⟩
  | 41 => ⟨S100000x1, .f32⟩
  | 42 => ⟨S100000x1, .f32⟩
  | 43 => ⟨S100000x128, .f32⟩
  | 44 => ⟨S100000x128, .f32⟩
  | 45 => ⟨S100000x64, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x64, .f32⟩
  | 55 => ⟨S_, .f32⟩
  | 56 => ⟨S100000x64, .f32⟩
  | 57 => ⟨S1600000x1, .i32⟩
  | 58 => ⟨S100000x64, .f32⟩
  | 59 => ⟨S_, .f32⟩
  | 60 => ⟨S1600000x1, .f32⟩
  | 61 => ⟨S_, .f32⟩
  | 62 => ⟨S100000x1, .f32⟩
  | 63 => ⟨S1600000x1, .i32⟩
  | 64 => ⟨S100000x1, .f32⟩
  | 65 => ⟨S_, .f32⟩
  | 66 => ⟨S100000x1, .f32⟩
  | 67 => ⟨S100000x1, .f32⟩
  | 68 => ⟨S100000x64, .f32⟩
  | 69 => ⟨S100000x64, .f32⟩
  | 70 => ⟨S100000x64, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000x64, .f32⟩
  | 80 => ⟨S_, .f32⟩
  | 81 => ⟨S100000x64, .f32⟩
  | 82 => ⟨S1600000x1, .i32⟩
  | 83 => ⟨S100000x64, .f32⟩
  | 84 => ⟨S_, .f32⟩
  | 85 => ⟨S1600000x1, .f32⟩
  | 86 => ⟨S_, .f32⟩
  | 87 => ⟨S100000x1, .f32⟩
  | 88 => ⟨S1600000x1, .i32⟩
  | 89 => ⟨S100000x1, .f32⟩
  | 90 => ⟨S_, .f32⟩
  | 91 => ⟨S100000x1, .f32⟩
  | 92 => ⟨S100000x1, .f32⟩
  | 93 => ⟨S100000x64, .f32⟩
  | 94 => ⟨S100000x64, .f32⟩
  | 95 => ⟨S100000x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S100000x64, .f32⟩
  | 109 => ⟨S100000x64, .f32⟩
  | 110 => ⟨S100000x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S_, .f32⟩
  | 125 => ⟨S64, .f32⟩
  | 126 => ⟨S64, .f32⟩
  | 127 => ⟨S64, .f32⟩
  | _ => ⟨S100000x512, .f32⟩

abbrev hbmTy0_1 (i : Nat) : BufTy := match i % 128 with
  | 0 => ⟨S64, .f32⟩
  | 1 => ⟨S64, .f32⟩
  | 2 => ⟨S64, .f32⟩
  | 3 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x64, .f32⟩
  | .local _ .vmem, ⟨9, _⟩ => ⟨S64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x64, .f32⟩
  | .local _ .vmem, ⟨14, _⟩ => ⟨S64x64, .f32⟩
  | .local _ .vmem, ⟨15, _⟩ => ⟨S64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S64x64, .f32⟩
  | .local _ .vmem, ⟨21, _⟩ => ⟨S64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S64, .f32⟩
  | .local _ .vmem, ⟨27, _⟩ => ⟨S64, .f32⟩
  | .local _ .vmem, ⟨28, _⟩ => ⟨S64x32, .f32⟩
  | .local _ .vmem, ⟨29, _⟩ => ⟨S32, .f32⟩
  | .local _ .vmem, ⟨30, _⟩ => ⟨S32x32, .f32⟩
  | .local _ .vmem, ⟨31, _⟩ => ⟨S32, .f32⟩
  | .local _ .vmem, ⟨32, _⟩ => ⟨S2000x32, .f32⟩
  | .local _ .vmem, ⟨33, _⟩ => ⟨S2000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_cst_2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_3 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_v24 : Ref sig .tc := ⟨.hbm, 47, rfl⟩
abbrev main_v25 : Ref sig .tc := ⟨.hbm, 48, rfl⟩
abbrev main_c_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_7 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_cst_14 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_15 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_16 : Ref sig .tc := ⟨.hbm, 96, rfl⟩
abbrev main_v62 : Ref sig .tc := ⟨.hbm, 97, rfl⟩
abbrev main_cst_17 : Ref sig .tc := ⟨.hbm, 98, rfl⟩
abbrev main_v63 : Ref sig .tc := ⟨.hbm, 99, rfl⟩
abbrev main_v64 : Ref sig .tc := ⟨.hbm, 100, rfl⟩
abbrev main_c_18 : Ref sig .tc := ⟨.hbm, 101, rfl⟩
abbrev main_call0_cst : Ref sig .tc := ⟨.hbm, 102, rfl⟩
abbrev main_call0_v0 : Ref sig .tc := ⟨.hbm, 103, rfl⟩
abbrev main_call0_v1 : Ref sig .tc := ⟨.hbm, 104, rfl⟩
abbrev main_call0_cst_0 : Ref sig .tc := ⟨.hbm, 105, rfl⟩
abbrev main_call0_v2 : Ref sig .tc := ⟨.hbm, 106, rfl⟩
abbrev main_call0_v3 : Ref sig .tc := ⟨.hbm, 107, rfl⟩
abbrev main_call0_v4 : Ref sig .tc := ⟨.hbm, 108, rfl⟩
abbrev main_call0_v5 : Ref sig .tc := ⟨.hbm, 109, rfl⟩
abbrev main_call0_v6 : Ref sig .tc := ⟨.hbm, 110, rfl⟩
abbrev main_call0_v7 : Ref sig .tc := ⟨.hbm, 111, rfl⟩
abbrev main_call0_cst_1 : Ref sig .tc := ⟨.hbm, 112, rfl⟩
abbrev main_call0_v8 : Ref sig .tc := ⟨.hbm, 113, rfl⟩
abbrev main_call0_cst_2 : Ref sig .tc := ⟨.hbm, 114, rfl⟩
abbrev main_call0_v9 : Ref sig .tc := ⟨.hbm, 115, rfl⟩
abbrev main_call0_v10 : Ref sig .tc := ⟨.hbm, 116, rfl⟩
abbrev main_call0_v11 : Ref sig .tc := ⟨.hbm, 117, rfl⟩
abbrev main_call0_cst_3 : Ref sig .tc := ⟨.hbm, 118, rfl⟩
abbrev main_call0_v12 : Ref sig .tc := ⟨.hbm, 119, rfl⟩
abbrev main_call0_cst_4 : Ref sig .tc := ⟨.hbm, 120, rfl⟩
abbrev main_call0_call0_v0 : Ref sig .tc := ⟨.hbm, 121, rfl⟩
abbrev main_call0_call0_v1 : Ref sig .tc := ⟨.hbm, 122, rfl⟩
abbrev main_v65 : Ref sig .tc := ⟨.hbm, 123, rfl⟩
abbrev main_cst_19 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg7_0 : Ref sig .tc := ⟨.vmem, 32, rfl⟩
abbrev cc4_stg7_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem7_0 : DmaSem sig := 32
abbrev cc4_sem7_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S32 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S32x32 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S32 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x32 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S100000x64_0_1 : S1x64.BroadcastsInDim S100000x64 (![0, 1] : Fin 2 → Fin S100000x64.rank)
  shapeCasts_S64_S64 : S64.ShapeCasts S64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  inb_S2000x32_S2000x32_0_0 : ∀ a, (![0, 0] : Fin 2 → Nat) a + S2000x32.size a ≤ S2000x32.size a
  h_S2000x32 : 0 < S2000x32.numel
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x32_S2000x32_1_0_0_1_n_n_wf : DotDims.WF S2000x32 S32x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .f32 = 32 ∨ (Rect.block (s := S100000x64) S2000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64.size a ≤ S64.size a
  hwx3_2 : ∀ i : grid3.Coords, EltTy.bits .f32 = 32 ∨ (Rect.block (s := S64) S64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S100000x64.size a
  hwx3_3 : ∀ i : grid3.Coords, EltTy.bits .f32 = 32 ∨ (Rect.block (s := S100000x64) S2000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S100000x64.size a
  hwx4_0 : ∀ i : grid4.Coords, EltTy.bits .f32 = 32 ∨ (Rect.block (s := S100000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64.size a ≤ S64.size a
  hwx4_1 : ∀ i : grid4.Coords, EltTy.bits .f32 = 32 ∨ (Rect.block (s := S64) S64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64.size a ≤ S64.size a
  hwx4_2 : ∀ i : grid4.Coords, EltTy.bits .f32 = 32 ∨ (Rect.block (s := S64) S64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x32.size a ≤ S64x32.size a
  hwx4_3 : ∀ i : grid4.Coords, EltTy.bits .f32 = 32 ∨ (Rect.block (s := S64x32) S64x32.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S32.size a ≤ S32.size a
  hwx4_4 : ∀ i : grid4.Coords, EltTy.bits .f32 = 32 ∨ (Rect.block (s := S32) S32.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S32x32.size a ≤ S32x32.size a
  hwx4_5 : ∀ i : grid4.Coords, EltTy.bits .f32 = 32 ∨ (Rect.block (s := S32x32) S32x32.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S32.size a ≤ S32.size a
  hwx4_6 : ∀ i : grid4.Coords, EltTy.bits .f32 = 32 ∨ (Rect.block (s := S32) S32.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x32.size a ≤ S100000x32.size a
  hwx4_7 : ∀ i : grid4.Coords, EltTy.bits .f32 = 32 ∨ (Rect.block (s := S100000x32) S2000x32.size (cc4_transform_7 i) (hinb4_7 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v41) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v61) S2000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v61) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v69) S64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v71) S64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S64x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg12) S32.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S32x32.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg14) S32.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v72) S2000x32.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S2x1600000 : Shape := ⟨2, ![2, 1600000]⟩
abbrev S1x1600000 : Shape := ⟨2, ![1, 1600000]⟩
abbrev S1600000 : Shape := ⟨1, ![1600000]⟩
abbrev S100000x128 : Shape := ⟨2, ![100000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x32 : Shape := ⟨2, ![100000, 32]⟩
abbrev S1x32 : Shape := ⟨2, ![1, 32]⟩

abbrev nBuf : Space → Nat
  | .hbm => 175
  | .vmem => 0
  | .smem => 0
  | _ => 0

abbrev hbmTy0_0 (i : Nat) : BufTy := match i % 128 with
  | 0 => ⟨S100000x512, .f32⟩
  | 1 => ⟨S512x128, .f32⟩
  | 2 => ⟨S128, .f32⟩
  | 3 => ⟨S128x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64, .f32⟩
  | 10 => ⟨S64, .f32⟩
  | 11 => ⟨S64x32, .f32⟩
  | 12 => ⟨S32, .f32⟩
  | 13 => ⟨S32x32, .f32⟩
  | 14 => ⟨S32, .f32⟩
  | 15 => ⟨S2x1600000, .i32⟩
  | 16 => ⟨S1x1600000, .i32⟩
  | 17 => ⟨S1600000, .i32⟩
  | 18 => ⟨S1x1600000, .i32⟩
  | 19 => ⟨S1600000, .i32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000x128, .f32⟩
  | 36 => ⟨S_, .f32⟩
  | 37 => ⟨S100000x128, .f32⟩
  | 38 => ⟨S1600000x1, .i32⟩
  | 39 => ⟨S100000x128, .f32⟩
  | 40 => ⟨S_, .f32⟩
  | 41 => ⟨S1600000x1, .f32⟩
  | 42 => ⟨S_, .f32⟩
  | 43 => ⟨S100000x1, .f32⟩
  | 44 => ⟨S1600000x1, .i32⟩
  | 45 => ⟨S100000x1, .f32⟩
  | 46 => ⟨S_, .f32⟩
  | 47 => ⟨S100000x1, .f32⟩
  | 48 => ⟨S100000x1, .f32⟩
  | 49 => ⟨S100000x128, .f32⟩
  | 50 => ⟨S100000x128, .f32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x64, .f32⟩
  | 67 => ⟨S_, .f32⟩
  | 68 => ⟨S100000x64, .f32⟩
  | 69 => ⟨S1600000x1, .i32⟩
  | 70 => ⟨S100000x64, .f32⟩
  | 71 => ⟨S_, .f32⟩
  | 72 => ⟨S1600000x1, .f32⟩
  | 73 => ⟨S_, .f32⟩
  | 74 => ⟨S100000x1, .f32⟩
  | 75 => ⟨S1600000x1, .i32⟩
  | 76 => ⟨S100000x1, .f32⟩
  | 77 => ⟨S_, .f32⟩
  | 78 => ⟨S100000x1, .f32⟩
  | 79 => ⟨S100000x1, .f32⟩
  | 80 => ⟨S100000x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S_, .i32⟩
  | 90 => ⟨S1600000, .i32⟩
  | 91 => ⟨S1600000, .i1⟩
  | 92 => ⟨S_, .i32⟩
  | 93 => ⟨S1600000, .i32⟩
  | 94 => ⟨S1600000, .i32⟩
  | 95 => ⟨S1600000, .i32⟩
  | 96 => ⟨S1600000x1, .i32⟩
  | 97 => ⟨S1600000x64, .f32⟩
  | 98 => ⟨S_, .f32⟩
  | 99 => ⟨S100000x64, .f32⟩
  | 100 => ⟨S1600000x1, .i32⟩
  | 101 => ⟨S100000x64, .f32⟩
  | 102 => ⟨S_, .f32⟩
  | 103 => ⟨S1600000x1, .f32⟩
  | 104 => ⟨S_, .f32⟩
  | 105 => ⟨S100000x1, .f32⟩
  | 106 => ⟨S1600000x1, .i32⟩
  | 107 => ⟨S100000x1, .f32⟩
  | 108 => ⟨S_, .f32⟩
  | 109 => ⟨S100000x1, .f32⟩
  | 110 => ⟨S100000x1, .f32⟩
  | 111 => ⟨S100000x64, .f32⟩
  | 112 => ⟨S100000x64, .f32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S_, .f32⟩
  | 121 => ⟨S64, .f32⟩
  | 122 => ⟨S_, .f32⟩
  | 123 => ⟨S64, .f32⟩
  | 124 => ⟨S64, .f32⟩
  | 125 => ⟨S_, .i32⟩
  | 126 => ⟨S_, .f32⟩
  | 127 => ⟨S64, .f32⟩
  | _ => ⟨S100000x512, .f32⟩

abbrev hbmTy0_1 (i : Nat) : BufTy := match i % 128 with
  | 0 => ⟨S1x64, .f32⟩
  | 1 => ⟨S_, .f32⟩
  | 2 => ⟨S1x64, .f32⟩
  | 3 => ⟨S1x64, .f32⟩
  | 4 => ⟨S100000x64, .f32⟩
  | 5 => ⟨S100000x64, .f32⟩
  | 6 => ⟨S100000x64, .f32⟩
  | 7 => ⟨S_, .f32⟩
  | 8 => ⟨S_, .f32⟩
  | 9 => ⟨S_, .f32⟩
  | 10 => ⟨S_, .f32⟩
  | 11 => ⟨S64, .f32⟩
  | 12 => ⟨S64, .f32⟩
  | 13 => ⟨S64, .f32⟩
  | 14 => ⟨S_, .f32⟩
  | 15 => ⟨S_, .i1⟩
  | 16 => ⟨S_, .f32⟩
  | 17 => ⟨S_, .f32⟩
  | 18 => ⟨S64, .f32⟩
  | 19 => ⟨S64, .f32⟩
  | 20 => ⟨S1x64, .f32⟩
  | 21 => ⟨S100000x64, .f32⟩
  | 22 => ⟨S100000x64, .f32⟩
  | 23 => ⟨S_, .f32⟩
  | 24 => ⟨S64, .f32⟩
  | 25 => ⟨S64, .f32⟩
  | 26 => ⟨S64, .f32⟩
  | 27 => ⟨S1x64, .f32⟩
  | 28 => ⟨S100000x64, .f32⟩
  | 29 => ⟨S100000x64, .f32⟩
  | 30 => ⟨S1x64, .f32⟩
  | 31 => ⟨S100000x64, .f32⟩
  | 32 => ⟨S100000x64, .f32⟩
  | 33 => ⟨S1x64, .f32⟩
  | 34 => ⟨S100000x64, .f32⟩
  | 35 => ⟨S100000x64, .f32⟩
  | 36 => ⟨S100000x32, .f32⟩
  | 37 => ⟨S1x32, .f32⟩
  | 38 => ⟨S100000x32, .f32⟩
  | 39 => ⟨S100000x32, .f32⟩
  | 40 => ⟨S_, .f32⟩
  | 41 => ⟨S100000x32, .f32⟩
  | 42 => ⟨S100000x32, .f32⟩
  | 43 => ⟨S100000x32, .f32⟩
  | 44 => ⟨S1x32, .f32⟩
  | 45 => ⟨S100000x32, .f32⟩
  | 46 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call0_cst : Ref sig .tc := ⟨.hbm, 24, rfl⟩
abbrev main_call0_v0 : Ref sig .tc := ⟨.hbm, 25, rfl⟩
abbrev main_v8 : Ref sig .tc := ⟨.hbm, 26, rfl⟩
abbrev main_c : Ref sig .tc := ⟨.hbm, 27, rfl⟩
abbrev main_v9 : Ref sig .tc := ⟨.hbm, 28, rfl⟩
abbrev main_v10 : Ref sig .tc := ⟨.hbm, 29, rfl⟩
abbrev main_c_0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_call1_cst : Ref sig .tc := ⟨.hbm, 55, rfl⟩
abbrev main_call1_v0 : Ref sig .tc := ⟨.hbm, 56, rfl⟩
abbrev main_v31 : Ref sig .tc := ⟨.hbm, 57, rfl⟩
abbrev main_c_4 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_cst_8 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call2_cst : Ref sig .tc := ⟨.hbm, 86, rfl⟩
abbrev main_call2_v0 : Ref sig .tc := ⟨.hbm, 87, rfl⟩
abbrev main_v54 : Ref sig .tc := ⟨.hbm, 88, rfl⟩
abbrev main_c_10 : Ref sig .tc := ⟨.hbm, 89, rfl⟩
abbrev main_v55 : Ref sig .tc := ⟨.hbm, 90, rfl⟩
abbrev main_v56 : Ref sig .tc := ⟨.hbm, 91, rfl⟩
abbrev main_c_11 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_13 : Ref sig .tc := ⟨.hbm, 102, rfl⟩
abbrev main_v65 : Ref sig .tc := ⟨.hbm, 103, rfl⟩
abbrev main_cst_14 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_15 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_call3_cst : Ref sig .tc := ⟨.hbm, 117, rfl⟩
abbrev main_call3_v0 : Ref sig .tc := ⟨.hbm, 118, rfl⟩
abbrev main_v77 : Ref sig .tc := ⟨.hbm, 119, rfl⟩
abbrev main_cst_16 : Ref sig .tc := ⟨.hbm, 120, rfl⟩
abbrev main_v78 : Ref sig .tc := ⟨.hbm, 121, rfl⟩
abbrev main_cst_17 : Ref sig .tc := ⟨.hbm, 122, rfl⟩
abbrev main_v79 : Ref sig .tc := ⟨.hbm, 123, rfl⟩
abbrev main_v80 : Ref sig .tc := ⟨.hbm, 124, rfl⟩
abbrev main_c_18 : Ref sig .tc := ⟨.hbm, 125, rfl⟩
abbrev main_call4_cst : Ref sig .tc := ⟨.hbm, 126, rfl⟩
abbrev main_call4_v0 : Ref sig .tc := ⟨.hbm, 127, rfl⟩
abbrev main_call4_v1 : Ref sig .tc := ⟨.hbm, 128, rfl⟩
abbrev main_call4_cst_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_call4_v6 : Ref sig .tc := ⟨.hbm, 134, rfl⟩
abbrev main_call4_v7 : Ref sig .tc := ⟨.hbm, 135, rfl⟩
abbrev main_call4_cst_1 : Ref sig .tc := ⟨.hbm, 136, rfl⟩
abbrev main_call4_v8 : Ref sig .tc := ⟨.hbm, 137, rfl⟩
abbrev main_call4_cst_2 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_cst_3 : Ref sig .tc := ⟨.hbm, 142, rfl⟩
abbrev main_call4_v12 : Ref sig .tc := ⟨.hbm, 143, rfl⟩
abbrev main_call4_cst_4 : Ref sig .tc := ⟨.hbm, 144, rfl⟩
abbrev main_call4_call0_v0 : Ref sig .tc := ⟨.hbm, 145, rfl⟩
abbrev main_call4_call0_v1 : Ref sig .tc := ⟨.hbm, 146, rfl⟩
abbrev main_v81 : Ref sig .tc := ⟨.hbm, 147, rfl⟩
abbrev main_v82 : Ref sig .tc := ⟨.hbm, 148, rfl⟩
abbrev main_v83 : Ref sig .tc := ⟨.hbm, 149, rfl⟩
abbrev main_v84 : Ref sig .tc := ⟨.hbm, 150, rfl⟩
abbrev main_cst_19 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_call5_cst : Ref sig .tc := ⟨.hbm, 168, rfl⟩
abbrev main_call5_v0 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_v105 : Ref sig .tc := ⟨.hbm, 174, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.Spec.lean ====
/- The two programs' host arithmetic as named functions of array values, and the kernel regions' results as
   index-by-index functions. A graph network of three mean-aggregating layers over 100000 nodes and 1600000
   edges: a dense layer with a rectifier, three times (aggregate the neighbours' rows along the edges, divide by
   the in-degree, dense layer with a rectifier), a batch normalisation over the node axis, and two dense layers. -/
import proofs.«401189_j18330920419815_1_alg».proof.ReferenceIdeal
import Idealize.ShloMosaic.PureOps.Ideal
import Idealize.ShloMosaic.Lib.ValueIdx

noncomputable section

open scoped BigOperators

namespace Cert.Hand

open Idealize.ShloMosaic Idealize.ShloMosaic.ValueIdx Cert.ReferenceIdeal Cert.ReferenceIdeal.Facts₀

variable {F : FTy → Type} [FloatOps F] [Cert.ReferenceIdeal.Facts]

/-! ## The edge list -/

/-- Row 0 of the edge list: the source node of every edge. -/
def srcOf (ei : IVec S2x1600000 32) : IVec S1600000 32 :=
  shapeCast S1600000 (extractStridedSlice S1x1600000 ![0, 0] ei slices_S2x1600000_S1x1600000_0_0) shapeCasts_S1x1600000_S1600000

/-- Row 1 of the edge list: the destination node of every edge. -/
def dstOf (ei : IVec S2x1600000 32) : IVec S1600000 32 :=
  shapeCast S1600000 (extractStridedSlice S1x1600000 ![1, 0] ei slices_S2x1600000_S1x1600000_1_0) shapeCasts_S1x1600000_S1600000

/-- The source indices as the gather reads them: a negative index counts from the end (100000 is added), then a column. -/
def srcIdx (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The destination indices as the scatter reads them: a column. -/
def dstIdx (d : IVec S1600000 32) : IVec S1600000x1 32 :=
  broadcastInDim S1600000x1 ![0] bcast_S1600000_S1600000x1_0 d

/-- The in-degree of every node, at least 1: ones scattered along the destinations onto zeros, then the maximum with 1. -/
def degOf (d : IVec S1600000 32) : FVec F S100000x1 .f32 :=
  maximumf
    (Host.scatterAdd scatter_S100000x1_S1600000x1_S1600000x1_1_0_0_1
      (broadcastInDim S100000x1 ![] bcast_S_S100000x1 (constant S_ .f32 0x00000000#32)) (dstIdx d)
      (broadcastInDim S1600000x1 ![] bcast_S_S1600000x1 (constant S_ .f32 0x3F800000#32)))
    (broadcastInDim S100000x1 ![] bcast_S_S100000x1 (constant S_ .f32 0x3F800000#32))

/-- Mean aggregation of 128-wide rows: the source rows gathered along the edges, summed into the destination rows,
    divided by the in-degree. -/
def agg128 (h : FVec F S100000x128 .f32) (s d : IVec S1600000 32) : FVec F S100000x128 .f32 :=
  Host.divf
    (Host.scatterAdd scatter_S100000x128_S1600000x1_S1600000x128_1_0_0_1
      (broadcastInDim S100000x128 ![] bcast_S_S100000x128 (constant S_ .f32 0x00000000#32)) (dstIdx d)
      (Host.gather gather_S100000x128_S1600000x1_S1600000x128_1_0_n_n_0_1_1128 h (srcIdx s)))
    (broadcastInDim S100000x128 ![0, 1] bcast_S100000x1_S100000x128_0_1 (degOf d))

/-- Mean aggregation of 64-wide rows. -/
def agg64 (h : FVec F S100000x64 .f32) (s d : IVec S1600000 32) : FVec F S100000x64 .f32 :=
  Host.divf
    (Host.scatterAdd scatter_S100000x64_S1600000x1_S1600000x64_1_0_0_1
      (broadcastInDim S100000x64 ![] bcast_S_S100000x64 (constant S_ .f32 0x00000000#32)) (dstIdx d)
      (Host.gather gather_S100000x64_S1600000x1_S1600000x64_1_0_n_n_0_1_164 h (srcIdx s)))
    (broadcastInDim S100000x64 ![0, 1] bcast_S100000x1_S100000x64_0_1 (degOf d))

/-! ## The dense layers on the host -/

/-- A 128-vector as a row of every node. -/
def row128 (b : FVec F S128 .f32) : FVec F S100000x128 .f32 :=
  broadcastInDim S100000x128 ![0, 1] bcast_S1x128_S100000x128_0_1 (broadcastInDim S1x128 ![1] bcast_S128_S1x128_1 b)
/-- A 64-vector as a row of every node. -/
def row64 (b : FVec F S64 .f32) : FVec F S100000x64 .f32 :=
  broadcastInDim S100000x64 ![0, 1] bcast_S1x64_S100000x64_0_1 (broadcastInDim S1x64 ![1] bcast_S64_S1x64_1 b)
/-- A 32-vector as a row of every node. -/
def row32 (b : FVec F S32 .f32) : FVec F S100000x32 .f32 :=
  broadcastInDim S100000x32 ![0, 1] bcast_S1x32_S100000x32_0_1 (broadcastInDim S1x32 ![1] bcast_S32_S1x32_1 b)

/-- x · W + b, rectified: 512 → 128. -/
def lin1 (x : FVec F S100000x512 .f32) (W : FVec F S512x128 .f32) (b : FVec F S128 .f32) : FVec F S100000x128 .f32 :=
  maximumf (addf (Host.dotGeneral dot_S100000x512_S512x128_S100000x128_1_0_0_1_n_n none x W) (row128 b))
    (broadcastInDim S100000x128 ![] bcast_S_S100000x128 (constant S_ .f32 0x00000000#32))

/-- x · W + b, rectified: 128 → 64. -/
def lin2 (x : FVec F S100000x128 .f32) (W : FVec F S128x64 .f32) (b : FVec F S64 .f32) : FVec F S100000x64 .f32 :=
  maximumf (addf (Host.dotGeneral dot_S100000x128_S128x64_S100000x64_1_0_0_1_n_n none x W) (row64 b))
    (broadcastInDim S100000x64 ![] bcast_S_S100000x64 (constant S_ .f32 0x00000000#32))

/-- x · W + b, rectified: 64 → 64. -/
def lin3 (x : FVec F S100000x64 .f32) (W : FVec F S64x64 .f32) (b : FVec F S64 .f32) : FVec F S100000x64 .f32 :=
  maximumf (addf (Host.dotGeneral dot_S100000x64_S64x64_S100000x64_1_0_0_1_n_n none x W) (row64 b))
    (broadcastInDim S100000x64 ![] bcast_S_S100000x64 (constant S_ .f32 0x00000000#32))

/-! ## The batch statistics -/

/-- The column means over the 100000 nodes. -/
def meanOf (h : FVec F S100000x64 .f32) : FVec F S64 .f32 :=
  Host.divf (Host.reduceAdd h (constant S_ .f32 0x00000000#32) reducesTo_S100000x64_S64_d0 h_S_)
    (broadcastInDim S64 ![] bcast_S_S64 (constant S_ .f32 0x47C35000#32))

/-- The column means as jnp.var takes them (through a [1, 64] row), as a row of every node. -/
def varMean (h : FVec F S100000x64 .f32) : FVec F S100000x64 .f32 :=
  broadcastInDim S100000x64 ![0, 1] bcast_S1x64_S100000x64_0_1
    (Host.divf
      (broadcastInDim S1x64 ![1] bcast_S64_S1x64_1
        (Host.reduceAdd h (constant S_ .f32 0x00000000#32) reducesTo_S100000x64_S64_d0 h_S_))
      (broadcastInDim S1x64 ![] bcast_S_S1x64 (constant S_ .f32 0x47C35000#32)))

/-- The divisor of the variance: 100000 minus the (zero) degrees-of-freedom correction. -/
def varDen : FVec F S_ .f32 :=
  subf (constant S_ .f32 0x47C35000#32) (sitofp .f32 (constantI S_ 32 0#32))

/-- The column variances over the nodes (jnp.var: the mean of the squared deviations; where the divisor is not
    positive the result would be the not-a-number pattern). -/
def varOf (h : FVec F S100000x64 .f32) : FVec F S64 .f32 :=
  select (broadcastInDim S64 ![] bcast_S_S64 (cmpf .ogt (varDen (F := F)) (constant S_ .f32 0x00000000#32)))
    (Host.divf
      (Host.reduceAdd (mulf (subf h (varMean h)) (subf h (varMean h))) (constant S_ .f32 0x00000000#32)
        reducesTo_S100000x64_S64_d0 h_S_)
      (broadcastInDim S64 ![] bcast_S_S64 (varDen (F := F))))
    (broadcastInDim S64 ![] bcast_S_S64 (id (constant S_ .f32 0x7FC00000#32)))

/-- 1 / sqrt (variance + 1e-5). -/
def rstdOf (h : FVec F S100000x64 .f32) : FVec F S64 .f32 :=
  Host.rsqrt (addf (varOf h) (broadcastInDim S64 ![] bcast_S_S64 (constant S_ .f32 0x3727C5AC#32)))

/-- The kernel's scale: rstd · gamma. -/
def scaleOf (h : FVec F S100000x64 .f32) (g : FVec F S64 .f32) : FVec F S64 .f32 := mulf (rstdOf h) g
/-- The kernel's shift: beta − mean · scale. -/
def shiftOf (h : FVec F S100000x64 .f32) (g β : FVec F S64 .f32) : FVec F S64 .f32 :=
  subf β (mulf (meanOf h) (scaleOf h g))

/-- The reference's normalisation: ((h − mean) · rstd) · gamma + beta. -/
def bnRef (h : FVec F S100000x64 .f32) (g β : FVec F S64 .f32) : FVec F S100000x64 .f32 :=
  addf (mulf (mulf (subf h (row64 (meanOf h))) (row64 (rstdOf h))) (row64 g)) (row64 β)

/-- The reference's last two dense layers: rectified (hn · W2 + b2), then · W3 + b3. -/
def headRef (hn : FVec F S100000x64 .f32) (W2 : FVec F S64x32 .f32) (b2 : FVec F S32 .f32) (W3 : FVec F S32x32 .f32)
    (b3 : FVec F S32 .f32) : FVec F S100000x32 .f32 :=
  addf
    (Host.dotGeneral dot_S100000x32_S32x32_S100000x32_1_0_0_1_n_n none
      (maximumf (addf (Host.dotGeneral dot_S100000x64_S64x32_S100000x32_1_0_0_1_n_n none hn W2) (row32 b2))
        (broadcastInDim S100000x32 ![] bcast_S_S100000x32 (constant S_ .f32 0x00000000#32)))
      W3)
    (row32 b3)

/-! ## The whole reference -/

/-- The activations after the third aggregating layer, by the reference's host operations. -/
def h4Of (x : FVec F S100000x512 .f32) (W1 : FVec F S512x128 .f32) (b1 : FVec F S128 .f32) (Wc1 : FVec F S128x64 .f32)
    (bc1 : FVec F S64 .f32) (Wc2 : FVec F S64x64 .f32) (bc2 : FVec F S64 .f32) (Wc3 : FVec F S64x64 .f32) (bc3 : FVec F S64 .f32)
    (ei : IVec S2x1600000 32) : FVec F S100000x64 .f32 :=
  lin3 (agg64 (lin3 (agg64 (lin2 (agg128 (lin1 x W1 b1) (srcOf ei) (dstOf ei)) Wc1 bc1) (srcOf ei) (dstOf ei)) Wc2 bc2)
    (srcOf ei) (dstOf ei)) Wc3 bc3

/-- The reference's result. -/
def refOut (x : FVec F S100000x512 .f32) (W1 : FVec F S512x128 .f32) (b1 : FVec F S128 .f32) (Wc1 : FVec F S128x64 .f32)
    (bc1 : FVec F S64 .f32) (Wc2 : FVec F S64x64 .f32) (bc2 : FVec F S64 .f32) (Wc3 : FVec F S64x64 .f32) (bc3 : FVec F S64 .f32)
    (g β : FVec F S64 .f32) (W2 : FVec F S64x32 .f32) (b2 : FVec F S32 .f32) (W3 : FVec F S32x32 .f32) (b3 : FVec F S32 .f32)
    (ei : IVec S2x1600000 32) : FVec F S100000x32 .f32 :=
  headRef (bnRef (h4Of x W1 b1 Wc1 bc1 Wc2 bc2 Wc3 bc3 ei) g β) W2 b2 W3 b3

/-! ## The kernel's regions, index by index, on the extended reals -/

/-- A dense layer with a rectifier at an index: max (Σ_k x[i,k] · W[k,j] + b[j], 0). -/
def Glin {K D : Nat} (x : FVec Ideal ⟨2, ![100000, K]⟩ .f32) (W : FVec Ideal ⟨2, ![K, D]⟩ .f32) (b : FVec Ideal ⟨1, ![D]⟩ .f32) :
    FVec Ideal ⟨2, ![100000, D]⟩ .f32 :=
  fun i => max ((∑ k : Fin K, x (ix2 (i 0) k) * W (ix2 k (i 1))) + b (ix1 (i 1))) 0

/-- The last region at an index: Σ_k max (Σ_k' (h[i,k'] · sc[k'] + sh[k']) · W2[k',k] + b2[k], 0) · W3[k,j] + b3[j]. -/
def Gfin (h : FVec Ideal S100000x64 .f32) (sc sh : FVec Ideal S64 .f32) (W2 : FVec Ideal S64x32 .f32) (b2 : FVec Ideal S32 .f32)
    (W3 : FVec Ideal S32x32 .f32) (b3 : FVec Ideal S32 .f32) : FVec Ideal S100000x32 .f32 :=
  fun i => (∑ k : Fin 32,
      max ((∑ k' : Fin 64, (h (ix2 (i 0) k') * sc (ix1 k') + sh (ix1 k')) * W2 (ix2 k' k)) + b2 (ix1 k)) 0 * W3 (ix2 k (i 1)))
    + b3 (ix1 (i 1))

/-- The activations after the third aggregating layer, with the kernel's regions for the dense layers. -/
def h4K (x : FVec Ideal S100000x512 .f32) (W1 : FVec Ideal S512x128 .f32) (b1 : FVec Ideal S128 .f32) (Wc1 : FVec Ideal S128x64 .f32)
    (bc1 : FVec Ideal S64 .f32) (Wc2 : FVec Ideal S64x64 .f32) (bc2 : FVec Ideal S64 .f32) (Wc3 : FVec Ideal S64x64 .f32)
    (bc3 : FVec Ideal S64 .f32) (ei : IVec S2x1600000 32) : FVec Ideal S100000x64 .f32 :=
  Glin (agg64 (Glin (agg64 (Glin (agg128 (Glin x W1 b1) (srcOf ei) (dstOf ei)) Wc1 bc1) (srcOf ei) (dstOf ei)) Wc2 bc2)
    (srcOf ei) (dstOf ei)) Wc3 bc3

/-- The kernel's result. -/
def kerOut (x : FVec Ideal S100000x512 .f32) (W1 : FVec Ideal S512x128 .f32) (b1 : FVec Ideal S128 .f32) (Wc1 : FVec Ideal S128x64 .f32)
    (bc1 : FVec Ideal S64 .f32) (Wc2 : FVec Ideal S64x64 .f32) (bc2 : FVec Ideal S64 .f32) (Wc3 : FVec Ideal S64x64 .f32)
    (bc3 : FVec Ideal S64 .f32) (g β : FVec Ideal S64 .f32) (W2 : FVec Ideal S64x32 .f32) (b2 : FVec Ideal S32 .f32)
    (W3 : FVec Ideal S32x32 .f32) (b3 : FVec Ideal S32 .f32) (ei : IVec S2x1600000 32) : FVec Ideal S100000x32 .f32 :=
  Gfin (h4K x W1 b1 Wc1 bc1 Wc2 bc2 Wc3 bc3 ei) (scaleOf (h4K x W1 b1 Wc1 bc1 Wc2 bc2 Wc3 bc3 ei) g)
    (shiftOf (h4K x W1 b1 Wc1 bc1 Wc2 bc2 Wc3 bc3 ei) g β) W2 b2 W3 b3

/-- Every entry is a real number (neither infinity). -/
def IsReal {S : Shape} (v : FVec Ideal S .f32) : Prop := ∀ i, ∃ r : ℝ, v i = (r : EReal)

end Cert.Hand

end
-- ==== Proof.KReg0.lean ====
/- Region 0 of the kernel (a dense layer with a rectifier over 50 blocks of 2000 rows): the body's arithmetic at an entry of a
   block — the matrix product as the sum over the shared axis, the bias as a row, the maximum with zero —, each input block as
   the rows of its array the block index names, what a point writes back as its block of the dense layer of the arrays the
   region finds, the blocks' cover of the output array, and so the array after the region. -/
import proofs.«401189_j18330920419815_1_alg».proof.Proof.Gen.KernelIdeal.Frame
import proofs.«401189_j18330920419815_1_alg».proof.Proof.Spec
import Idealize.ShloMosaic.Lib.Pipeline.Value
import Idealize.ShloMosaic.PureOps.Ideal.Laws
import Idealize.ShloMosaic.Lib.ValueIdx

set_option maxRecDepth 16384

noncomputable section

open scoped BigOperators

namespace Cert.Hand

open Idealize.ShloMosaic Idealize.ShloMosaic.TcCoe Idealize.ShloMosaic.ValueIdx Idealize.SL.Sem Cert.KernelIdeal Cert.KernelIdeal.Gen

/-! ## The body's arithmetic at an index -/

/-- The left operand's row coordinate is the output's row. -/
theorem reg0_lhs_row (j : S2000x128.Idx) (k : dot_S2000x512_S512x128_S2000x128_1_0_0_1_n_n.contr.Idx) :
    (dot_S2000x512_S512x128_S2000x128_1_0_0_1_n_n.lhsIdx j k 0).val = (j 0).val := by
  unfold DotDims.lhsIdx
  rw [dif_neg (show ¬ (0 : Fin S2000x512.rank) ∈ dot_S2000x512_S512x128_S2000x128_1_0_0_1_n_n.lhsBatch by decide),
    dif_pos (show (0 : Fin S2000x512.rank) ∈ dot_S2000x512_S512x128_S2000x128_1_0_0_1_n_n.lhsNonContracting by decide)]
  rfl

/-- The left operand's column coordinate is the summation index. -/
theorem reg0_lhs_col (j : S2000x128.Idx) (k : dot_S2000x512_S512x128_S2000x128_1_0_0_1_n_n.contr.Idx) :
    (dot_S2000x512_S512x128_S2000x128_1_0_0_1_n_n.lhsIdx j k 1).val = (k ⟨0, by decide⟩).val :=
  DotDims.lhsIdx_val_of_single _ rfl j k

/-- The right operand's row coordinate is the summation index. -/
theorem reg0_rhs_row (j : S2000x128.Idx) (k : dot_S2000x512_S512x128_S2000x128_1_0_0_1_n_n.contr.Idx) :
    (dot_S2000x512_S512x128_S2000x128_1_0_0_1_n_n.rhsIdx j k 0).val = (k ⟨0, by decide⟩).val :=
  DotDims.rhsIdx_val_of_single _ rfl j k

/-- The right operand's column coordinate is the output's column. -/
theorem reg0_rhs_col (j : S2000x128.Idx) (k : dot_S2000x512_S512x128_S2000x128_1_0_0_1_n_n.contr.Idx) :
    (dot_S2000x512_S512x128_S2000x128_1_0_0_1_n_n.rhsIdx j k 1).val = (j 1).val := by
  unfold DotDims.rhsIdx
  rw [dif_neg (show ¬ (1 : Fin S512x128.rank) ∈ dot_S2000x512_S512x128_S2000x128_1_0_0_1_n_n.rhsBatch by decide),
    dif_pos (show (1 : Fin S512x128.rank) ∈ dot_S2000x512_S512x128_S2000x128_1_0_0_1_n_n.rhsNonContracting by decide)]
  rfl

/-- The matrix product into a zero accumulator, at an entry: the sum over the shared axis of the products. -/
theorem reg0_matmul_apply (A : FVec Ideal S2000x512 .bf16) (B : FVec Ideal S512x128 .bf16) (p : Fin 2000) (q : Fin 128) :
    matmul dot_S2000x512_S512x128_S2000x128_1_0_0_1_n_n none A B (constant (F := Ideal) S2000x128 .f32 0x00000000#32) (ix2 p q)
      = ∑ k : Fin 512, A (ix2 p k) * B (ix2 k q) := by
  show FloatOps.matmul dot_S2000x512_S512x128_S2000x128_1_0_0_1_n_n none A B (constant (F := Ideal) S2000x128 .f32 0x00000000#32) (ix2 p q) = _
  rw [Ideal.matmul_constant_zero_apply, ← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have hl : dot_S2000x512_S512x128_S2000x128_1_0_0_1_n_n.lhsIdx (ix2 p q) ((contrEquiv1 dot_S2000x512_S512x128_S2000x128_1_0_0_1_n_n 512 rfl rfl).symm k) = ix2 p k := by
    funext a; apply Fin.ext
    match a with
    | ⟨0, _⟩ => exact reg0_lhs_row _ _
    | ⟨1, _⟩ => exact (reg0_lhs_col _ _).trans hk
  have hr : dot_S2000x512_S512x128_S2000x128_1_0_0_1_n_n.rhsIdx (ix2 p q) ((contrEquiv1 dot_S2000x512_S512x128_S2000x128_1_0_0_1_n_n 512 rfl rfl).symm k) = ix2 k q := by
    funext a; apply Fin.ext
    match a with
    | ⟨0, _⟩ => exact (reg0_rhs_row _ _).trans hk
    | ⟨1, _⟩ => exact reg0_rhs_col _ _
  rw [hl, hr]

/-- The bias as a row of every node of the block, at an entry: the bias at the column. -/
theorem reg0_bias_apply (b : Vec Ideal S128 .f32) (p : Fin 2000) (q : Fin 128) :
    broadcastTo S2000x128 (shapeCast S1x128 b shapeCasts_S128_S1x128) broadcasts_S1x128_S2000x128 (ix2 p q) = b (ix1 q) := by
  refine (broadcastTo_apply _ broadcasts_S1x128_S2000x128 (ix2 p q) (ix2 (0 : Fin 1) q) fun a => ?_).trans ?_
  · match a with
    | ⟨0, _⟩ => rfl
    | ⟨1, _⟩ => rfl
  · refine shapeCast_apply b shapeCasts_S128_S1x128 (ix2 (0 : Fin 1) q) (ix1 q) ?_
    rw [Shape.rowMajor_val_one, Shape.rowMajor_val_two]
    show q.val = 0 * 128 + q.val
    omega

/-- The body's result at an entry of the block: the rectified sum of products plus bias. -/
theorem reg0_pay_apply (x0 : Vec Ideal S2000x512 .f32) (x1 : Vec Ideal S512x128 .f32) (x2 : Vec Ideal S128 .f32)
    (p : Fin 2000) (q : Fin 128) :
    k0_pay1 x0 x1 x2 (ix2 p q) = max ((∑ k : Fin 512, x0 (ix2 p k) * x1 (ix2 k q)) + x2 (ix1 q)) 0 := by
  unfold k0_pay1
  have hm : matmul dot_S2000x512_S512x128_S2000x128_1_0_0_1_n_n none (truncf .bf16 x0 bitsLt_bf16_f32) (truncf .bf16 x1 bitsLt_bf16_f32)
      (constant (F := Ideal) S2000x128 .f32 0x00000000#32) (ix2 p q) = ∑ k : Fin 512, x0 (ix2 p k) * x1 (ix2 k q) :=
    reg0_matmul_apply _ _ p q
  have hb := reg0_bias_apply x2 p q
  show max (_ + _) (Ideal.ofBits .f32 0x00000000#32) = _
  rw [Ideal.ofBits_zero_f32]
  exact congrArg (fun z => max z 0) (congrArg₂ (· + ·) hm hb)

/-! ## From the blocks to the array -/

theorem reg0_hz2 : (![0, 0] : Fin 2 → Nat) = fun _ => 0 := funext fun a => by fin_cases a <;> rfl
theorem reg0_hz1 : (![0] : Fin 1 → Nat) = fun _ => 0 := funext fun a => by fin_cases a <;> rfl

/-- Where each window's block sits at a point of the grid: the activations' and the output's blocks are the
    point's 2000 rows, the weights and the bias are whole. -/
theorem reg0_idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The body's result on a block whose inputs are the point's rows of the activations, the weights and the bias is the
    dense layer at the corresponding entry of the whole array. -/
theorem reg0_block_eq (X : FVec Ideal S100000x512 .f32) (W : FVec Ideal S512x128 .f32) (b : FVec Ideal S128 .f32)
    (x0 : Vec Ideal S2000x512 .f32) (x1 : Vec Ideal S512x128 .f32) (x2 : Vec Ideal S128 .f32) (n : Nat)
    (h0 : ∀ (p : Fin 2000) (k : Fin 512) (r : Fin 100000), r.val = n * 2000 + p.val → x0 (ix2 p k) = X (ix2 r k))
    (h1 : x1 = W) (h2 : x2 = b)
    (y : S2000x128.Idx) (i : S100000x128.Idx) (hi0 : (i 0).val = n * 2000 + (y 0).val) (hi1 : (i 1).val = (y 1).val) :
    k0_pay1 x0 x1 x2 y = Glin X W b i := by
  obtain ⟨p, q, rfl⟩ : ∃ (p : Fin 2000) (q : Fin 128), y = ix2 p q := ⟨y 0, y 1, eq_ix2 y⟩
  obtain ⟨r, s, rfl⟩ : ∃ (r : Fin 100000) (s : Fin 128), i = ix2 r s := ⟨i 0, i 1, eq_ix2 i⟩
  obtain rfl : s = q := Fin.ext hi1
  rw [reg0_pay_apply, h1, h2]
  show _ = max ((∑ k : Fin 512, X (ix2 r k) * W (ix2 k s)) + b (ix1 s)) 0
  rw [Finset.sum_congr rfl fun k _ => by rw [h0 p k r hi0]]

/-- The activations' block at a point is the point's 2000 rows of the array. -/
theorem reg0_xblock (V : (c : Dev nD) → (b : Ref sig .tc) → Buf (Elt Ideal) ((c : Thread nD τ).loc b)) (c : Dev nD)
    (t : Fin cfg0.N) (p : Fin 2000) (k : Fin 512) (r : Fin 100000) (hr : r.val = t.val * 2000 + p.val) :
    (iblk0 (F := Ideal) V c 0 t : Vec Ideal S2000x512 .f32) (ix2 p k) = (V c main_arg0 : S100000x512.Idx → Elt Ideal .f32) (ix2 r k) := by
  obtain ⟨e0, e1, -, -, -, -, -⟩ := reg0_idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The weights' block at every point is the whole array. -/
theorem reg0_wblock (V : (c : Dev nD) → (b : Ref sig .tc) → Buf (Elt Ideal) ((c : Thread nD τ).loc b)) (c : Dev nD)
    (t : Fin cfg0.N) :
    (iblk0 (F := Ideal) V c 1 t : Vec Ideal S512x128 .f32) = (V c main_arg1 : S512x128.Idx → Elt Ideal .f32) := by
  obtain ⟨-, -, e2, e3, -, -, -⟩ := reg0_idx_facts t
  funext y
  unfold iblk0
  rw [View.read_apply]
  show V c main_arg1 _ = V c main_arg1 y
  congr 1
  funext a
  apply Fin.ext
  match a with
  | ⟨0, _⟩ => show win0_1.index t (0 : Fin 2) * 512 + 1 * (y 0).val = (y 0).val; rw [e2]; omega
  | ⟨1, _⟩ => show win0_1.index t (1 : Fin 2) * 128 + 1 * (y 1).val = (y 1).val; rw [e3]; omega

/-- The bias's block at every point is the whole vector. -/
theorem reg0_bblock (V : (c : Dev nD) → (b : Ref sig .tc) → Buf (Elt Ideal) ((c : Thread nD τ).loc b)) (c : Dev nD)
    (t : Fin cfg0.N) :
    (iblk0 (F := Ideal) V c 2 t : Vec Ideal S128 .f32) = (V c main_arg2 : S128.Idx → Elt Ideal .f32) := by
  obtain ⟨-, -, -, -, e4, -, -⟩ := reg0_idx_facts t
  funext y
  unfold iblk0
  rw [View.read_apply]
  show V c main_arg2 _ = V c main_arg2 y
  congr 1
  funext a
  apply Fin.ext
  match a with
  | ⟨0, _⟩ => show win0_2.index t (0 : Fin 1) * 128 + 1 * (y 0).val = (y 0).val; rw [e4]; omega

/-- What a point writes back is its block of the dense layer of the arrays the region finds. -/
theorem reg0_flushed_eq (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal) (Glin (V c main_arg0) (V c main_arg1) (V c main_arg2)) := by
  show (cfg0.win 3).cut (grid0.coords t) ((dat0 (F := Ideal) V c).after 3 t) = _
  rw [after0_3]
  unfold out0_3
  rw [View.canon_unit_zero reg0_hz2]
  simp only [View.ld_unit_zero (S := S2000x512) reg0_hz2, View.ld_unit_zero (S := S512x128) reg0_hz2,
    View.ld_unit_zero (S := S128) reg0_hz1]
  obtain ⟨-, -, -, -, -, e5, e6⟩ := reg0_idx_facts t
  funext j
  show k0_pay1 (iblk0 V c 0 t) (iblk0 V c 1 t) (iblk0 V c 2 t) ((cfg0.win 3).xinj (grid0.coords t) j)
    = Glin (V c main_arg0) (V c main_arg1) (V c main_arg2) (((cfg0.win 3).blk t).view.emb j)
  refine reg0_block_eq (V c main_arg0) (V c main_arg1) (V c main_arg2) (iblk0 V c 0 t) (iblk0 V c 1 t) (iblk0 V c 2 t) t.val
    (fun p k r hr => reg0_xblock V c t p k r hr) (reg0_wblock V c t) (reg0_bblock V c t)
    ((cfg0.win 3).xinj (grid0.coords t) j) (((cfg0.win 3).blk t).view.emb j) ?_ ?_
  · show win0_3.index t (0 : Fin 2) * 2000 + 1 * (j 0).val = t.val * 2000 + (j 0).val
    rw [e5]; omega
  · show win0_3.index t (1 : Fin 2) * 128 + 1 * (j 1).val = (j 1).val
    rw [e6]; omega

/-- An entry of the output array is in a point's block iff each coordinate is in the block's range. -/
theorem reg0_mem_blk (t : Fin cfg0.N) (i : S100000x128.Idx) :
    i ∈ ((cfg0.win 3).blk t).view.set
      ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- Every entry of the output array is written back by the point of its row's block of 2000. -/
theorem reg0_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, e5, e6⟩ := reg0_idx_facts t
  have ht : t.val = (i 0).val / 2000 := rfl
  refine ⟨t, flush0_3 t, ?_⟩
  rw [reg0_mem_blk]
  intro a
  match a with
  | ⟨0, _⟩ =>
    show win0_3.index t (0 : Fin 2) * 2000 ≤ (i 0).val ∧ (i 0).val < win0_3.index t (0 : Fin 2) * 2000 + 2000
    rw [e5, ht]; omega
  | ⟨1, _⟩ =>
    show win0_3.index t (1 : Fin 2) * 128 ≤ (i 1).val ∧ (i 1).val < win0_3.index t (1 : Fin 2) * 128 + 128
    rw [e6]; omega

/-- Region 0's output array after the region: the dense layer with its rectifier of the arrays the region finds, index by index. -/
theorem final0 (V : (c : Dev nD) → (b : Ref sig .tc) → Buf (Elt Ideal) ((c : Thread nD τ).loc b)) (c : Dev nD) :
    (dat0 (F := Ideal) V c).arrAt 3 cfg0.N = Glin (V c main_arg0) (V c main_arg1) (V c main_arg2) :=
  (dat0 (F := Ideal) V c).arrAt_eq_of_cover 3 (Glin (V c main_arg0) (V c main_arg1) (V c main_arg2))
    (fun t _ => reg0_flushed_eq V c t) reg0_cover

end Cert.Hand

end
-- ==== Proof.KReg1.lean ====
/- Region 1 of the kernel (a dense layer with a rectifier over 50 blocks of 2000 rows): the body's arithmetic at an entry of a
   block — the matrix product as the sum over the shared axis, the bias as a row, the maximum with zero —, each input block as
   the rows of its array the block index names, what a point writes back as its block of the dense layer of the arrays the
   region finds, the blocks' cover of the output array, and so the array after the region. -/
import proofs.«401189_j18330920419815_1_alg».proof.Proof.Gen.KernelIdeal.Frame
import proofs.«401189_j18330920419815_1_alg».proof.Proof.Spec
import Idealize.ShloMosaic.Lib.Pipeline.Value
import Idealize.ShloMosaic.PureOps.Ideal.Laws
import Idealize.ShloMosaic.Lib.ValueIdx

set_option maxRecDepth 16384

noncomputable section

open scoped BigOperators

namespace Cert.Hand

open Idealize.ShloMosaic Idealize.ShloMosaic.TcCoe Idealize.ShloMosaic.ValueIdx Idealize.SL.Sem Cert.KernelIdeal Cert.KernelIdeal.Gen

/-! ## The body's arithmetic at an index -/

/-- The left operand's row coordinate is the output's row. -/
theorem reg1_lhs_row (j : S2000x64.Idx) (k : dot_S2000x128_S128x64_S2000x64_1_0_0_1_n_n.contr.Idx) :
    (dot_S2000x128_S128x64_S2000x64_1_0_0_1_n_n.lhsIdx j k 0).val = (j 0).val := by
  unfold DotDims.lhsIdx
  rw [dif_neg (show ¬ (0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- The left operand's column coordinate is the summation index. -/
theorem reg1_lhs_col (j : S2000x64.Idx) (k : dot_S2000x128_S128x64_S2000x64_1_0_0_1_n_n.contr.Idx) :
    (dot_S2000x128_S128x64_S2000x64_1_0_0_1_n_n.lhsIdx j k 1).val = (k ⟨0, by decide⟩).val :=
  DotDims.lhsIdx_val_of_single _ rfl j k

/-- The right operand's row coordinate is the summation index. -/
theorem reg1_rhs_row (j : S2000x64.Idx) (k : dot_S2000x128_S128x64_S2000x64_1_0_0_1_n_n.contr.Idx) :
    (dot_S2000x128_S128x64_S2000x64_1_0_0_1_n_n.rhsIdx j k 0).val = (k ⟨0, by decide⟩).val :=
  DotDims.rhsIdx_val_of_single _ rfl j k

/-- The right operand's column coordinate is the output's column. -/
theorem reg1_rhs_col (j : S2000x64.Idx) (k : dot_S2000x128_S128x64_S2000x64_1_0_0_1_n_n.contr.Idx) :
    (dot_S2000x128_S128x64_S2000x64_1_0_0_1_n_n.rhsIdx j k 1).val = (j 1).val := by
  unfold DotDims.rhsIdx
  rw [dif_neg (show ¬ (1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The matrix product into a zero accumulator, at an entry: the sum over the shared axis of the products. -/
theorem reg1_matmul_apply (A : FVec Ideal S2000x128 .bf16) (B : FVec Ideal S128x64 .bf16) (p : Fin 2000) (q : Fin 64) :
    matmul dot_S2000x128_S128x64_S2000x64_1_0_0_1_n_n none A B (constant (F := Ideal) S2000x64 .f32 0x00000000#32) (ix2 p q)
      = ∑ k : Fin 128, A (ix2 p k) * B (ix2 k q) := by
  show FloatOps.matmul dot_S2000x128_S128x64_S2000x64_1_0_0_1_n_n none A B (constant (F := Ideal) S2000x64 .f32 0x00000000#32) (ix2 p q) = _
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have hl : dot_S2000x128_S128x64_S2000x64_1_0_0_1_n_n.lhsIdx (ix2 p q) ((contrEquiv1 dot_S2000x128_S128x64_S2000x64_1_0_0_1_n_n 128 rfl rfl).symm k) = ix2 p k := by
    funext a; apply Fin.ext
    match a with
    | ⟨0, _⟩ => exact reg1_lhs_row _ _
    | ⟨1, _⟩ => exact (reg1_lhs_col _ _).trans hk
  have hr : dot_S2000x128_S128x64_S2000x64_1_0_0_1_n_n.rhsIdx (ix2 p q) ((contrEquiv1 dot_S2000x128_S128x64_S2000x64_1_0_0_1_n_n 128 rfl rfl).symm k) = ix2 k q := by
    funext a; apply Fin.ext
    match a with
    | ⟨0, _⟩ => exact (reg1_rhs_row _ _).trans hk
    | ⟨1, _⟩ => exact reg1_rhs_col _ _
  rw [hl, hr]

/-- The bias as a row of every node of the block, at an entry: the bias at the column. -/
theorem reg1_bias_apply (b : Vec Ideal S64 .f32) (p : Fin 2000) (q : Fin 64) :
    broadcastTo S2000x64 (shapeCast S1x64 b shapeCasts_S64_S1x64) broadcasts_S1x64_S2000x64 (ix2 p q) = b (ix1 q) := by
  refine (broadcastTo_apply _ broadcasts_S1x64_S2000x64 (ix2 p q) (ix2 (0 : Fin 1) q) fun a => ?_).trans ?_
  · match a with
    | ⟨0, _⟩ => rfl
    | ⟨1, _⟩ => rfl
  · refine shapeCast_apply b shapeCasts_S64_S1x64 (ix2 (0 : Fin 1) q) (ix1 q) ?_
    rw [Shape.rowMajor_val_one, Shape.rowMajor_val_two]
    show q.val = 0 * 64 + q.val
    omega

/-- The body's result at an entry of the block: the rectified sum of products plus bias. -/
theorem reg1_pay_apply (x0 : Vec Ideal S2000x128 .f32) (x1 : Vec Ideal S128x64 .f32) (x2 : Vec Ideal S64 .f32)
    (p : Fin 2000) (q : Fin 64) :
    k1_pay1 x0 x1 x2 (ix2 p q) = max ((∑ k : Fin 128, x0 (ix2 p k) * x1 (ix2 k q)) + x2 (ix1 q)) 0 := by
  unfold k1_pay1
  have hm : matmul dot_S2000x128_S128x64_S2000x64_1_0_0_1_n_n none (truncf .bf16 (shapeCast S2000x128 x0 shapeCasts_S2000x128_S2000x128) bitsLt_bf16_f32) (truncf .bf16 x1 bitsLt_bf16_f32)
      (constant (F := Ideal) S2000x64 .f32 0x00000000#32) (ix2 p q) = ∑ k : Fin 128, x0 (ix2 p k) * x1 (ix2 k q) := by
    rw [shapeCast_self]
    exact reg1_matmul_apply _ _ p q
  have hb := reg1_bias_apply x2 p q
  show max (_ + _) (Ideal.ofBits .f32 0x00000000#32) = _
  rw [Ideal.ofBits_zero_f32]
  exact congrArg (fun z => max z 0) (congrArg₂ (· + ·) hm hb)

/-! ## From the blocks to the array -/

theorem reg1_hz2 : (![0, 0] : Fin 2 → Nat) = fun _ => 0 := funext fun a => by fin_cases a <;> rfl
theorem reg1_hz1 : (![0] : Fin 1 → Nat) = fun _ => 0 := funext fun a => by fin_cases a <;> rfl

/-- Where each window's block sits at a point of the grid: the activations' and the output's blocks are the
    point's 2000 rows, the weights and the bias are whole. -/
theorem reg1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- The body's result on a block whose inputs are the point's rows of the activations, the weights and the bias is the
    dense layer at the corresponding entry of the whole array. -/
theorem reg1_block_eq (X : FVec Ideal S100000x128 .f32) (W : FVec Ideal S128x64 .f32) (b : FVec Ideal S64 .f32)
    (x0 : Vec Ideal S2000x128 .f32) (x1 : Vec Ideal S128x64 .f32) (x2 : Vec Ideal S64 .f32) (n : Nat)
    (h0 : ∀ (p : Fin 2000) (k : Fin 128) (r : Fin 100000), r.val = n * 2000 + p.val → x0 (ix2 p k) = X (ix2 r k))
    (h1 : x1 = W) (h2 : x2 = b)
    (y : S2000x64.Idx) (i : S100000x64.Idx) (hi0 : (i 0).val = n * 2000 + (y 0).val) (hi1 : (i 1).val = (y 1).val) :
    k1_pay1 x0 x1 x2 y = Glin X W b i := by
  obtain ⟨p, q, rfl⟩ : ∃ (p : Fin 2000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext hi1
  rw [reg1_pay_apply, h1, h2]
  show _ = max ((∑ k : Fin 128, X (ix2 r k) * W (ix2 k s)) + b (ix1 s)) 0
  rw [Finset.sum_congr rfl fun k _ => by rw [h0 p k r hi0]]

/-- The activations' block at a point is the point's 2000 rows of the array. -/
theorem reg1_xblock (V : (c : Dev nD) → (b : Ref sig .tc) → Buf (Elt Ideal) ((c : Thread nD τ).loc b)) (c : Dev nD)
    (t : Fin cfg1.N) (p : Fin 2000) (k : Fin 128) (r : Fin 100000) (hr : r.val = t.val * 2000 + p.val) :
    (iblk1 (F := Ideal) V c 0 t : Vec Ideal S2000x128 .f32) (ix2 p k) = (V c main_v22 : S100000x128.Idx → Elt Ideal .f32) (ix2 r k) := by
  obtain ⟨e0, e1, -, -, -, -, -⟩ := reg1_idx_facts t
  unfold iblk1
  rw [View.read_apply]
  show V c main_v22 _ = V c main_v22 _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- The weights' block at every point is the whole array. -/
theorem reg1_wblock (V : (c : Dev nD) → (b : Ref sig .tc) → Buf (Elt Ideal) ((c : Thread nD τ).loc b)) (c : Dev nD)
    (t : Fin cfg1.N) :
    (iblk1 (F := Ideal) V c 1 t : Vec Ideal S128x64 .f32) = (V c main_arg3 : S128x64.Idx → Elt Ideal .f32) := by
  obtain ⟨-, -, e2, e3, -, -, -⟩ := reg1_idx_facts t
  funext y
  unfold iblk1
  rw [View.read_apply]
  show V c main_arg3 _ = V c main_arg3 y
  congr 1
  funext a
  apply Fin.ext
  match a with
  | ⟨0, _⟩ => show win1_1.index t (0 : Fin 2) * 128 + 1 * (y 0).val = (y 0).val; rw [e2]; omega
  | ⟨1, _⟩ => show win1_1.index t (1 : Fin 2) * 64 + 1 * (y 1).val = (y 1).val; rw [e3]; omega

/-- The bias's block at every point is the whole vector. -/
theorem reg1_bblock (V : (c : Dev nD) → (b : Ref sig .tc) → Buf (Elt Ideal) ((c : Thread nD τ).loc b)) (c : Dev nD)
    (t : Fin cfg1.N) :
    (iblk1 (F := Ideal) V c 2 t : Vec Ideal S64 .f32) = (V c main_arg4 : S64.Idx → Elt Ideal .f32) := by
  obtain ⟨-, -, -, -, e4, -, -⟩ := reg1_idx_facts t
  funext y
  unfold iblk1
  rw [View.read_apply]
  show V c main_arg4 _ = V c main_arg4 y
  congr 1
  funext a
  apply Fin.ext
  match a with
  | ⟨0, _⟩ => show win1_2.index t (0 : Fin 1) * 64 + 1 * (y 0).val = (y 0).val; rw [e4]; omega

/-- What a point writes back is its block of the dense layer of the arrays the region finds. -/
theorem reg1_flushed_eq (V : (c : Dev nD) → (b : Ref sig .tc) → Buf (Elt Ideal) ((c : Thread nD τ).loc b)) (c : Dev nD)
    (t : Fin cfg1.N) :
    (dat1 (F := Ideal) V c).flushed 3 t
      = ((cfg1.win 3).blk t).view.read (Elt Ideal) (Glin (V c main_v22) (V c main_arg3) (V c main_arg4)) := by
  show (cfg1.win 3).cut (grid1.coords t) ((dat1 (F := Ideal) V c).after 3 t) = _
  rw [after1_3]
  unfold out1_3
  rw [View.canon_unit_zero reg1_hz2]
  simp only [View.ld_unit_zero (S := S2000x128) reg1_hz2, View.ld_unit_zero (S := S128x64) reg1_hz2,
    View.ld_unit_zero (S := S64) reg1_hz1]
  obtain ⟨-, -, -, -, -, e5, e6⟩ := reg1_idx_facts t
  funext j
  show k1_pay1 (iblk1 V c 0 t) (iblk1 V c 1 t) (iblk1 V c 2 t) ((cfg1.win 3).xinj (grid1.coords t) j)
    = Glin (V c main_v22) (V c main_arg3) (V c main_arg4) (((cfg1.win 3).blk t).view.emb j)
  refine reg1_block_eq (V c main_v22) (V c main_arg3) (V c main_arg4) (iblk1 V c 0 t) (iblk1 V c 1 t) (iblk1 V c 2 t) t.val
    (fun p k r hr => reg1_xblock V c t p k r hr) (reg1_wblock V c t) (reg1_bblock V c t)
    ((cfg1.win 3).xinj (grid1.coords t) j) (((cfg1.win 3).blk t).view.emb j) ?_ ?_
  · show win1_3.index t (0 : Fin 2) * 2000 + 1 * (j 0).val = t.val * 2000 + (j 0).val
    rw [e5]; omega
  · show win1_3.index t (1 : Fin 2) * 64 + 1 * (j 1).val = (j 1).val
    rw [e6]; omega

/-- An entry of the output array is in a point's block iff each coordinate is in the block's range. -/
theorem reg1_mem_blk (t : Fin cfg1.N) (i : S100000x64.Idx) :
    i ∈ ((cfg1.win 3).blk t).view.set
      ↔ ∀ a : Fin 2, win1_3.index t a * S2000x64.size a ≤ (i a).val ∧ (i a).val < win1_3.index t a * S2000x64.size a + S2000x64.size a := by
  show i ∈ ((View.whole main_v23).slice (win1_3.rect t)).set ↔ _
  rw [View.set_slice_whole, Rect.mem_set_unit]
  exact Iff.rfl

/-- Every entry of the output array is written back by the point of its row's block of 2000. -/
theorem reg1_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  let t : Fin cfg1.N := ⟨(i 0).val / 2000, by rw [hN]; omega⟩
  obtain ⟨-, -, -, -, -, e5, e6⟩ := reg1_idx_facts t
  have ht : t.val = (i 0).val / 2000 := rfl
  refine ⟨t, flush1_3 t, ?_⟩
  rw [reg1_mem_blk]
  intro a
  match a with
  | ⟨0, _⟩ =>
    show win1_3.index t (0 : Fin 2) * 2000 ≤ (i 0).val ∧ (i 0).val < win1_3.index t (0 : Fin 2) * 2000 + 2000
    rw [e5, ht]; omega
  | ⟨1, _⟩ =>
    show win1_3.index t (1 : Fin 2) * 64 ≤ (i 1).val ∧ (i 1).val < win1_3.index t (1 : Fin 2) * 64 + 64
    rw [e6]; omega

/-- Region 1's output array after the region: the dense layer with its rectifier of the arrays the region finds, index by index. -/
theorem final1 (V : (c : Dev nD) → (b : Ref sig .tc) → Buf (Elt Ideal) ((c : Thread nD τ).loc b)) (c : Dev nD) :
    (dat1 (F := Ideal) V c).arrAt 3 cfg1.N = Glin (V c main_v22) (V c main_arg3) (V c main_arg4) :=
  (dat1 (F := Ideal) V c).arrAt_eq_of_cover 3 (Glin (V c main_v22) (V c main_arg3) (V c main_arg4))
    (fun t _ => reg1_flushed_eq V c t) reg1_cover

end Cert.Hand

end
-- ==== Proof.KReg2.lean ====
/- Region 2 of the kernel (a dense layer with a rectifier over 50 blocks of 2000 rows): the body's arithmetic at an entry of a
   block — the matrix product as the sum over the shared axis, the bias as a row, the maximum with zero —, each input block as
   the rows of its array the block index names, what a point writes back as its block of the dense layer of the arrays the
   region finds, the blocks' cover of the output array, and so the array after the region. -/
import proofs.«401189_j18330920419815_1_alg».proof.Proof.Gen.KernelIdeal.Frame
import proofs.«401189_j18330920419815_1_alg».proof.Proof.Spec
import Idealize.ShloMosaic.Lib.Pipeline.Value
import Idealize.ShloMosaic.PureOps.Ideal.Laws
import Idealize.ShloMosaic.Lib.ValueIdx

set_option maxRecDepth 16384

noncomputable section

open scoped BigOperators

namespace Cert.Hand

open Idealize.ShloMosaic Idealize.ShloMosaic.TcCoe Idealize.ShloMosaic.ValueIdx Idealize.SL.Sem Cert.KernelIdeal Cert.KernelIdeal.Gen

/-! ## The body's arithmetic at an index -/

/-- The left operand's row coordinate is the output's row. -/
theorem reg2_lhs_row (j : S2000x64.Idx) (k : dot_S2000x64_S64x64_S2000x64_1_0_0_1_n_n.contr.Idx) :
    (dot_S2000x64_S64x64_S2000x64_1_0_0_1_n_n.lhsIdx j k 0).val = (j 0).val := by
  unfold DotDims.lhsIdx
  rw [dif_neg (show ¬ (0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

/-- The left operand's column coordinate is the summation index. -/
theorem reg2_lhs_col (j : S2000x64.Idx) (k : dot_S2000x64_S64x64_S2000x64_1_0_0_1_n_n.contr.Idx) :
    (dot_S2000x64_S64x64_S2000x64_1_0_0_1_n_n.lhsIdx j k 1).val = (k ⟨0, by decide⟩).val :=
  DotDims.lhsIdx_val_of_single _ rfl j k

/-- The right operand's row coordinate is the summation index. -/
theorem reg2_rhs_row (j : S2000x64.Idx) (k : dot_S2000x64_S64x64_S2000x64_1_0_0_1_n_n.contr.Idx) :
    (dot_S2000x64_S64x64_S2000x64_1_0_0_1_n_n.rhsIdx j k 0).val = (k ⟨0, by decide⟩).val :=
  DotDims.rhsIdx_val_of_single _ rfl j k

/-- The right operand's column coordinate is the output's column. -/
theorem reg2_rhs_col (j : S2000x64.Idx) (k : dot_S2000x64_S64x64_S2000x64_1_0_0_1_n_n.contr.Idx) :
    (dot_S2000x64_S64x64_S2000x64_1_0_0_1_n_n.rhsIdx j k 1).val = (j 1).val := by
  unfold DotDims.rhsIdx
  rw [dif_neg (show ¬ (1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The matrix product into a zero accumulator, at an entry: the sum over the shared axis of the products. -/
theorem reg2_matmul_apply (A : FVec Ideal S2000x64 .bf16) (B : FVec Ideal S64x64 .bf16) (p : Fin 2000) (q : Fin 64) :
    matmul dot_S2000x64_S64x64_S2000x64_1_0_0_1_n_n none A B (constant (F := Ideal) S2000x64 .f32 0x00000000#32) (ix2 p q)
      = ∑ k : Fin 64, A (ix2 p k) * B (ix2 k q) := by
  show FloatOps.matmul dot_S2000x64_S64x64_S2000x64_1_0_0_1_n_n none A B (constant (F := Ideal) S2000x64 .f32 0x00000000#32) (ix2 p q) = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have hl : dot_S2000x64_S64x64_S2000x64_1_0_0_1_n_n.lhsIdx (ix2 p q) ((contrEquiv1 dot_S2000x64_S64x64_S2000x64_1_0_0_1_n_n 64 rfl rfl).symm k) = ix2 p k := by
    funext a; apply Fin.ext
    match a with
    | ⟨0, _⟩ => exact reg2_lhs_row _ _
    | ⟨1, _⟩ => exact (reg2_lhs_col _ _).trans hk
  have hr : dot_S2000x64_S64x64_S2000x64_1_0_0_1_n_n.rhsIdx (ix2 p q) ((contrEquiv1 dot_S2000x64_S64x64_S2000x64_1_0_0_1_n_n 64 rfl rfl).symm k) = ix2 k q := by
    funext a; apply Fin.ext
    match a with
    | ⟨0, _⟩ => exact (reg2_rhs_row _ _).trans hk
    | ⟨1, _⟩ => exact reg2_rhs_col _ _
  rw [hl, hr]

/-- The bias as a row of every node of the block, at an entry: the bias at the column. -/
theorem reg2_bias_apply (b : Vec Ideal S64 .f32) (p : Fin 2000) (q : Fin 64) :
    broadcastTo S2000x64 (shapeCast S1x64 b shapeCasts_S64_S1x64) broadcasts_S1x64_S2000x64 (ix2 p q) = b (ix1 q) := by
  refine (broadcastTo_apply _ broadcasts_S1x64_S2000x64 (ix2 p q) (ix2 (0 : Fin 1) q) fun a => ?_).trans ?_
  · match a with
    | ⟨0, _⟩ => rfl
    | ⟨1, _⟩ => rfl
  · refine shapeCast_apply b shapeCasts_S64_S1x64 (ix2 (0 : Fin 1) q) (ix1 q) ?_
    rw [Shape.rowMajor_val_one, Shape.rowMajor_val_two]
    show q.val = 0 * 64 + q.val
    omega

/-- The body's result at an entry of the block: the rectified sum of products plus bias. -/
theorem reg2_pay_apply (x0 : Vec Ideal S2000x64 .f32) (x1 : Vec Ideal S64x64 .f32) (x2 : Vec Ideal S64 .f32)
    (p : Fin 2000) (q : Fin 64) :
    k2_pay1 x0 x1 x2 (ix2 p q) = max ((∑ k : Fin 64, x0 (ix2 p k) * x1 (ix2 k q)) + x2 (ix1 q)) 0 := by
  unfold k2_pay1
  have hm : matmul dot_S2000x64_S64x64_S2000x64_1_0_0_1_n_n none (truncf .bf16 (shapeCast S2000x64 x0 shapeCasts_S2000x64_S2000x64) bitsLt_bf16_f32) (truncf .bf16 x1 bitsLt_bf16_f32)
      (constant (F := Ideal) S2000x64 .f32 0x00000000#32) (ix2 p q) = ∑ k : Fin 64, x0 (ix2 p k) * x1 (ix2 k q) := by
    rw [shapeCast_self]
    exact reg2_matmul_apply _ _ p q
  have hb := reg2_bias_apply x2 p q
  show max (_ + _) (Ideal.ofBits .f32 0x00000000#32) = _
  rw [Ideal.ofBits_zero_f32]
  exact congrArg (fun z => max z 0) (congrArg₂ (· + ·) hm hb)

/-! ## From the blocks to the array -/

theorem reg2_hz2 : (![0, 0] : Fin 2 → Nat) = fun _ => 0 := funext fun a => by fin_cases a <;> rfl
theorem reg2_hz1 : (![0] : Fin 1 → Nat) = fun _ => 0 := funext fun a => by fin_cases a <;> rfl

/-- Where each window's block sits at a point of the grid: the activations' and the output's blocks are the
    point's 2000 rows, the weights and the bias are whole. -/
theorem reg2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The body's result on a block whose inputs are the point's rows of the activations, the weights and the bias is the
    dense layer at the corresponding entry of the whole array. -/
theorem reg2_block_eq (X : FVec Ideal S100000x64 .f32) (W : FVec Ideal S64x64 .f32) (b : FVec Ideal S64 .f32)
    (x0 : Vec Ideal S2000x64 .f32) (x1 : Vec Ideal S64x64 .f32) (x2 : Vec Ideal S64 .f32) (n : Nat)
    (h0 : ∀ (p : Fin 2000) (k : Fin 64) (r : Fin 100000), r.val = n * 2000 + p.val → x0 (ix2 p k) = X (ix2 r k))
    (h1 : x1 = W) (h2 : x2 = b)
    (y : S2000x64.Idx) (i : S100000x64.Idx) (hi0 : (i 0).val = n * 2000 + (y 0).val) (hi1 : (i 1).val = (y 1).val) :
    k2_pay1 x0 x1 x2 y = Glin X W b i := by
  obtain ⟨p, q, rfl⟩ : ∃ (p : Fin 2000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext hi1
  rw [reg2_pay_apply, h1, h2]
  show _ = max ((∑ k : Fin 64, X (ix2 r k) * W (ix2 k s)) + b (ix1 s)) 0
  rw [Finset.sum_congr rfl fun k _ => by rw [h0 p k r hi0]]

/-- The activations' block at a point is the point's 2000 rows of the array. -/
theorem reg2_xblock (V : (c : Dev nD) → (b : Ref sig .tc) → Buf (Elt Ideal) ((c : Thread nD τ).loc b)) (c : Dev nD)
    (t : Fin cfg2.N) (p : Fin 2000) (k : Fin 64) (r : Fin 100000) (hr : r.val = t.val * 2000 + p.val) :
    (iblk2 (F := Ideal) V c 0 t : Vec Ideal S2000x64 .f32) (ix2 p k) = (V c main_v41 : S100000x64.Idx → Elt Ideal .f32) (ix2 r k) := by
  obtain ⟨e0, e1, -, -, -, -, -⟩ := reg2_idx_facts t
  unfold iblk2
  rw [View.read_apply]
  show V c main_v41 _ = V c main_v41 _
  congr 1
  funext a
  apply Fin.ext
  match a with
  | ⟨0, _⟩ => show win2_0.index t (0 : Fin 2) * 2000 + 1 * p.val = r.val; rw [e0, hr]; omega
  | ⟨1, _⟩ => show win2_0.index t (1 : Fin 2) * 64 + 1 * k.val = k.val; rw [e1]; omega

/-- The weights' block at every point is the whole array. -/
theorem reg2_wblock (V : (c : Dev nD) → (b : Ref sig .tc) → Buf (Elt Ideal) ((c : Thread nD τ).loc b)) (c : Dev nD)
    (t : Fin cfg2.N) :
    (iblk2 (F := Ideal) V c 1 t : Vec Ideal S64x64 .f32) = (V c main_arg5 : S64x64.Idx → Elt Ideal .f32) := by
  obtain ⟨-, -, e2, e3, -, -, -⟩ := reg2_idx_facts t
  funext y
  unfold iblk2
  rw [View.read_apply]
  show V c main_arg5 _ = V c main_arg5 y
  congr 1
  funext a
  apply Fin.ext
  match a with
  | ⟨0, _⟩ => show win2_1.index t (0 : Fin 2) * 64 + 1 * (y 0).val = (y 0).val; rw [e2]; omega
  | ⟨1, _⟩ => show win2_1.index t (1 : Fin 2) * 64 + 1 * (y 1).val = (y 1).val; rw [e3]; omega

/-- The bias's block at every point is the whole vector. -/
theorem reg2_bblock (V : (c : Dev nD) → (b : Ref sig .tc) → Buf (Elt Ideal) ((c : Thread nD τ).loc b)) (c : Dev nD)
    (t : Fin cfg2.N) :
    (iblk2 (F := Ideal) V c 2 t : Vec Ideal S64 .f32) = (V c main_arg6 : S64.Idx → Elt Ideal .f32) := by
  obtain ⟨-, -, -, -, e4, -, -⟩ := reg2_idx_facts t
  funext y
  unfold iblk2
  rw [View.read_apply]
  show V c main_arg6 _ = V c main_arg6 y
  congr 1
  funext a
  apply Fin.ext
  match a with
  | ⟨0, _⟩ => show win2_2.index t (0 : Fin 1) * 64 + 1 * (y 0).val = (y 0).val; rw [e4]; omega

/-- What a point writes back is its block of the dense layer of the arrays the region finds. -/
theorem reg2_flushed_eq (V : (c : Dev nD) → (b : Ref sig .tc) → Buf (Elt Ideal) ((c : Thread nD τ).loc b)) (c : Dev nD)
    (t : Fin cfg2.N) :
    (dat2 (F := Ideal) V c).flushed 3 t
      = ((cfg2.win 3).blk t).view.read (Elt Ideal) (Glin (V c main_v41) (V c main_arg5) (V c main_arg6)) := by
  show (cfg2.win 3).cut (grid2.coords t) ((dat2 (F := Ideal) V c).after 3 t) = _
  rw [after2_3]
  unfold out2_3
  rw [View.canon_unit_zero reg2_hz2]
  simp only [View.ld_unit_zero (S := S2000x64) reg2_hz2, View.ld_unit_zero (S := S64x64) reg2_hz2,
    View.ld_unit_zero (S := S64) reg2_hz1]
  obtain ⟨-, -, -, -, -, e5, e6⟩ := reg2_idx_facts t
  funext j
  show k2_pay1 (iblk2 V c 0 t) (iblk2 V c 1 t) (iblk2 V c 2 t) ((cfg2.win 3).xinj (grid2.coords t) j)
    = Glin (V c main_v41) (V c main_arg5) (V c main_arg6) (((cfg2.win 3).blk t).view.emb j)
  refine reg2_block_eq (V c main_v41) (V c main_arg5) (V c main_arg6) (iblk2 V c 0 t) (iblk2 V c 1 t) (iblk2 V c 2 t) t.val
    (fun p k r hr => reg2_xblock V c t p k r hr) (reg2_wblock V c t) (reg2_bblock V c t)
    ((cfg2.win 3).xinj (grid2.coords t) j) (((cfg2.win 3).blk t).view.emb j) ?_ ?_
  · show win2_3.index t (0 : Fin 2) * 2000 + 1 * (j 0).val = t.val * 2000 + (j 0).val
    rw [e5]; omega
  · show win2_3.index t (1 : Fin 2) * 64 + 1 * (j 1).val = (j 1).val
    rw [e6]; omega

/-- An entry of the output array is in a point's block iff each coordinate is in the block's range. -/
theorem reg2_mem_blk (t : Fin cfg2.N) (i : S100000x64.Idx) :
    i ∈ ((cfg2.win 3).blk t).view.set
      ↔ ∀ a : Fin 2, win2_3.index t a * S2000x64.size a ≤ (i a).val ∧ (i a).val < win2_3.index t a * S2000x64.size a + S2000x64.size a := by
  show i ∈ ((View.whole main_v42).slice (win2_3.rect t)).set ↔ _
  rw [View.set_slice_whole, Rect.mem_set_unit]
  exact Iff.rfl

/-- Every entry of the output array is written back by the point of its row's block of 2000. -/
theorem reg2_cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨-, -, -, -, -, e5, e6⟩ := reg2_idx_facts t
  have ht : t.val = (i 0).val / 2000 := rfl
  refine ⟨t, flush2_3 t, ?_⟩
  rw [reg2_mem_blk]
  intro a
  match a with
  | ⟨0, _⟩ =>
    show win2_3.index t (0 : Fin 2) * 2000 ≤ (i 0).val ∧ (i 0).val < win2_3.index t (0 : Fin 2) * 2000 + 2000
    rw [e5, ht]; omega
  | ⟨1, _⟩ =>
    show win2_3.index t (1 : Fin 2) * 64 ≤ (i 1).val ∧ (i 1).val < win2_3.index t (1 : Fin 2) * 64 + 64
    rw [e6]; omega

/-- Region 2's output array after the region: the dense layer with its rectifier of the arrays the region finds, index by index. -/
theorem final2 (V : (c : Dev nD) → (b : Ref sig .tc) → Buf (Elt Ideal) ((c : Thread nD τ).loc b)) (c : Dev nD) :
    (dat2 (F := Ideal) V c).arrAt 3 cfg2.N = Glin (V c main_v41) (V c main_arg5) (V c main_arg6) :=
  (dat2 (F := Ideal) V c).arrAt_eq_of_cover 3 (Glin (V c main_v41) (V c main_arg5) (V c main_arg6))
    (fun t _ => reg2_flushed_eq V c t) reg2_cover

end Cert.Hand

end
-- ==== Proof.KReg3.lean ====
/- Region 3 of the kernel (a dense layer with a rectifier over 50 blocks of 2000 rows): the body's arithmetic at an entry of a
   block — the matrix product as the sum over the shared axis, the bias as a row, the maximum with zero —, each input block as
   the rows of its array the block index names, what a point writes back as its block of the dense layer of the arrays the
   region finds, the blocks' cover of the output array, and so the array after the region. -/
import proofs.«401189_j18330920419815_1_alg».proof.Proof.Gen.KernelIdeal.Frame
import proofs.«401189_j18330920419815_1_alg».proof.Proof.Spec
import Idealize.ShloMosaic.Lib.Pipeline.Value
import Idealize.ShloMosaic.PureOps.Ideal.Laws
import Idealize.ShloMosaic.Lib.ValueIdx

set_option maxRecDepth 16384

noncomputable section

open scoped BigOperators

namespace Cert.Hand

open Idealize.ShloMosaic Idealize.ShloMosaic.TcCoe Idealize.ShloMosaic.ValueIdx Idealize.SL.Sem Cert.KernelIdeal Cert.KernelIdeal.Gen

/-! ## The body's arithmetic at an index -/

/-- The left operand's row coordinate is the output's row. -/
theorem reg3_lhs_row (j : S2000x64.Idx) (k : dot_S2000x64_S64x64_S2000x64_1_0_0_1_n_n.contr.Idx) :
    (dot_S2000x64_S64x64_S2000x64_1_0_0_1_n_n.lhsIdx j k 0).val = (j 0).val := by
  unfold DotDims.lhsIdx
  rw [dif_neg (show ¬ (0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl

/-- The left operand's column coordinate is the summation index. -/
theorem reg3_lhs_col (j : S2000x64.Idx) (k : dot_S2000x64_S64x64_S2000x64_1_0_0_1_n_n.contr.Idx) :
    (dot_S2000x64_S64x64_S2000x64_1_0_0_1_n_n.lhsIdx j k 1).val = (k ⟨0, by decide⟩).val :=
  DotDims.lhsIdx_val_of_single _ rfl j k

/-- The right operand's row coordinate is the summation index. -/
theorem reg3_rhs_row (j : S2000x64.Idx) (k : dot_S2000x64_S64x64_S2000x64_1_0_0_1_n_n.contr.Idx) :
    (dot_S2000x64_S64x64_S2000x64_1_0_0_1_n_n.rhsIdx j k 0).val = (k ⟨0, by decide⟩).val :=
  DotDims.rhsIdx_val_of_single _ rfl j k

/-- The right operand's column coordinate is the output's column. -/
theorem reg3_rhs_col (j : S2000x64.Idx) (k : dot_S2000x64_S64x64_S2000x64_1_0_0_1_n_n.contr.Idx) :
    (dot_S2000x64_S64x64_S2000x64_1_0_0_1_n_n.rhsIdx j k 1).val = (j 1).val := by
  unfold DotDims.rhsIdx
  rw [dif_neg (show ¬ (1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- The matrix product into a zero accumulator, at an entry: the sum over the shared axis of the products. -/
theorem reg3_matmul_apply (A : FVec Ideal S2000x64 .bf16) (B : FVec Ideal S64x64 .bf16) (p : Fin 2000) (q : Fin 64) :
    matmul dot_S2000x64_S64x64_S2000x64_1_0_0_1_n_n none A B (constant (F := Ideal) S2000x64 .f32 0x00000000#32) (ix2 p q)
      = ∑ k : Fin 64, A (ix2 p k) * B (ix2 k q) := by
  show FloatOps.matmul dot_S2000x64_S64x64_S2000x64_1_0_0_1_n_n none A B (constant (F := Ideal) S2000x64 .f32 0x00000000#32) (ix2 p q) = _
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have hl : dot_S2000x64_S64x64_S2000x64_1_0_0_1_n_n.lhsIdx (ix2 p q) ((contrEquiv1 dot_S2000x64_S64x64_S2000x64_1_0_0_1_n_n 64 rfl rfl).symm k) = ix2 p k := by
    funext a; apply Fin.ext
    match a with
    | ⟨0, _⟩ => exact reg3_lhs_row _ _
    | ⟨1, _⟩ => exact (reg3_lhs_col _ _).trans hk
  have hr : dot_S2000x64_S64x64_S2000x64_1_0_0_1_n_n.rhsIdx (ix2 p q) ((contrEquiv1 dot_S2000x64_S64x64_S2000x64_1_0_0_1_n_n 64 rfl rfl).symm k) = ix2 k q := by
    funext a; apply Fin.ext
    match a with
    | ⟨0, _⟩ => exact (reg3_rhs_row _ _).trans hk
    | ⟨1, _⟩ => exact reg3_rhs_col _ _
  rw [hl, hr]

/-- The bias as a row of every node of the block, at an entry: the bias at the column. -/
theorem reg3_bias_apply (b : Vec Ideal S64 .f32) (p : Fin 2000) (q : Fin 64) :
    broadcastTo S2000x64 (shapeCast S1x64 b shapeCasts_S64_S1x64) broadcasts_S1x64_S2000x64 (ix2 p q) = b (ix1 q) := by
  refine (broadcastTo_apply _ broadcasts_S1x64_S2000x64 (ix2 p q) (ix2 (0 : Fin 1) q) fun a => ?_).trans ?_
  · match a with
    | ⟨0, _⟩ => rfl
    | ⟨1, _⟩ => rfl
  · refine shapeCast_apply b shapeCasts_S64_S1x64 (ix2 (0 : Fin 1) q) (ix1 q) ?_
    rw [Shape.rowMajor_val_one, Shape.rowMajor_val_two]
    show q.val = 0 * 64 + q.val
    omega

/-- The body's result at an entry of the block: the rectified sum of products plus bias. -/
theorem reg3_pay_apply (x0 : Vec Ideal S2000x64 .f32) (x1 : Vec Ideal S64x64 .f32) (x2 : Vec Ideal S64 .f32)
    (p : Fin 2000) (q : Fin 64) :
    k3_pay1 x0 x1 x2 (ix2 p q) = max ((∑ k : Fin 64, x0 (ix2 p k) * x1 (ix2 k q)) + x2 (ix1 q)) 0 := by
  unfold k3_pay1
  have hm : matmul dot_S2000x64_S64x64_S2000x64_1_0_0_1_n_n none (truncf .bf16 (shapeCast S2000x64 x0 shapeCasts_S2000x64_S2000x64) bitsLt_bf16_f32) (truncf .bf16 x1 bitsLt_bf16_f32)
      (constant (F := Ideal) S2000x64 .f32 0x00000000#32) (ix2 p q) = ∑ k : Fin 64, x0 (ix2 p k) * x1 (ix2 k q) := by
    rw [shapeCast_self]
    exact reg3_matmul_apply _ _ p q
  have hb := reg3_bias_apply x2 p q
  show max (_ + _) (Ideal.ofBits .f32 0x00000000#32) = _
  rw [Ideal.ofBits_zero_f32]
  exact congrArg (fun z => max z 0) (congrArg₂ (· + ·) hm hb)

/-! ## From the blocks to the array -/

theorem reg3_hz2 : (![0, 0] : Fin 2 → Nat) = fun _ => 0 := funext fun a => by fin_cases a <;> rfl
theorem reg3_hz1 : (![0] : Fin 1 → Nat) = fun _ => 0 := funext fun a => by fin_cases a <;> rfl

/-- Where each window's block sits at a point of the grid: the activations' and the output's blocks are the
    point's 2000 rows, the weights and the bias are whole. -/
theorem reg3_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- The body's result on a block whose inputs are the point's rows of the activations, the weights and the bias is the
    dense layer at the corresponding entry of the whole array. -/
theorem reg3_block_eq (X : FVec Ideal S100000x64 .f32) (W : FVec Ideal S64x64 .f32) (b : FVec Ideal S64 .f32)
    (x0 : Vec Ideal S2000x64 .f32) (x1 : Vec Ideal S64x64 .f32) (x2 : Vec Ideal S64 .f32) (n : Nat)
    (h0 : ∀ (p : Fin 2000) (k : Fin 64) (r : Fin 100000), r.val = n * 2000 + p.val → x0 (ix2 p k) = X (ix2 r k))
    (h1 : x1 = W) (h2 : x2 = b)
    (y : S2000x64.Idx) (i : S100000x64.Idx) (hi0 : (i 0).val = n * 2000 + (y 0).val) (hi1 : (i 1).val = (y 1).val) :
    k3_pay1 x0 x1 x2 y = Glin X W b i := by
  obtain ⟨p, q, rfl⟩ : ∃ (p : Fin 2000) (q : Fin 64), y = ix2 p q := ⟨y 0, y 1, eq_ix2 y⟩
  obtain ⟨r, s, rfl⟩ : ∃ (r : Fin 100000) (s : Fin 64), i = ix2 r s := ⟨i 0, i 1, eq_ix2 i⟩
  obtain rfl : s = q := Fin.ext hi1
  rw [reg3_pay_apply, h1, h2]
  show _ = max ((∑ k : Fin 64, X (ix2 r k) * W (ix2 k s)) + b (ix1 s)) 0
  rw [Finset.sum_congr rfl fun k _ => by rw [h0 p k r hi0]]

/-- The activations' block at a point is the point's 2000 rows of the array. -/
theorem reg3_xblock (V : (c : Dev nD) → (b : Ref sig .tc) → Buf (Elt Ideal) ((c : Thread nD τ).loc b)) (c : Dev nD)
    (t : Fin cfg3.N) (p : Fin 2000) (k : Fin 64) (r : Fin 100000) (hr : r.val = t.val * 2000 + p.val) :
    (iblk3 (F := Ideal) V c 0 t : Vec Ideal S2000x64 .f32) (ix2 p k) = (V c main_v60 : S100000x64.Idx → Elt Ideal .f32) (ix2 r k) := by
  obtain ⟨e0, e1, -, -, -, -, -⟩ := reg3_idx_facts t
  unfold iblk3
  rw [View.read_apply]
  show V c main_v60 _ = V c main_v60 _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 64 + 1 * k.val = k.val; rw [e1]; omega

/-- The weights' block at every point is the whole array. -/
theorem reg3_wblock (V : (c : Dev nD) → (b : Ref sig .tc) → Buf (Elt Ideal) ((c : Thread nD τ).loc b)) (c : Dev nD)
    (t : Fin cfg3.N) :
    (iblk3 (F := Ideal) V c 1 t : Vec Ideal S64x64 .f32) = (V c main_arg7 : S64x64.Idx → Elt Ideal .f32) := by
  obtain ⟨-, -, e2, e3, -, -, -⟩ := reg3_idx_facts t
  funext y
  unfold iblk3
  rw [View.read_apply]
  show V c main_arg7 _ = V c main_arg7 y
  congr 1
  funext a
  apply Fin.ext
  match a with
  | ⟨0, _⟩ => show win3_1.index t (0 : Fin 2) * 64 + 1 * (y 0).val = (y 0).val; rw [e2]; omega
  | ⟨1, _⟩ => show win3_1.index t (1 : Fin 2) * 64 + 1 * (y 1).val = (y 1).val; rw [e3]; omega

/-- The bias's block at every point is the whole vector. -/
theorem reg3_bblock (V : (c : Dev nD) → (b : Ref sig .tc) → Buf (Elt Ideal) ((c : Thread nD τ).loc b)) (c : Dev nD)
    (t : Fin cfg3.N) :
    (iblk3 (F := Ideal) V c 2 t : Vec Ideal S64 .f32) = (V c main_arg8 : S64.Idx → Elt Ideal .f32) := by
  obtain ⟨-, -, -, -, e4, -, -⟩ := reg3_idx_facts t
  funext y
  unfold iblk3
  rw [View.read_apply]
  show V c main_arg8 _ = V c main_arg8 y
  congr 1
  funext a
  apply Fin.ext
  match a with
  | ⟨0, _⟩ => show win3_2.index t (0 : Fin 1) * 64 + 1 * (y 0).val = (y 0).val; rw [e4]; omega

/-- What a point writes back is its block of the dense layer of the arrays the region finds. -/
theorem reg3_flushed_eq (V : (c : Dev nD) → (b : Ref sig .tc) → Buf (Elt Ideal) ((c : Thread nD τ).loc b)) (c : Dev nD)
    (t : Fin cfg3.N) :
    (dat3 (F := Ideal) V c).flushed 3 t
      = ((cfg3.win 3).blk t).view.read (Elt Ideal) (Glin (V c main_v60) (V c main_arg7) (V c main_arg8)) := by
  show (cfg3.win 3).cut (grid3.coords t) ((dat3 (F := Ideal) V c).after 3 t) = _
  rw [after3_3]
  unfold out3_3
  rw [View.canon_unit_zero reg3_hz2]
  simp only [View.ld_unit_zero (S := S2000x64) reg3_hz2, View.ld_unit_zero (S := S64x64) reg3_hz2,
    View.ld_unit_zero (S := S64) reg3_hz1]
  obtain ⟨-, -, -, -, -, e5, e6⟩ := reg3_idx_facts t
  funext j
  show k3_pay1 (iblk3 V c 0 t) (iblk3 V c 1 t) (iblk3 V c 2 t) ((cfg3.win 3).xinj (grid3.coords t) j)
    = Glin (V c main_v60) (V c main_arg7) (V c main_arg8) (((cfg3.win 3).blk t).view.emb j)
  refine reg3_block_eq (V c main_v60) (V c main_arg7) (V c main_arg8) (iblk3 V c 0 t) (iblk3 V c 1 t) (iblk3 V c 2 t) t.val
    (fun p k r hr => reg3_xblock V c t p k r hr) (reg3_wblock V c t) (reg3_bblock V c t)
    ((cfg3.win 3).xinj (grid3.coords t) j) (((cfg3.win 3).blk t).view.emb j) ?_ ?_
  · show win3_3.index t (0 : Fin 2) * 2000 + 1 * (j 0).val = t.val * 2000 + (j 0).val
    rw [e5]; omega
  · show win3_3.index t (1 : Fin 2) * 64 + 1 * (j 1).val = (j 1).val
    rw [e6]; omega

/-- An entry of the output array is in a point's block iff each coordinate is in the block's range. -/
theorem reg3_mem_blk (t : Fin cfg3.N) (i : S100000x64.Idx) :
    i ∈ ((cfg3.win 3).blk t).view.set
      ↔ ∀ a : Fin 2, win3_3.index t a * S2000x64.size a ≤ (i a).val ∧ (i a).val < win3_3.index t a * S2000x64.size a + S2000x64.size a := by
  show i ∈ ((View.whole main_v61).slice (win3_3.rect t)).set ↔ _
  rw [View.set_slice_whole, Rect.mem_set_unit]
  exact Iff.rfl

/-- Every entry of the output array is written back by the point of its row's block of 2000. -/
theorem reg3_cover (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  obtain ⟨-, -, -, -, -, e5, e6⟩ := reg3_idx_facts t
  have ht : t.val = (i 0).val / 2000 := rfl
  refine ⟨t, flush3_3 t, ?_⟩
  rw [reg3_mem_blk]
  intro a
  match a with
  | ⟨0, _⟩ =>
    show win3_3.index t (0 : Fin 2) * 2000 ≤ (i 0).val ∧ (i 0).val < win3_3.index t (0 : Fin 2) * 2000 + 2000
    rw [e5, ht]; omega
  | ⟨1, _⟩ =>
    show win3_3.index t (1 : Fin 2) * 64 ≤ (i 1).val ∧ (i 1).val < win3_3.index t (1 : Fin 2) * 64 + 64
    rw [e6]; omega

/-- Region 3's output array after the region: the dense layer with its rectifier of the arrays the region finds, index by index. -/
theorem final3 (V : (c : Dev nD) → (b : Ref sig .tc) → Buf (Elt Ideal) ((c : Thread nD τ).loc b)) (c : Dev nD) :
    (dat3 (F := Ideal) V c).arrAt 3 cfg3.N = Glin (V c main_v60) (V c main_arg7) (V c main_arg8) :=
  (dat3 (F := Ideal) V c).arrAt_eq_of_cover 3 (Glin (V c main_v60) (V c main_arg7) (V c main_arg8))
    (fun t _ => reg3_flushed_eq V c t) reg3_cover

end Cert.Hand

end
-- ==== Proof.KFoldA.lean ====
import proofs.«401189_j18330920419815_1_alg».proof.Proof.Gen.KernelIdeal.Frame
import proofs.«401189_j18330920419815_1_alg».proof.Proof.Spec
import proofs.«401189_j18330920419815_1_alg».proof.Proof.Gen.ReferenceIdeal
import proofs.«401189_j18330920419815_1_alg».proof.Proof.KReg0
import proofs.«401189_j18330920419815_1_alg».proof.Proof.KReg1
import proofs.«401189_j18330920419815_1_alg».proof.Proof.KReg2
import proofs.«401189_j18330920419815_1_alg».proof.Proof.KReg3
set_option maxRecDepth 16384

noncomputable section

open scoped BigOperators

namespace Cert.Hand

open Idealize.ShloMosaic Idealize.ShloMosaic.TcCoe Idealize.ShloMosaic.ValueIdx Idealize.SL.Sem Cert.KernelIdeal Cert.KernelIdeal.Gen

section FoldA

/-! ## What each stretch of host operations writes -/

/-- The references the first stretch writes. -/
abbrev foldA_wr0 : List (Ref sig .tc) := [main_v0, main_v1, main_v2, main_v3]
/-- The references the second stretch writes. -/
abbrev foldA_wr1 : List (Ref sig .tc) :=
  [main_c, main_v5, main_v6, main_c_0, main_v7, main_v8, main_v9, main_v10, main_v11, main_cst, main_v12, main_v13, main_v14,
   main_cst_1, main_v15, main_cst_2, main_v16, main_v17, main_v18, main_cst_3, main_v19, main_v20, main_v21, main_v22]
/-- The references the third stretch writes. -/
abbrev foldA_wr2 : List (Ref sig .tc) :=
  [main_c_4, main_v24, main_v25, main_c_5, main_v26, main_v27, main_v28, main_v29, main_v30, main_cst_6, main_v31, main_v32, main_v33,
   main_cst_7, main_v34, main_cst_8, main_v35, main_v36, main_v37, main_cst_9, main_v38, main_v39, main_v40, main_v41]
/-- The references the fourth stretch writes. -/
abbrev foldA_wr3 : List (Ref sig .tc) :=
  [main_c_10, main_v43, main_v44, main_c_11, main_v45, main_v46, main_v47, main_v48, main_v49, main_cst_12, main_v50, main_v51, main_v52,
   main_cst_13, main_v53, main_cst_14, main_v54, main_v55, main_v56, main_cst_15, main_v57, main_v58, main_v59, main_v60]

theorem foldA_wr0_sub : (hostOps0 : List (HloOp τ sig (Elt Ideal))).Forall fun op => op.writes ⊆ (foldA_wr0.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem foldA_wr1_sub : (hostOps1 : List (HloOp τ sig (Elt Ideal))).Forall fun op => op.writes ⊆ (foldA_wr1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem foldA_wr2_sub : (hostOps2 : List (HloOp τ sig (Elt Ideal))).Forall fun op => op.writes ⊆ (foldA_wr2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

theorem foldA_wr3_sub : (hostOps3 : List (HloOp τ sig (Elt Ideal))).Forall fun op => op.writes ⊆ (foldA_wr3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Equal arguments, equal values: for a function of three arguments. -/
theorem foldA_congr3 {α β γ δ : Type} (f : α → β → γ → δ) {a a' : α} {b b' : β} {c c' : γ} (ha : a = a') (hb : b = b')
    (hc : c = c') : f a b c = f a' b' c' := by subst ha hb hc; rfl

/-! ## What each stretch computes, from any contents -/

/-- The first stretch leaves row 0 of the edge list in its sources' buffer. -/
theorem foldA_src (V : Valuation τ sig (Elt Ideal)) :
    StableHlo.after hostOps0 V (Proc.devRef .tc main_v1) = srcOf (V (Proc.devRef .tc main_arg15)) := by
  after_results
  rfl

/-- The first stretch leaves row 1 of the edge list in its destinations' buffer. -/
theorem foldA_dst (V : Valuation τ sig (Elt Ideal)) :
    StableHlo.after hostOps0 V (Proc.devRef .tc main_v3) = dstOf (V (Proc.devRef .tc main_arg15)) := by
  after_results
  rfl

attribute [local irreducible] Host.gather Host.scatterAdd Host.divf

/-- The second stretch is the mean aggregation of the first region's output along the edges. -/
theorem foldA_agg1 (V : Valuation τ sig (Elt Ideal)) : StableHlo.after hostOps1 V (Proc.devRef .tc main_v22)
    = agg128 (F := Ideal) (V (Proc.devRef .tc main_v4)) (V (Proc.devRef .tc main_v1)) (V (Proc.devRef .tc main_v3)) := by
  after_results_simp
  rfl

/-- The third stretch is the mean aggregation of the second region's output along the edges. -/
theorem foldA_agg2 (V : Valuation τ sig (Elt Ideal)) : StableHlo.after hostOps2 V (Proc.devRef .tc main_v41)
    = agg64 (F := Ideal) (V (Proc.devRef .tc main_v23)) (V (Proc.devRef .tc main_v1)) (V (Proc.devRef .tc main_v3)) := by
  after_results_simp
  rfl

/-- The fourth stretch is the mean aggregation of the third region's output along the edges. -/
theorem foldA_agg3 (V : Valuation τ sig (Elt Ideal)) : StableHlo.after hostOps3 V (Proc.devRef .tc main_v60)
    = agg64 (F := Ideal) (V (Proc.devRef .tc main_v42)) (V (Proc.devRef .tc main_v1)) (V (Proc.devRef .tc main_v3)) := by
  after_results_simp
  rfl

variable (m : (ℓ : Loc nD τ sig) → Buf (Elt Ideal) ℓ) (ρ : Dev nD → PrngReg) (c : Dev nD)

/-! ## A buffer that no stretch so far writes and no region so far owns is as launched -/

theorem foldA_W1_arg (r : Ref sig .tc) (h0 : r ∉ foldA_wr0) : W1 m ρ c (Proc.devRef .tc r) = m ((c : Thread nD τ).loc r) :=
  StableHlo.after_of_writes_sub hostOps0 _ foldA_wr0_sub h0

theorem foldA_W3_arg (r : Ref sig .tc) (h0 : r ∉ foldA_wr0) (g0 : ∀ w, Pipeline.arrRef spec0 w ≠ r) (h1 : r ∉ foldA_wr1) :
    W3 m ρ c (Proc.devRef .tc r) = m ((c : Thread nD τ).loc r) :=
  (StableHlo.after_of_writes_sub hostOps1 _ foldA_wr1_sub h1).trans ((W2_of_ne m ρ c r g0).trans (foldA_W1_arg m ρ c r h0))

theorem foldA_W5_arg (r : Ref sig .tc) (h0 : r ∉ foldA_wr0) (g0 : ∀ w, Pipeline.arrRef spec0 w ≠ r) (h1 : r ∉ foldA_wr1)
    (g1 : ∀ w, Pipeline.arrRef spec1 w ≠ r) (h2 : r ∉ foldA_wr2) :
    W5 m ρ c (Proc.devRef .tc r) = m ((c : Thread nD τ).loc r) :=
  (StableHlo.after_of_writes_sub hostOps2 _ foldA_wr2_sub h2).trans ((W4_of_ne m ρ c r g1).trans (foldA_W3_arg m ρ c r h0 g0 h1))

theorem foldA_W7_arg (r : Ref sig .tc) (h0 : r ∉ foldA_wr0) (g0 : ∀ w, Pipeline.arrRef spec0 w ≠ r) (h1 : r ∉ foldA_wr1)
    (g1 : ∀ w, Pipeline.arrRef spec1 w ≠ r) (h2 : r ∉ foldA_wr2) (g2 : ∀ w, Pipeline.arrRef spec2 w ≠ r) (h3 : r ∉ foldA_wr3) :
    W7 m ρ c (Proc.devRef .tc r) = m ((c : Thread nD τ).loc r) :=
  (StableHlo.after_of_writes_sub hostOps3 _ foldA_wr3_sub h3).trans ((W6_of_ne m ρ c r g2).trans (foldA_W5_arg m ρ c r h0 g0 h1 g1 h2))

theorem foldA_W8_arg (r : Ref sig .tc) (h0 : r ∉ foldA_wr0) (g0 : ∀ w, Pipeline.arrRef spec0 w ≠ r) (h1 : r ∉ foldA_wr1)
    (g1 : ∀ w, Pipeline.arrRef spec1 w ≠ r) (h2 : r ∉ foldA_wr2) (g2 : ∀ w, Pipeline.arrRef spec2 w ≠ r) (h3 : r ∉ foldA_wr3)
    (g3 : ∀ w, Pipeline.arrRef spec3 w ≠ r) :
    W8 m ρ c (Proc.devRef .tc r) = m ((c : Thread nD τ).loc r) :=
  (W8_of_ne m ρ c r g3).trans (foldA_W7_arg m ρ c r h0 g0 h1 g1 h2 g2 h3)

/-! ## The edge list's two rows at each region's exit -/

theorem foldA_W2_src : W2 m ρ c (Proc.devRef .tc main_v1) = srcOf (m ((c : Thread nD τ).loc main_arg15)) :=
  (W2_of_ne m ρ c main_v1 (by decide)).trans (foldA_src (W0 m ρ c))
theorem foldA_W2_dst : W2 m ρ c (Proc.devRef .tc main_v3) = dstOf (m ((c : Thread nD τ).loc main_arg15)) :=
  (W2_of_ne m ρ c main_v3 (by decide)).trans (foldA_dst (W0 m ρ c))

theorem foldA_W4_src : W4 m ρ c (Proc.devRef .tc main_v1) = srcOf (m ((c : Thread nD τ).loc main_arg15)) :=
  (W4_of_ne m ρ c main_v1 (by decide)).trans
    ((StableHlo.after_of_writes_sub hostOps1 _ foldA_wr1_sub (by decide)).trans (foldA_W2_src m ρ c))
theorem foldA_W4_dst : W4 m ρ c (Proc.devRef .tc main_v3) = dstOf (m ((c : Thread nD τ).loc main_arg15)) :=
  (W4_of_ne m ρ c main_v3 (by decide)).trans
    ((StableHlo.after_of_writes_sub hostOps1 _ foldA_wr1_sub (by decide)).trans (foldA_W2_dst m ρ c))

theorem foldA_W6_src : W6 m ρ c (Proc.devRef .tc main_v1) = srcOf (m ((c : Thread nD τ).loc main_arg15)) :=
  (W6_of_ne m ρ c main_v1 (by decide)).trans
    ((StableHlo.after_of_writes_sub hostOps2 _ foldA_wr2_sub (by decide)).trans (foldA_W4_src m ρ c))
theorem foldA_W6_dst : W6 m ρ c (Proc.devRef .tc main_v3) = dstOf (m ((c : Thread nD τ).loc main_arg15)) :=
  (W6_of_ne m ρ c main_v3 (by decide)).trans
    ((StableHlo.after_of_writes_sub hostOps2 _ foldA_wr2_sub (by decide)).trans (foldA_W4_dst m ρ c))

/-! ## The activations, boundary by boundary -/

/-- The sources of the launch edge list. -/
abbrev foldA_s : IVec S1600000 32 := srcOf (m ((c : Thread nD τ).loc main_arg15))
/-- The destinations of the launch edge list. -/
abbrev foldA_d : IVec S1600000 32 := dstOf (m ((c : Thread nD τ).loc main_arg15))
/-- The first dense layer of the launch arguments. -/
abbrev foldA_h1 : FVec Ideal S100000x128 .f32 := Glin (K := 512) (D := 128) (m ((c : Thread nD τ).loc main_arg0)) (m ((c : Thread nD τ).loc main_arg1)) (m ((c : Thread nD τ).loc main_arg2))
/-- The second dense layer, of the first mean aggregation. -/
abbrev foldA_h2 : FVec Ideal S100000x64 .f32 :=
  Glin (K := 128) (D := 64) (agg128 (F := Ideal) (foldA_h1 m c) (foldA_s m c) (foldA_d m c)) (m ((c : Thread nD τ).loc main_arg3)) (m ((c : Thread nD τ).loc main_arg4))
/-- The third dense layer, of the second mean aggregation. -/
abbrev foldA_h3 : FVec Ideal S100000x64 .f32 :=
  Glin (K := 64) (D := 64) (agg64 (F := Ideal) (foldA_h2 m c) (foldA_s m c) (foldA_d m c)) (m ((c : Thread nD τ).loc main_arg5)) (m ((c : Thread nD τ).loc main_arg6))

/-- After the first region: the first dense layer. -/
theorem foldA_W2_h : W2 m ρ c (Proc.devRef .tc main_v4) = foldA_h1 m c :=
  (W2_arr m ρ c 3).trans ((final0 (V1 m ρ) c).trans
    (foldA_congr3 (Glin (K := 512) (D := 128)) (foldA_W1_arg m ρ c main_arg0 (by decide)) (foldA_W1_arg m ρ c main_arg1 (by decide))
      (foldA_W1_arg m ρ c main_arg2 (by decide))))

/-- After the second stretch: the first mean aggregation. -/
theorem foldA_W3_h : W3 m ρ c (Proc.devRef .tc main_v22) = agg128 (F := Ideal) (foldA_h1 m c) (foldA_s m c) (foldA_d m c) :=
  (foldA_agg1 (W2 m ρ c)).trans
    (foldA_congr3 (agg128 (F := Ideal)) (foldA_W2_h m ρ c) (foldA_W2_src m ρ c) (foldA_W2_dst m ρ c))

/-- After the second region: the second dense layer. -/
theorem foldA_W4_h : W4 m ρ c (Proc.devRef .tc main_v23) = foldA_h2 m c :=
  (W4_arr m ρ c 3).trans ((final1 (V3 m ρ) c).trans
    (foldA_congr3 (Glin (K := 128) (D := 64)) (foldA_W3_h m ρ c)
      (foldA_W3_arg m ρ c main_arg3 (by decide) (by decide) (by decide))
      (foldA_W3_arg m ρ c main_arg4 (by decide) (by decide) (by decide))))

/-- After the third stretch: the second mean aggregation. -/
theorem foldA_W5_h : W5 m ρ c (Proc.devRef .tc main_v41) = agg64 (F := Ideal) (foldA_h2 m c) (foldA_s m c) (foldA_d m c) :=
  (foldA_agg2 (W4 m ρ c)).trans
    (foldA_congr3 (agg64 (F := Ideal)) (foldA_W4_h m ρ c) (foldA_W4_src m ρ c) (foldA_W4_dst m ρ c))

/-- After the third region: the third dense layer. -/
theorem foldA_W6_h : W6 m ρ c (Proc.devRef .tc main_v42) = foldA_h3 m c :=
  (W6_arr m ρ c 3).trans ((final2 (V5 m ρ) c).trans
    (foldA_congr3 (Glin (K := 64) (D := 64)) (foldA_W5_h m ρ c)
      (foldA_W5_arg m ρ c main_arg5 (by decide) (by decide) (by decide) (by decide) (by decide))
      (foldA_W5_arg m ρ c main_arg6 (by decide) (by decide) (by decide) (by decide) (by decide))))

/-- After the fourth stretch: the third mean aggregation. -/
theorem foldA_W7_h : W7 m ρ c (Proc.devRef .tc main_v60) = agg64 (F := Ideal) (foldA_h3 m c) (foldA_s m c) (foldA_d m c) :=
  (foldA_agg3 (W6 m ρ c)).trans
    (foldA_congr3 (agg64 (F := Ideal)) (foldA_W6_h m ρ c) (foldA_W6_src m ρ c) (foldA_W6_dst m ρ c))

end FoldA

/-- The fourth region's output, at the boundary after it, is the chain of the four dense regions and the three mean
    aggregations of the launch arguments. -/
theorem W8_h4 (m : (ℓ : Loc nD τ sig) → Buf (Elt Ideal) ℓ) (ρ : Dev nD → PrngReg) (c : Dev nD) :
    W8 m ρ c (Proc.devRef .tc main_v61)
      = h4K (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg15)) := by
  refine (W8_arr m ρ c 3).trans ((final3 (V7 m ρ) c).trans ?_)
  exact foldA_congr3 (Glin (K := 64) (D := 64)) (foldA_W7_h m ρ c)
    (foldA_W7_arg m ρ c main_arg7 (by decide) (by decide) (by decide) (by decide) (by decide) (by decide) (by decide))
    (foldA_W7_arg m ρ c main_arg8 (by decide) (by decide) (by decide) (by decide) (by decide) (by decide) (by decide))

/-- Argument 9 is still as launched at that boundary. -/
theorem W8_arg9 (m : (ℓ : Loc nD τ sig) → Buf (Elt Ideal) ℓ) (ρ : Dev nD → PrngReg) (c : Dev nD) : W8 m ρ c (Proc.devRef .tc main_arg9) = m ((c : Thread nD τ).loc main_arg9) :=
  foldA_W8_arg m ρ c main_arg9 (by decide) (by decide) (by decide) (by decide) (by decide) (by decide) (by decide) (by decide)

/-- Argument 10 is still as launched at that boundary. -/
theorem W8_arg10 (m : (ℓ : Loc nD τ sig) → Buf (Elt Ideal) ℓ) (ρ : Dev nD → PrngReg) (c : Dev nD) : W8 m ρ c (Proc.devRef .tc main_arg10) = m ((c : Thread nD τ).loc main_arg10) :=
  foldA_W8_arg m ρ c main_arg10 (by decide) (by decide) (by decide) (by decide) (by decide) (by decide) (by decide) (by decide)

/-- Argument 11 is still as launched at that boundary. -/
theorem W8_arg11 (m : (ℓ : Loc nD τ sig) → Buf (Elt Ideal) ℓ) (ρ : Dev nD → PrngReg) (c : Dev nD) : W8 m ρ c (Proc.devRef .tc main_arg11) = m ((c : Thread nD τ).loc main_arg11) :=
  foldA_W8_arg m ρ c main_arg11 (by decide) (by decide) (by decide) (by decide) (by decide) (by decide) (by decide) (by decide)

/-- Argument 12 is still as launched at that boundary. -/
theorem W8_arg12 (m : (ℓ : Loc nD τ sig) → Buf (Elt Ideal) ℓ) (ρ : Dev nD → PrngReg) (c : Dev nD) : W8 m ρ c (Proc.devRef .tc main_arg12) = m ((c : Thread nD τ).loc main_arg12) :=
  foldA_W8_arg m ρ c main_arg12 (by decide) (by decide) (by decide) (by decide) (by decide) (by decide) (by decide) (by decide)

/-- Argument 13 is still as launched at that boundary. -/
theorem W8_arg13 (m : (ℓ : Loc nD τ sig) → Buf (Elt Ideal) ℓ) (ρ : Dev nD → PrngReg) (c : Dev nD) : W8 m ρ c (Proc.devRef .tc main_arg13) = m ((c : Thread nD τ).loc main_arg13) :=
  foldA_W8_arg m ρ c main_arg13 (by decide) (by decide) (by decide) (by decide) (by decide) (by decide) (by decide) (by decide)

/-- Argument 14 is still as launched at that boundary. -/
theorem W8_arg14 (m : (ℓ : Loc nD τ sig) → Buf (Elt Ideal) ℓ) (ρ : Dev nD → PrngReg) (c : Dev nD) : W8 m ρ c (Proc.devRef .tc main_arg14) = m ((c : Thread nD τ).loc main_arg14) :=
  foldA_W8_arg m ρ c main_arg14 (by decide) (by decide) (by decide) (by decide) (by decide) (by decide) (by decide) (by decide)

end Cert.Hand

end
-- ==== Proof.KReg4.lean ====
import proofs.«401189_j18330920419815_1_alg».proof.Proof.Gen.KernelIdeal.Frame
import proofs.«401189_j18330920419815_1_alg».proof.Proof.Spec
import Idealize.ShloMosaic.PureOps.Ideal.Laws
import Idealize.ShloMosaic.Lib.Pipeline.Value
import Idealize.ShloMosaic.Lib.ValueLayout
import Idealize.ShloMosaic.Lib.ValueIdx

set_option maxRecDepth 16384

noncomputable section

open scoped BigOperators

namespace Cert.Hand

open Idealize.ShloMosaic Idealize.ShloMosaic.TcCoe Idealize.ShloMosaic.ValueIdx Idealize.SL.Sem Cert.KernelIdeal Cert.KernelIdeal.Gen

/-! ## A matrix product into a zero accumulator, entry by entry -/

/-- An [M, K] by [K, N] product (contracting the left operand's axis 1 with the right operand's axis 0) added to the zero
    array is, at (a, b), the sum over c of A[a, c] · B[c, b]. -/
theorem reg4_matmul_zero_ix2 {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (a : Fin M) (b : Fin N) :
    matmul (⟨[1], [0], [0], [1], [], [], w⟩ : DotDims _ _ _) prec A B (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first product of the region: 2000 rows of 64 by a 64 × 32 matrix. -/
theorem reg4_mm_64_32_apply {φ₁ φ₂ : FTy} (A : FVec Ideal S2000x64 φ₁) (B : FVec Ideal S64x32 φ₂) (p : Fin 2000) (q : Fin 32) :
    matmul dot_S2000x64_S64x32_S2000x32_1_0_0_1_n_n none A B (constant (F := Ideal) S2000x32 .f32 0x00000000#32) (ix2 p q)
      = ∑ c : Fin 64, A (ix2 p c) * B (ix2 c q) :=
  reg4_matmul_zero_ix2 dot_S2000x64_S64x32_S2000x32_1_0_0_1_n_n_wf none A B p q

/-- The second product of the region: 2000 rows of 32 by a 32 × 32 matrix. -/
theorem reg4_mm_32_32_apply {φ₁ φ₂ : FTy} (A : FVec Ideal S2000x32 φ₁) (B : FVec Ideal S32x32 φ₂) (p : Fin 2000) (q : Fin 32) :
    matmul dot_S2000x32_S32x32_S2000x32_1_0_0_1_n_n none A B (constant (F := Ideal) S2000x32 .f32 0x00000000#32) (ix2 p q)
      = ∑ c : Fin 32, A (ix2 p c) * B (ix2 c q) :=
  reg4_matmul_zero_ix2 dot_S2000x32_S32x32_S2000x32_1_0_0_1_n_n_wf none A B p q

/-- A 64-vector laid as one row and repeated over the 2000 rows reads, at (p, k), its entry k. -/
theorem reg4_rows64_apply (v : FVec Ideal S64 .f32) (p : Fin 2000) (k : Fin 64) :
    broadcastTo S2000x64 (shapeCast S1x64 v shapeCasts_S64_S1x64) broadcasts_S1x64_S2000x64 (ix2 p k) = v (ix1 k) :=
  (broadcastTo_1b_ab_apply _ broadcasts_S1x64_S2000x64 p k).trans (shapeCast_a_1a_apply v shapeCasts_S64_S1x64 0 k)

/-- A 32-vector laid as one row and repeated over the 2000 rows reads, at (p, k), its entry k. -/
theorem reg4_rows32_apply (v : FVec Ideal S32 .f32) (p : Fin 2000) (k : Fin 32) :
    broadcastTo S2000x32 (shapeCast S1x32 v shapeCasts_S32_S1x32) broadcasts_S1x32_S2000x32 (ix2 p k) = v (ix1 k) :=
  (broadcastTo_1b_ab_apply _ broadcasts_S1x32_S2000x32 p k).trans (shapeCast_a_1a_apply v shapeCasts_S32_S1x32 0 k)

/-- The body's arithmetic on one block, entry by entry: the affine map of the 64 inputs, the first dense layer with its
    rectifier, the second dense layer. -/
theorem reg4_payload_apply (v0 : Vec Ideal S2000x64 .f32) (v2 v7 : Vec Ideal S64 .f32) (v13 : Vec Ideal S64x32 .f32)
    (v16 : Vec Ideal S32 .f32) (v23 : Vec Ideal S32x32 .f32) (v26 : Vec Ideal S32 .f32) (p : Fin 2000) (q : Fin 32) :
    k4_pay1 (F := Ideal) v0 v2 v7 v13 v16 v23 v26 (ix2 p q)
      = (∑ k : Fin 32,
          max ((∑ k' : Fin 64, (v0 (ix2 p k') * v2 (ix1 k') + v7 (ix1 k')) * v13 (ix2 k' k)) + v16 (ix1 k)) 0 * v23 (ix2 k q))
        + v26 (ix1 q) := by
  unfold k4_pay1
  simp only [addf_apply, mulf_apply, maximumf_apply, truncf_apply, broadcast_apply, reg4_mm_64_32_apply, reg4_mm_32_32_apply,
    reg4_rows64_apply, reg4_rows32_apply, shapeCast_self]
  have hzero : (FloatOps.ofBits (F := Ideal) FTy.f32 0#32 : EReal) = 0 := Ideal.ofBits_zero_f32
  rw [hzero]

/-! ## From the blocks to the whole array -/

theorem reg4_zeros2 : (![0, 0] : Fin 2 → Nat) = fun _ => 0 := funext fun a => by fin_cases a <;> rfl
theorem reg4_zeros1 : (![0] : Fin 1 → Nat) = fun _ => 0 := funext fun a => by fin_cases a; rfl

/-- Where each window's block sits at a grid point: the activations' and the output's blocks are the point's own slab of
    2000 rows, every other window is its whole array. -/
theorem reg4_block_places : ∀ t : Fin cfg4.N,
    win4_0.index t (0 : Fin 2) = t.val ∧ win4_0.index t (1 : Fin 2) = 0
    ∧ win4_1.index t (0 : Fin 1) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = t.val ∧ win4_7.index t (1 : Fin 2) = 0 :=
  (by decide +kernel : ∀ t : Fin grid4.N, _)

/-- One block of the result is the block's rows of the whole-array function: if the activations' block holds rows
    ρ p of the activations and the other six blocks are their arrays, the body's result at (p, q) is the
    function at (ρ p, q). -/
theorem reg4_block_value (h : FVec Ideal S100000x64 .f32) (sc sh : FVec Ideal S64 .f32) (W2 : FVec Ideal S64x32 .f32)
    (b2 : FVec Ideal S32 .f32) (W3 : FVec Ideal S32x32 .f32) (b3 : FVec Ideal S32 .f32)
    (x0 : Vec Ideal S2000x64 .f32) (x1 x2 : Vec Ideal S64 .f32) (x3 : Vec Ideal S64x32 .f32)
    (x4 : Vec Ideal S32 .f32) (x5 : Vec Ideal S32x32 .f32) (x6 : Vec Ideal S32 .f32) (ρ : Fin 2000 → Fin 100000)
    (hx0 : ∀ (p : Fin 2000) (k : Fin 64), x0 (ix2 p k) = h (ix2 (ρ p) k))
    (hx1 : ∀ k : Fin 64, x1 (ix1 k) = sc (ix1 k)) (hx2 : ∀ k : Fin 64, x2 (ix1 k) = sh (ix1 k))
    (hx3 : ∀ (k' : Fin 64) (k : Fin 32), x3 (ix2 k' k) = W2 (ix2 k' k)) (hx4 : ∀ k : Fin 32, x4 (ix1 k) = b2 (ix1 k))
    (hx5 : ∀ (k q : Fin 32), x5 (ix2 k q) = W3 (ix2 k q)) (hx6 : ∀ q : Fin 32, x6 (ix1 q) = b3 (ix1 q))
    (p : Fin 2000) (q : Fin 32) :
    k4_pay1 (F := Ideal) x0 x1 x2 x3 x4 x5 x6 (ix2 p q) = Gfin h sc sh W2 b2 W3 b3 (ix2 (ρ p) q) := by
  rw [reg4_payload_apply]
  simp only [hx0, hx1, hx2, hx3, hx4, hx5, hx6]
  rfl

/-- Two arrays over a 2000 × 32 block that agree at every (p, q) are equal. -/
theorem reg4_ext_rows {α : Type} (f g : S2000x32.Idx → α) (h : ∀ (p : Fin 2000) (q : Fin 32), f (ix2 p q) = g (ix2 p q)) :
    f = g :=
  funext fun j => (congrArg f (eq_ix2 j)).trans ((h (j 0) (j 1)).trans (congrArg g (eq_ix2 j)).symm)

/-- What grid point t writes back is block t of the whole-array function of the seven input arrays. -/
theorem reg4_flushed_eq (V : (c : Dev nD) → (b : Ref sig .tc) → Buf (Elt Ideal) ((c : Thread nD τ).loc b)) (c : Dev nD)
    (t : Fin cfg4.N) :
    (dat4 (F := Ideal) V c).flushed 7 t
      = ((cfg4.win 7).blk t).view.read (Elt Ideal)
          (Gfin (V c main_v61) (V c main_v69) (V c main_v71) (V c main_arg11) (V c main_arg12) (V c main_arg13) (V c main_arg14)) := by
  show (cfg4.win 7).cut (grid4.coords t) ((dat4 V c).after 7 t) = _
  rw [after4_7]
  unfold out4_7
  rw [View.canon_unit_zero reg4_zeros2]
  simp only [View.ld_unit_zero (S := S2000x64) reg4_zeros2, View.ld_unit_zero (S := S64) reg4_zeros1,
    View.ld_unit_zero (S := S64x32) reg4_zeros2, View.ld_unit_zero (S := S32) reg4_zeros1,
    View.ld_unit_zero (S := S32x32) reg4_zeros2]
  obtain ⟨e00, e01, e1, e2, e30, e31, e4, e50, e51, e6, e70, e71⟩ := reg4_block_places t
  have hN : grid4.N = 50 := N_4
  have ht : t.val < 50 := lt_of_lt_of_eq (show t.val < grid4.N from t.isLt) hN
  refine reg4_ext_rows _ _ fun p q => ?_
  have hj0 : p.val < 2000 := p.isLt
  have hj1 : q.val < 32 := q.isLt
  -- the rows of the activations that block t holds
  let ρ : Fin 2000 → Fin 100000 := fun p => ⟨t.val * 2000 + p.val, by have := p.isLt; omega⟩
  have hemb : ((cfg4.win 7).blk t).view.emb (ix2 p q) = ix2 (ρ p) q := by
    funext a; apply Fin.ext
    match a with
    | ⟨0, _⟩ => show win4_7.index t (0 : Fin 2) * 2000 + 1 * p.val = t.val * 2000 + p.val; omega
    | ⟨1, _⟩ => show win4_7.index t (1 : Fin 2) * 32 + 1 * q.val = q.val; omega
  show k4_pay1 (F := Ideal) (iblk4 V c 0 t) (iblk4 V c 1 t) (iblk4 V c 2 t) (iblk4 V c 3 t) (iblk4 V c 4 t) (iblk4 V c 5 t)
      (iblk4 V c 6 t) (ix2 p q)
    = Gfin (V c main_v61) (V c main_v69) (V c main_v71) (V c main_arg11) (V c main_arg12) (V c main_arg13) (V c main_arg14)
        (((cfg4.win 7).blk t).view.emb (ix2 p q))
  rw [hemb]
  refine reg4_block_value (V c main_v61) (V c main_v69) (V c main_v71) (V c main_arg11) (V c main_arg12) (V c main_arg13)
    (V c main_arg14) (iblk4 V c 0 t) (iblk4 V c 1 t) (iblk4 V c 2 t) (iblk4 V c 3 t) (iblk4 V c 4 t) (iblk4 V c 5 t)
    (iblk4 V c 6 t) ρ ?_ ?_ ?_ ?_ ?_ ?_ ?_ p q
  · intro p k
    have hp : p.val < 2000 := p.isLt
    show V c main_v61 (((cfg4.win 0).blk t).view.emb (ix2 p k)) = V c main_v61 (ix2 (ρ p) k)
    refine congrArg (V c main_v61) (funext fun a => Fin.ext ?_)
    match a with
    | ⟨0, _⟩ => show win4_0.index t (0 : Fin 2) * 2000 + 1 * p.val = t.val * 2000 + p.val; omega
    | ⟨1, _⟩ => show win4_0.index t (1 : Fin 2) * 64 + 1 * k.val = k.val; omega
  · intro k
    show V c main_v69 (((cfg4.win 1).blk t).view.emb (ix1 k)) = V c main_v69 (ix1 k)
    refine congrArg (V c main_v69) (funext fun a => Fin.ext ?_)
    match a with
    | ⟨0, _⟩ => show win4_1.index t (0 : Fin 1) * 64 + 1 * k.val = k.val; omega
  · intro k
    show V c main_v71 (((cfg4.win 2).blk t).view.emb (ix1 k)) = V c main_v71 (ix1 k)
    refine congrArg (V c main_v71) (funext fun a => Fin.ext ?_)
    match a with
    | ⟨0, _⟩ => show win4_2.index t (0 : Fin 1) * 64 + 1 * k.val = k.val; omega
  · intro k' k
    show V c main_arg11 (((cfg4.win 3).blk t).view.emb (ix2 k' k)) = V c main_arg11 (ix2 k' k)
    refine congrArg (V c main_arg11) (funext fun a => Fin.ext ?_)
    match a with
    | ⟨0, _⟩ => show win4_3.index t (0 : Fin 2) * 64 + 1 * k'.val = k'.val; omega
    | ⟨1, _⟩ => show win4_3.index t (1 : Fin 2) * 32 + 1 * k.val = k.val; omega
  · intro k
    show V c main_arg12 (((cfg4.win 4).blk t).view.emb (ix1 k)) = V c main_arg12 (ix1 k)
    refine congrArg (V c main_arg12) (funext fun a => Fin.ext ?_)
    match a with
    | ⟨0, _⟩ => show win4_4.index t (0 : Fin 1) * 32 + 1 * k.val = k.val; omega
  · intro k q
    show V c main_arg13 (((cfg4.win 5).blk t).view.emb (ix2 k q)) = V c main_arg13 (ix2 k q)
    refine congrArg (V c main_arg13) (funext fun a => Fin.ext ?_)
    match a with
    | ⟨0, _⟩ => show win4_5.index t (0 : Fin 2) * 32 + 1 * k.val = k.val; omega
    | ⟨1, _⟩ => show win4_5.index t (1 : Fin 2) * 32 + 1 * q.val = q.val; omega
  · intro q
    show V c main_arg14 (((cfg4.win 6).blk t).view.emb (ix1 q)) = V c main_arg14 (ix1 q)
    refine congrArg (V c main_arg14) (funext fun a => Fin.ext ?_)
    match a with
    | ⟨0, _⟩ => show win4_6.index t (0 : Fin 1) * 32 + 1 * q.val = q.val; omega

/-- An index of the output array is in point t's block iff each coordinate is in the block's range on its axis. -/
theorem reg4_mem_blk (t : Fin cfg4.N) (i : S100000x32.Idx) :
    i ∈ ((cfg4.win 7).blk t).view.set
      ↔ ∀ a : Fin 2, win4_7.index t a * S2000x32.size a ≤ (i a).val ∧ (i a).val < win4_7.index t a * S2000x32.size a + S2000x32.size a := by
  show i ∈ ((View.whole main_v72).slice (win4_7.rect t)).set ↔ _
  rw [View.set_slice_whole, Rect.mem_set_unit]
  exact Iff.rfl

/-- Every row of the output lies in the slab of 2000 rows of exactly the point row / 2000, which writes its slab back. -/
theorem reg4_cover (i : S100000x32.Idx) :
    ∃ t : Fin cfg4.N, (cfg4.win 7).flush t = true ∧ i ∈ ((cfg4.win 7).blk t).view.set := by
  have hi0 : (i 0).val < 100000 := (i 0).isLt
  have hi1 : (i 1).val < 32 := (i 1).isLt
  have hN : grid4.N = 50 := N_4
  obtain ⟨t, ht⟩ : ∃ t : Fin cfg4.N, t.val = (i 0).val / 2000 :=
    ⟨⟨(i 0).val / 2000, lt_of_lt_of_eq (show (i 0).val / 2000 < 50 by omega) hN.symm⟩, rfl⟩
  obtain ⟨e00, e01, e1, e2, e30, e31, e4, e50, e51, e6, e70, e71⟩ := reg4_block_places t
  refine ⟨t, flush4_7 t, ?_⟩
  rw [reg4_mem_blk]
  intro a
  match a with
  | ⟨0, _⟩ =>
    show win4_7.index t (0 : Fin 2) * 2000 ≤ (i 0).val ∧ (i 0).val < win4_7.index t (0 : Fin 2) * 2000 + 2000
    omega
  | ⟨1, _⟩ =>
    show win4_7.index t (1 : Fin 2) * 32 ≤ (i 1).val ∧ (i 1).val < win4_7.index t (1 : Fin 2) * 32 + 32
    omega

/-- The last region's output array after the region: the affine map, the two dense layers, index by index. -/
theorem final4 (V : (c : Dev nD) → (b : Ref sig .tc) → Buf (Elt Ideal) ((c : Thread nD τ).loc b)) (c : Dev nD) :
    (dat4 (F := Ideal) V c).arrAt 7 cfg4.N
      = Gfin (V c main_v61) (V c main_v69) (V c main_v71) (V c main_arg11) (V c main_arg12) (V c main_arg13) (V c main_arg14) :=
  (dat4 (F := Ideal) V c).arrAt_eq_of_cover 7
    (Gfin (V c main_v61) (V c main_v69) (V c main_v71) (V c main_arg11) (V c main_arg12) (V c main_arg13) (V c main_arg14))
    (fun t _ => reg4_flushed_eq V c t) reg4_cover

end Cert.Hand

end
-- ==== Proof.KFoldB.lean ====
import proofs.«401189_j18330920419815_1_alg».proof.Proof.Gen.KernelIdeal.Frame
import proofs.«401189_j18330920419815_1_alg».proof.Proof.Spec
import proofs.«401189_j18330920419815_1_alg».proof.Proof.Gen.ReferenceIdeal
import proofs.«401189_j18330920419815_1_alg».proof.Proof.KReg4
set_option maxRecDepth 16384

noncomputable section

open scoped BigOperators

namespace Cert.Hand

open Idealize.ShloMosaic Idealize.ShloMosaic.TcCoe Idealize.ShloMosaic.ValueIdx Idealize.SL.Sem Cert.KernelIdeal Cert.KernelIdeal.Gen

section Stretches

-- the three opaque host functions stay closed: the comparisons below never look inside them
attribute [local irreducible] Host.reduceAdd Host.divf Host.rsqrt

/-- Unfolds the three stretches' operation lists to literal lists of the plain builders, then computes the fold at the goal's reference. -/
local macro "foldB_run" : tactic =>
  `(tactic| (dsimp only [hostOps4, hostOps4_1, hostOps4_2, StableHlo.TRef.nullary, StableHlo.TRef.unary, StableHlo.TRef.binary,
      StableHlo.TRef.ternary, StableHlo.TRef.of, StableHlo.TRef.toBuf, StableHlo.TRef.ofBuf, cast_eq]
             after_results_simp))

variable (V : Valuation τ sig (Elt Ideal))

/-! ## The first stretch: the column means and the zero correction -/

/-- After the first stretch the mean buffer holds the column means of the activations. -/
private theorem foldB_st1_v64 :
    StableHlo.after (hostOps4 (F := Ideal)) V (Proc.devRef .tc main_v64)
      = meanOf (F := Ideal) (V (Proc.devRef .tc main_v61)) := by
  foldB_run
  rfl

/-- After the first stretch the correction buffer holds the integer zero. -/
private theorem foldB_st1_c18 :
    StableHlo.after (hostOps4 (F := Ideal)) V (Proc.devRef .tc main_c_18) = constantI S_ 32 0#32 := by
  foldB_run

/-- The first stretch leaves the activations as they were. -/
private theorem foldB_st1_v61 :
    StableHlo.after (hostOps4 (F := Ideal)) V (Proc.devRef .tc main_v61) = V (Proc.devRef .tc main_v61) := by
  foldB_run

/-- The first stretch leaves gamma as it was. -/
private theorem foldB_st1_arg9 :
    StableHlo.after (hostOps4 (F := Ideal)) V (Proc.devRef .tc main_arg9) = V (Proc.devRef .tc main_arg9) := by
  foldB_run

/-- The first stretch leaves beta as it was. -/
private theorem foldB_st1_arg10 :
    StableHlo.after (hostOps4 (F := Ideal)) V (Proc.devRef .tc main_arg10) = V (Proc.devRef .tc main_arg10) := by
  foldB_run

/-! ## The second stretch: the column variances -/

/-- After the second stretch, entered with the integer zero in the correction buffer, the variance buffer holds
    the column variances of the activations. -/
private theorem foldB_st2_v65 (h18 : V (Proc.devRef .tc main_c_18) = constantI S_ 32 0#32) :
    StableHlo.after (hostOps4_1 (F := Ideal)) V (Proc.devRef .tc main_v65)
      = varOf (F := Ideal) (V (Proc.devRef .tc main_v61)) := by
  foldB_run
  rw [h18]
  rfl

/-- The second stretch leaves the means as they were. -/
private theorem foldB_st2_v64 :
    StableHlo.after (hostOps4_1 (F := Ideal)) V (Proc.devRef .tc main_v64) = V (Proc.devRef .tc main_v64) := by
  foldB_run

/-- The second stretch leaves gamma as it was. -/
private theorem foldB_st2_arg9 :
    StableHlo.after (hostOps4_1 (F := Ideal)) V (Proc.devRef .tc main_arg9) = V (Proc.devRef .tc main_arg9) := by
  foldB_run

/-- The second stretch leaves beta as it was. -/
private theorem foldB_st2_arg10 :
    StableHlo.after (hostOps4_1 (F := Ideal)) V (Proc.devRef .tc main_arg10) = V (Proc.devRef .tc main_arg10) := by
  foldB_run

/-! ## The third stretch: the scale and the shift -/

/-- After the third stretch, entered with the variances of `h` and with `g` for gamma, the scale buffer holds
    the scale of `h` and `g`. -/
private theorem foldB_st3_v69 (h : FVec Ideal S100000x64 .f32) (g : FVec Ideal S64 .f32)
    (h65 : V (Proc.devRef .tc main_v65) = varOf (F := Ideal) h) (h9 : V (Proc.devRef .tc main_arg9) = g) :
    StableHlo.after (hostOps4_2 (F := Ideal)) V (Proc.devRef .tc main_v69) = scaleOf (F := Ideal) h g := by
  foldB_run
  rw [h65, h9]
  rfl

/-- After the third stretch, entered with the means and variances of `h`, `g` for gamma and `β` for beta,
    the shift buffer holds the shift of `h`, `g` and `β`. -/
private theorem foldB_st3_v71 (h : FVec Ideal S100000x64 .f32) (g β : FVec Ideal S64 .f32)
    (h64 : V (Proc.devRef .tc main_v64) = meanOf (F := Ideal) h)
    (h65 : V (Proc.devRef .tc main_v65) = varOf (F := Ideal) h) (h9 : V (Proc.devRef .tc main_arg9) = g)
    (h10 : V (Proc.devRef .tc main_arg10) = β) :
    StableHlo.after (hostOps4_2 (F := Ideal)) V (Proc.devRef .tc main_v71) = shiftOf (F := Ideal) h g β := by
  foldB_run
  rw [h64, h65, h9, h10]
  rfl

/-! ## What the three stretches never write -/

/-- The three stretches leave the activations as they were. -/
private theorem foldB_keep_v61 :
    StableHlo.after (hostOps4_2 (F := Ideal)) (StableHlo.after hostOps4_1 (StableHlo.after hostOps4 V)) (Proc.devRef .tc main_v61)
      = V (Proc.devRef .tc main_v61) := by
  foldB_run

/-- The three stretches leave the first head matrix as it was. -/
private theorem foldB_keep_arg11 :
    StableHlo.after (hostOps4_2 (F := Ideal)) (StableHlo.after hostOps4_1 (StableHlo.after hostOps4 V)) (Proc.devRef .tc main_arg11)
      = V (Proc.devRef .tc main_arg11) := by
  foldB_run

/-- The three stretches leave the first head bias as it was. -/
private theorem foldB_keep_arg12 :
    StableHlo.after (hostOps4_2 (F := Ideal)) (StableHlo.after hostOps4_1 (StableHlo.after hostOps4 V)) (Proc.devRef .tc main_arg12)
      = V (Proc.devRef .tc main_arg12) := by
  foldB_run

/-- The three stretches leave the second head matrix as it was. -/
private theorem foldB_keep_arg13 :
    StableHlo.after (hostOps4_2 (F := Ideal)) (StableHlo.after hostOps4_1 (StableHlo.after hostOps4 V)) (Proc.devRef .tc main_arg13)
      = V (Proc.devRef .tc main_arg13) := by
  foldB_run

/-- The three stretches leave the second head bias as it was. -/
private theorem foldB_keep_arg14 :
    StableHlo.after (hostOps4_2 (F := Ideal)) (StableHlo.after hostOps4_1 (StableHlo.after hostOps4 V)) (Proc.devRef .tc main_arg14)
      = V (Proc.devRef .tc main_arg14) := by
  foldB_run

end Stretches

section Entry

variable (m : (ℓ : Loc nD τ sig) → Buf (Elt Ideal) ℓ) (ρ : Dev nD → PrngReg) (c : Dev nD)

/-- At the entry of the last region the variance buffer holds the column variances of the fourth region's output. -/
private theorem foldB_W10_v65 :
    W10 m ρ c (Proc.devRef .tc main_v65) = varOf (F := Ideal) (W8 m ρ c (Proc.devRef .tc main_v61)) :=
  (foldB_st2_v65 (W9 m ρ c) (foldB_st1_c18 _)).trans (congrArg (varOf (F := Ideal)) (foldB_st1_v61 _))

/-- At the entry of the last region the mean buffer holds the column means of the fourth region's output. -/
private theorem foldB_W10_v64 :
    W10 m ρ c (Proc.devRef .tc main_v64) = meanOf (F := Ideal) (W8 m ρ c (Proc.devRef .tc main_v61)) :=
  (foldB_st2_v64 (W9 m ρ c)).trans (foldB_st1_v64 _)

private theorem foldB_W10_arg9 : W10 m ρ c (Proc.devRef .tc main_arg9) = W8 m ρ c (Proc.devRef .tc main_arg9) :=
  (foldB_st2_arg9 (W9 m ρ c)).trans (foldB_st1_arg9 _)

private theorem foldB_W10_arg10 : W10 m ρ c (Proc.devRef .tc main_arg10) = W8 m ρ c (Proc.devRef .tc main_arg10) :=
  (foldB_st2_arg10 (W9 m ρ c)).trans (foldB_st1_arg10 _)

/-- The last region enters with the scale of the fourth region's output and gamma in its scale window. -/
private theorem foldB_W11_v69 :
    W11 m ρ c (Proc.devRef .tc main_v69)
      = scaleOf (F := Ideal) (W8 m ρ c (Proc.devRef .tc main_v61)) (W8 m ρ c (Proc.devRef .tc main_arg9)) :=
  foldB_st3_v69 (W10 m ρ c) _ _ (foldB_W10_v65 m ρ c) (foldB_W10_arg9 m ρ c)

/-- The last region enters with the shift of the fourth region's output, gamma and beta in its shift window. -/
private theorem foldB_W11_v71 :
    W11 m ρ c (Proc.devRef .tc main_v71)
      = shiftOf (F := Ideal) (W8 m ρ c (Proc.devRef .tc main_v61)) (W8 m ρ c (Proc.devRef .tc main_arg9))
          (W8 m ρ c (Proc.devRef .tc main_arg10)) :=
  foldB_st3_v71 (W10 m ρ c) _ _ _ (foldB_W10_v64 m ρ c) (foldB_W10_v65 m ρ c) (foldB_W10_arg9 m ρ c) (foldB_W10_arg10 m ρ c)

end Entry

/-- The result buffer at the last boundary: the last region of the fourth region's output, the scale and shift the host
    computes from it (and from gamma, beta), and the last four arguments, all read at the boundary after the fourth region. -/
theorem W12_out (m : (ℓ : Loc nD τ sig) → Buf (Elt Ideal) ℓ) (ρ : Dev nD → PrngReg) (c : Dev nD) :
    W12 m ρ c (Proc.devRef .tc main_v72)
      = Gfin (W8 m ρ c (Proc.devRef .tc main_v61)) (scaleOf (W8 m ρ c (Proc.devRef .tc main_v61)) (W8 m ρ c (Proc.devRef .tc main_arg9)))
          (shiftOf (W8 m ρ c (Proc.devRef .tc main_v61)) (W8 m ρ c (Proc.devRef .tc main_arg9)) (W8 m ρ c (Proc.devRef .tc main_arg10)))
          (W8 m ρ c (Proc.devRef .tc main_arg11)) (W8 m ρ c (Proc.devRef .tc main_arg12)) (W8 m ρ c (Proc.devRef .tc main_arg13)) (W8 m ρ c (Proc.devRef .tc main_arg14)) := by
  refine (W12_arr m ρ c 7).trans ((final4 (V11 m ρ) c).trans ?_)
  have e61 : V11 m ρ c main_v61 = W8 m ρ c (Proc.devRef .tc main_v61) := foldB_keep_v61 (W8 m ρ c)
  have e69 : V11 m ρ c main_v69 = _ := foldB_W11_v69 m ρ c
  have e71 : V11 m ρ c main_v71 = _ := foldB_W11_v71 m ρ c
  have e11 : V11 m ρ c main_arg11 = W8 m ρ c (Proc.devRef .tc main_arg11) := foldB_keep_arg11 (W8 m ρ c)
  have e12 : V11 m ρ c main_arg12 = W8 m ρ c (Proc.devRef .tc main_arg12) := foldB_keep_arg12 (W8 m ρ c)
  have e13 : V11 m ρ c main_arg13 = W8 m ρ c (Proc.devRef .tc main_arg13) := foldB_keep_arg13 (W8 m ρ c)
  have e14 : V11 m ρ c main_arg14 = W8 m ρ c (Proc.devRef .tc main_arg14) := foldB_keep_arg14 (W8 m ρ c)
  rw [e61, e69, e71, e11, e12, e13, e14]

end Cert.Hand

end
-- ==== Proof.KValue.lean ====
import proofs.«401189_j18330920419815_1_alg».proof.Proof.Gen.KernelIdeal.Frame
import proofs.«401189_j18330920419815_1_alg».proof.Proof.Spec
import proofs.«401189_j18330920419815_1_alg».proof.Proof.Gen.ReferenceIdeal
import proofs.«401189_j18330920419815_1_alg».proof.Proof.KFoldA
import proofs.«401189_j18330920419815_1_alg».proof.Proof.KFoldB
set_option maxRecDepth 16384

noncomputable section

open scoped BigOperators

namespace Cert.Hand

open Idealize.ShloMosaic Idealize.ShloMosaic.TcCoe Idealize.ShloMosaic.ValueIdx Idealize.SL.Sem Cert.KernelIdeal Cert.KernelIdeal.Gen

/-- The result buffer at the last boundary is the kernel's function of the launch arguments. -/
theorem W12_value (m : (ℓ : Loc nD τ sig) → Buf (Elt Ideal) ℓ) (ρ : Dev nD → PrngReg) (c : Dev nD) :
    W12 m ρ c (Proc.devRef .tc main_v72)
      = kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  rw [W12_out, W8_h4, W8_arg9, W8_arg10, W8_arg11, W8_arg12, W8_arg13, W8_arg14]
  rfl

end Cert.Hand

end
-- ==== Proof.RefOps.lean ====
import proofs.«401189_j18330920419815_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀

variable {F : FTy → Type} [FloatOps F]

/-- The edge list's two rows: 4 operations, in order. -/
abbrev ropsE : List (HloOp τ sig (Elt F)) :=
  [ StableHlo.unary main_arg15 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg15 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000 ]

/-- The first dense layer and its rectifier: 7 operations, in order. -/
abbrev ropsL1 : List (HloOp τ sig (Elt F)) :=
  [ StableHlo.binary main_arg0 main_arg1 main_v4 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    StableHlo.unary main_arg2 main_v5 (broadcastInDim S1x128 ![1] bcast_S128_S1x128_1 : (⟨S128, .f32⟩ : BufTy).Contents (Elt F) → (⟨S1x128, .f32⟩ : BufTy).Contents (Elt F)),
    StableHlo.unary main_v5 main_v6 (broadcastInDim S100000x128 ![0, 1] bcast_S1x128_S100000x128_0_1 : (⟨S1x128, .f32⟩ : BufTy).Contents (Elt F) → (⟨S100000x128, .f32⟩ : BufTy).Contents (Elt F)),
    StableHlo.binary main_v4 main_v6 main_v7 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v7) main_call0.v0 main_call0.v1 maximumf ]

/-- The first mean aggregation: 24 operations, in order. -/
abbrev ropsG1 : List (HloOp τ sig (Elt F)) :=
  [ StableHlo.nullary main_c (constantI S_ 32 0#32),
    StableHlo.unary main_c main_v9 (broadcastInDim S1600000 ![] bcast_S_S1600000 : (⟨S_, .i32⟩ : BufTy).Contents (Elt F) → (⟨S1600000, .i32⟩ : BufTy).Contents (Elt F)),
    StableHlo.binary main_v1 main_v9 main_v10 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v11 (broadcastInDim S1600000 ![] bcast_S_S1600000 : (⟨S_, .i32⟩ : BufTy).Contents (Elt F) → (⟨S1600000, .i32⟩ : BufTy).Contents (Elt F)),
    StableHlo.binary main_v1 main_v11 main_v12 (addi : (⟨S1600000, .i32⟩ : BufTy).Contents (Elt F) → (⟨S1600000, .i32⟩ : BufTy).Contents (Elt F) → (⟨S1600000, .i32⟩ : BufTy).Contents (Elt F)),
    StableHlo.ternary main_v10 main_v12 main_v1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v13 main_v14 (broadcastInDim S1600000x1 ![0] bcast_S1600000_S1600000x1_0 : (⟨S1600000, .i32⟩ : BufTy).Contents (Elt F) → (⟨S1600000x1, .i32⟩ : BufTy).Contents (Elt F)),
    StableHlo.binary main_v8 main_v14 main_v15 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v16 (broadcastInDim S100000x128 ![] bcast_S_S100000x128 : (⟨S_, .f32⟩ : BufTy).Contents (Elt F) → (⟨S100000x128, .f32⟩ : BufTy).Contents (Elt F)),
    StableHlo.unary main_v3 main_v17 (broadcastInDim S1600000x1 ![0] bcast_S1600000_S1600000x1_0 : (⟨S1600000, .i32⟩ : BufTy).Contents (Elt F) → (⟨S1600000x1, .i32⟩ : BufTy).Contents (Elt F)),
    StableHlo.ternary main_v16 main_v17 main_v15 main_v18 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x3F800000#32),
    StableHlo.unary main_cst_1 main_v19 (broadcastInDim S1600000x1 ![] bcast_S_S1600000x1 : (⟨S_, .f32⟩ : BufTy).Contents (Elt F) → (⟨S1600000x1, .f32⟩ : BufTy).Contents (Elt F)),
    StableHlo.nullary main_cst_2 (constant S_ .f32 0x00000000#32),
    StableHlo.unary main_cst_2 main_v20 (broadcastInDim S100000x1 ![] bcast_S_S100000x1 : (⟨S_, .f32⟩ : BufTy).Contents (Elt F) → (⟨S100000x1, .f32⟩ : BufTy).Contents (Elt F)),
    StableHlo.unary main_v3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_3 (constant S_ .f32 0x3F800000#32),
    StableHlo.unary main_cst_3 main_v23 (broadcastInDim S100000x1 ![] bcast_S_S100000x1 : (⟨S_, .f32⟩ : BufTy).Contents (Elt F) → (⟨S100000x1, .f32⟩ : BufTy).Contents (Elt F)),
    StableHlo.binary main_v22 main_v23 main_v24 (maximumf : (⟨S100000x1, .f32⟩ : BufTy).Contents (Elt F) → (⟨S100000x1, .f32⟩ : BufTy).Contents (Elt F) → (⟨S100000x1, .f32⟩ : BufTy).Contents (Elt F)),
    StableHlo.unary main_v24 main_v25 (broadcastInDim S100000x128 ![0, 1] bcast_S100000x1_S100000x128_0_1 : (⟨S100000x1, .f32⟩ : BufTy).Contents (Elt F) → (⟨S100000x128, .f32⟩ : BufTy).Contents (Elt F)),
    StableHlo.binary main_v18 main_v25 main_v26 (Host.divf : (⟨S100000x128, .f32⟩ : BufTy).Contents (Elt F) → (⟨S100000x128, .f32⟩ : BufTy).Contents (Elt F) → (⟨S100000x128, .f32⟩ : BufTy).Contents (Elt F)) ]

/-- The second dense layer: 7 operations, in order. -/
abbrev ropsL2 : List (HloOp τ sig (Elt F)) :=
  [ StableHlo.binary main_v26 main_arg3 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg4 main_v28 (broadcastInDim S1x64 ![1] bcast_S64_S1x64_1 : (⟨S64, .f32⟩ : BufTy).Contents (Elt F) → (⟨S1x64, .f32⟩ : BufTy).Contents (Elt F)),
    StableHlo.unary main_v28 main_v29 (broadcastInDim S100000x64 ![0, 1] bcast_S1x64_S100000x64_0_1 : (⟨S1x64, .f32⟩ : BufTy).Contents (Elt F) → (⟨S100000x64, .f32⟩ : BufTy).Contents (Elt F)),
    StableHlo.binary main_v27 main_v29 main_v30 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v30) main_call1.v0 main_call1.v1 maximumf ]

/-- The second mean aggregation: 24 operations, in order. -/
abbrev ropsG2 : List (HloOp τ sig (Elt F)) :=
  [ StableHlo.nullary main_c_4 (constantI S_ 32 0#32),
    StableHlo.unary main_c_4 main_v32 (broadcastInDim S1600000 ![] bcast_S_S1600000 : (⟨S_, .i32⟩ : BufTy).Contents (Elt F) → (⟨S1600000, .i32⟩ : BufTy).Contents (Elt F)),
    StableHlo.binary main_v1 main_v32 main_v33 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v34 (broadcastInDim S1600000 ![] bcast_S_S1600000 : (⟨S_, .i32⟩ : BufTy).Contents (Elt F) → (⟨S1600000, .i32⟩ : BufTy).Contents (Elt F)),
    StableHlo.binary main_v1 main_v34 main_v35 (addi : (⟨S1600000, .i32⟩ : BufTy).Contents (Elt F) → (⟨S1600000, .i32⟩ : BufTy).Contents (Elt F) → (⟨S1600000, .i32⟩ : BufTy).Contents (Elt F)),
    StableHlo.ternary main_v33 main_v35 main_v1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v36 main_v37 (broadcastInDim S1600000x1 ![0] bcast_S1600000_S1600000x1_0 : (⟨S1600000, .i32⟩ : BufTy).Contents (Elt F) → (⟨S1600000x1, .i32⟩ : BufTy).Contents (Elt F)),
    StableHlo.binary main_v31 main_v37 main_v38 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_6 (constant S_ .f32 0x00000000#32),
    StableHlo.unary main_cst_6 main_v39 (broadcastInDim S100000x64 ![] bcast_S_S100000x64 : (⟨S_, .f32⟩ : BufTy).Contents (Elt F) → (⟨S100000x64, .f32⟩ : BufTy).Contents (Elt F)),
    StableHlo.unary main_v3 main_v40 (broadcastInDim S1600000x1 ![0] bcast_S1600000_S1600000x1_0 : (⟨S1600000, .i32⟩ : BufTy).Contents (Elt F) → (⟨S1600000x1, .i32⟩ : BufTy).Contents (Elt F)),
    StableHlo.ternary main_v39 main_v40 main_v38 main_v41 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_7 (constant S_ .f32 0x3F800000#32),
    StableHlo.unary main_cst_7 main_v42 (broadcastInDim S1600000x1 ![] bcast_S_S1600000x1 : (⟨S_, .f32⟩ : BufTy).Contents (Elt F) → (⟨S1600000x1, .f32⟩ : BufTy).Contents (Elt F)),
    StableHlo.nullary main_cst_8 (constant S_ .f32 0x00000000#32),
    StableHlo.unary main_cst_8 main_v43 (broadcastInDim S100000x1 ![] bcast_S_S100000x1 : (⟨S_, .f32⟩ : BufTy).Contents (Elt F) → (⟨S100000x1, .f32⟩ : BufTy).Contents (Elt F)),
    StableHlo.unary main_v3 main_v44 (broadcastInDim S1600000x1 ![0] bcast_S1600000_S1600000x1_0 : (⟨S1600000, .i32⟩ : BufTy).Contents (Elt F) → (⟨S1600000x1, .i32⟩ : BufTy).Contents (Elt F)),
    StableHlo.ternary main_v43 main_v44 main_v42 main_v45 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_9 (constant S_ .f32 0x3F800000#32),
    StableHlo.unary main_cst_9 main_v46 (broadcastInDim S100000x1 ![] bcast_S_S100000x1 : (⟨S_, .f32⟩ : BufTy).Contents (Elt F) → (⟨S100000x1, .f32⟩ : BufTy).Contents (Elt F)),
    StableHlo.binary main_v45 main_v46 main_v47 (maximumf : (⟨S100000x1, .f32⟩ : BufTy).Contents (Elt F) → (⟨S100000x1, .f32⟩ : BufTy).Contents (Elt F) → (⟨S100000x1, .f32⟩ : BufTy).Contents (Elt F)),
    StableHlo.unary main_v47 main_v48 (broadcastInDim S100000x64 ![0, 1] bcast_S100000x1_S100000x64_0_1 : (⟨S100000x1, .f32⟩ : BufTy).Contents (Elt F) → (⟨S100000x64, .f32⟩ : BufTy).Contents (Elt F)),
    StableHlo.binary main_v41 main_v48 main_v49 (Host.divf : (⟨S100000x64, .f32⟩ : BufTy).Contents (Elt F) → (⟨S100000x64, .f32⟩ : BufTy).Contents (Elt F) → (⟨S100000x64, .f32⟩ : BufTy).Contents (Elt F)) ]

/-- The third dense layer: 7 operations, in order. -/
abbrev ropsL3 : List (HloOp τ sig (Elt F)) :=
  [ StableHlo.binary main_v49 main_arg5 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S100000x64 ![0, 1] bcast_S1x64_S100000x64_0_1 : (⟨S1x64, .f32⟩ : BufTy).Contents (Elt F) → (⟨S100000x64, .f32⟩ : BufTy).Contents (Elt F)),
    StableHlo.binary main_v50 main_v52 main_v53 (addf : (⟨S100000x64, .f32⟩ : BufTy).Contents (Elt F) → (⟨S100000x64, .f32⟩ : BufTy).Contents (Elt F) → (⟨S100000x64, .f32⟩ : BufTy).Contents (Elt F)),
    StableHlo.TRef.nullary main_call2.cst (constant S_ .f32 0x00000000#32),
    StableHlo.TRef.unary main_call2.cst main_call2.v0 (broadcastInDim S100000x64 ![] bcast_S_S100000x64),
    StableHlo.TRef.binary (.of main_v53) main_call2.v0 main_call2.v1 maximumf ]

/-- The third mean aggregation: 24 operations, in order. -/
abbrev ropsG3 : List (HloOp τ sig (Elt F)) :=
  [ StableHlo.nullary main_c_10 (constantI S_ 32 0#32),
    StableHlo.unary main_c_10 main_v55 (broadcastInDim S1600000 ![] bcast_S_S1600000 : (⟨S_, .i32⟩ : BufTy).Contents (Elt F) → (⟨S1600000, .i32⟩ : BufTy).Contents (Elt F)),
    StableHlo.binary main_v1 main_v55 main_v56 (cmpi .slt : (⟨S1600000, .i32⟩ : BufTy).Contents (Elt F) → (⟨S1600000, .i32⟩ : BufTy).Contents (Elt F) → (⟨S1600000, .i1⟩ : BufTy).Contents (Elt F)),
    StableHlo.nullary main_c_11 (constantI S_ 32 100000#32),
    StableHlo.unary main_c_11 main_v57 (broadcastInDim S1600000 ![] bcast_S_S1600000 : (⟨S_, .i32⟩ : BufTy).Contents (Elt F) → (⟨S1600000, .i32⟩ : BufTy).Contents (Elt F)),
    StableHlo.binary main_v1 main_v57 main_v58 (addi : (⟨S1600000, .i32⟩ : BufTy).Contents (Elt F) → (⟨S1600000, .i32⟩ : BufTy).Contents (Elt F) → (⟨S1600000, .i32⟩ : BufTy).Contents (Elt F)),
    StableHlo.ternary main_v56 main_v58 main_v1 main_v59 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v59 main_v60 (broadcastInDim S1600000x1 ![0] bcast_S1600000_S1600000x1_0 : (⟨S1600000, .i32⟩ : BufTy).Contents (Elt F) → (⟨S1600000x1, .i32⟩ : BufTy).Contents (Elt F)),
    StableHlo.binary main_v54 main_v60 main_v61 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.nullary main_cst_12 (constant S_ .f32 0x00000000#32),
    StableHlo.unary main_cst_12 main_v62 (broadcastInDim S100000x64 ![] bcast_S_S100000x64 : (⟨S_, .f32⟩ : BufTy).Contents (Elt F) → (⟨S100000x64, .f32⟩ : BufTy).Contents (Elt F)),
    StableHlo.unary main_v3 main_v63 (broadcastInDim S1600000x1 ![0] bcast_S1600000_S1600000x1_0 : (⟨S1600000, .i32⟩ : BufTy).Contents (Elt F) → (⟨S1600000x1, .i32⟩ : BufTy).Contents (Elt F)),
    StableHlo.ternary main_v62 main_v63 main_v61 main_v64 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.nullary main_cst_13 (constant S_ .f32 0x3F800000#32),
    StableHlo.unary main_cst_13 main_v65 (broadcastInDim S1600000x1 ![] bcast_S_S1600000x1 : (⟨S_, .f32⟩ : BufTy).Contents (Elt F) → (⟨S1600000x1, .f32⟩ : BufTy).Contents (Elt F)),
    StableHlo.nullary main_cst_14 (constant S_ .f32 0x00000000#32),
    StableHlo.unary main_cst_14 main_v66 (broadcastInDim S100000x1 ![] bcast_S_S100000x1 : (⟨S_, .f32⟩ : BufTy).Contents (Elt F) → (⟨S100000x1, .f32⟩ : BufTy).Contents (Elt F)),
    StableHlo.unary main_v3 main_v67 (broadcastInDim S1600000x1 ![0] bcast_S1600000_S1600000x1_0 : (⟨S1600000, .i32⟩ : BufTy).Contents (Elt F) → (⟨S1600000x1, .i32⟩ : BufTy).Contents (Elt F)),
    StableHlo.ternary main_v66 main_v67 main_v65 main_v68 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    StableHlo.nullary main_cst_15 (constant S_ .f32 0x3F800000#32),
    StableHlo.unary main_cst_15 main_v69 (broadcastInDim S100000x1 ![] bcast_S_S100000x1 : (⟨S_, .f32⟩ : BufTy).Contents (Elt F) → (⟨S100000x1, .f32⟩ : BufTy).Contents (Elt F)),
    StableHlo.binary main_v68 main_v69 main_v70 (maximumf : (⟨S100000x1, .f32⟩ : BufTy).Contents (Elt F) → (⟨S100000x1, .f32⟩ : BufTy).Contents (Elt F) → (⟨S100000x1, .f32⟩ : BufTy).Contents (Elt F)),
    StableHlo.unary main_v70 main_v71 (broadcastInDim S100000x64 ![0, 1] bcast_S100000x1_S100000x64_0_1 : (⟨S100000x1, .f32⟩ : BufTy).Contents (Elt F) → (⟨S100000x64, .f32⟩ : BufTy).Contents (Elt F)),
    StableHlo.binary main_v64 main_v71 main_v72 (Host.divf : (⟨S100000x64, .f32⟩ : BufTy).Contents (Elt F) → (⟨S100000x64, .f32⟩ : BufTy).Contents (Elt F) → (⟨S100000x64, .f32⟩ : BufTy).Contents (Elt F)) ]

/-- The fourth dense layer: 7 operations, in order. -/
abbrev ropsL4 : List (HloOp τ sig (Elt F)) :=
  [ StableHlo.binary main_v72 main_arg7 main_v73 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg8 main_v74 (broadcastInDim S1x64 ![1] bcast_S64_S1x64_1 : (⟨S64, .f32⟩ : BufTy).Contents (Elt F) → (⟨S1x64, .f32⟩ : BufTy).Contents (Elt F)),
    StableHlo.unary main_v74 main_v75 (broadcastInDim S100000x64 ![0, 1] bcast_S1x64_S100000x64_0_1 : (⟨S1x64, .f32⟩ : BufTy).Contents (Elt F) → (⟨S100000x64, .f32⟩ : BufTy).Contents (Elt F)),
    StableHlo.binary main_v73 main_v75 main_v76 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v76) main_call3.v0 main_call3.v1 maximumf ]

/-- The batch statistics and the normalisation: 44 operations, in order. -/
abbrev ropsS : List (HloOp τ sig (Elt F)) :=
  [ StableHlo.nullary main_cst_16 (constant S_ .f32 0x00000000#32),
    StableHlo.binary main_v77 main_cst_16 main_v78 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    StableHlo.nullary main_cst_17 (constant S_ .f32 0x47C35000#32),
    StableHlo.unary main_cst_17 main_v79 (broadcastInDim S64 ![] bcast_S_S64 : (⟨S_, .f32⟩ : BufTy).Contents (Elt F) → (⟨S64, .f32⟩ : BufTy).Contents (Elt F)),
    StableHlo.binary main_v78 main_v79 main_v80 (Host.divf : (⟨S64, .f32⟩ : BufTy).Contents (Elt F) → (⟨S64, .f32⟩ : BufTy).Contents (Elt F) → (⟨S64, .f32⟩ : BufTy).Contents (Elt F)),
    StableHlo.nullary main_c_18 (constantI S_ 32 0#32),
    StableHlo.TRef.nullary main_call4.cst (constant S_ .f32 0x00000000#32),
    StableHlo.TRef.binary (.of main_v77) main_call4.cst main_call4.v0 (fun x v => Host.reduceAdd x v reducesTo_S100000x64_S64_d0 h_S_),
    StableHlo.TRef.unary main_call4.v0 main_call4.v1 (broadcastInDim S1x64 ![1] bcast_S64_S1x64_1),
    StableHlo.TRef.nullary main_call4.cst_0 (constant S_ .f32 0x47C35000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S100000x64 ![0, 1] bcast_S1x64_S100000x64_0_1),
    StableHlo.TRef.binary (.of main_v77) main_call4.v4 main_call4.v5 subf,
    StableHlo.TRef.binary main_call4.v5 main_call4.v5 main_call4.v6 mulf,
    StableHlo.TRef.unary (.of main_c_18) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v80 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v83 main_v84 (subf : (⟨S100000x64, .f32⟩ : BufTy).Contents (Elt F) → (⟨S100000x64, .f32⟩ : BufTy).Contents (Elt F) → (⟨S100000x64, .f32⟩ : BufTy).Contents (Elt F)),
    StableHlo.nullary main_cst_19 (constant S_ .f32 0x3727C5AC#32),
    StableHlo.unary main_cst_19 main_v85 (broadcastInDim S64 ![] bcast_S_S64 : (⟨S_, .f32⟩ : BufTy).Contents (Elt F) → (⟨S64, .f32⟩ : BufTy).Contents (Elt F)),
    StableHlo.binary main_v81 main_v85 main_v86 (addf : (⟨S64, .f32⟩ : BufTy).Contents (Elt F) → (⟨S64, .f32⟩ : BufTy).Contents (Elt F) → (⟨S64, .f32⟩ : BufTy).Contents (Elt F)),
    StableHlo.unary main_v86 main_v87 (Host.rsqrt : (⟨S64, .f32⟩ : BufTy).Contents (Elt F) → (⟨S64, .f32⟩ : BufTy).Contents (Elt F)),
    StableHlo.unary main_v87 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S100000x64 ![0, 1] bcast_S1x64_S100000x64_0_1 : (⟨S1x64, .f32⟩ : BufTy).Contents (Elt F) → (⟨S100000x64, .f32⟩ : BufTy).Contents (Elt F)),
    StableHlo.binary main_v84 main_v89 main_v90 (mulf : (⟨S100000x64, .f32⟩ : BufTy).Contents (Elt F) → (⟨S100000x64, .f32⟩ : BufTy).Contents (Elt F) → (⟨S100000x64, .f32⟩ : BufTy).Contents (Elt F)),
    StableHlo.unary main_arg9 main_v91 (broadcastInDim S1x64 ![1] bcast_S64_S1x64_1 : (⟨S64, .f32⟩ : BufTy).Contents (Elt F) → (⟨S1x64, .f32⟩ : BufTy).Contents (Elt F)),
    StableHlo.unary main_v91 main_v92 (broadcastInDim S100000x64 ![0, 1] bcast_S1x64_S100000x64_0_1 : (⟨S1x64, .f32⟩ : BufTy).Contents (Elt F) → (⟨S100000x64, .f32⟩ : BufTy).Contents (Elt F)),
    StableHlo.binary main_v90 main_v92 main_v93 (mulf : (⟨S100000x64, .f32⟩ : BufTy).Contents (Elt F) → (⟨S100000x64, .f32⟩ : BufTy).Contents (Elt F) → (⟨S100000x64, .f32⟩ : BufTy).Contents (Elt F)),
    StableHlo.unary main_arg10 main_v94 (broadcastInDim S1x64 ![1] bcast_S64_S1x64_1 : (⟨S64, .f32⟩ : BufTy).Contents (Elt F) → (⟨S1x64, .f32⟩ : BufTy).Contents (Elt F)),
    StableHlo.unary main_v94 main_v95 (broadcastInDim S100000x64 ![0, 1] bcast_S1x64_S100000x64_0_1 : (⟨S1x64, .f32⟩ : BufTy).Contents (Elt F) → (⟨S100000x64, .f32⟩ : BufTy).Contents (Elt F)),
    StableHlo.binary main_v93 main_v95 main_v96 (addf : (⟨S100000x64, .f32⟩ : BufTy).Contents (Elt F) → (⟨S100000x64, .f32⟩ : BufTy).Contents (Elt F) → (⟨S100000x64, .f32⟩ : BufTy).Contents (Elt F)) ]

/-- The last two dense layers: 11 operations, in order. -/
abbrev ropsH : List (HloOp τ sig (Elt F)) :=
  [ StableHlo.binary main_v96 main_arg11 main_v97 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg12 main_v98 (broadcastInDim S1x32 ![1] bcast_S32_S1x32_1 : (⟨S32, .f32⟩ : BufTy).Contents (Elt F) → (⟨S1x32, .f32⟩ : BufTy).Contents (Elt F)),
    StableHlo.unary main_v98 main_v99 (broadcastInDim S100000x32 ![0, 1] bcast_S1x32_S100000x32_0_1 : (⟨S1x32, .f32⟩ : BufTy).Contents (Elt F) → (⟨S100000x32, .f32⟩ : BufTy).Contents (Elt F)),
    StableHlo.binary main_v97 main_v99 main_v100 (addf : (⟨S100000x32, .f32⟩ : BufTy).Contents (Elt F) → (⟨S100000x32, .f32⟩ : BufTy).Contents (Elt F) → (⟨S100000x32, .f32⟩ : BufTy).Contents (Elt F)),
    StableHlo.TRef.nullary main_call5.cst (constant S_ .f32 0x00000000#32),
    StableHlo.TRef.unary main_call5.cst main_call5.v0 (broadcastInDim S100000x32 ![] bcast_S_S100000x32),
    StableHlo.TRef.binary (.of main_v100) main_call5.v0 main_call5.v1 maximumf,
    StableHlo.binary main_v101 main_arg13 main_v102 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg14 main_v103 (broadcastInDim S1x32 ![1] bcast_S32_S1x32_1 : (⟨S32, .f32⟩ : BufTy).Contents (Elt F) → (⟨S1x32, .f32⟩ : BufTy).Contents (Elt F)),
    StableHlo.unary main_v103 main_v104 (broadcastInDim S100000x32 ![0, 1] bcast_S1x32_S100000x32_0_1 : (⟨S1x32, .f32⟩ : BufTy).Contents (Elt F) → (⟨S100000x32, .f32⟩ : BufTy).Contents (Elt F)),
    StableHlo.binary main_v102 main_v104 main_v105 (addf : (⟨S100000x32, .f32⟩ : BufTy).Contents (Elt F) → (⟨S100000x32, .f32⟩ : BufTy).Contents (Elt F) → (⟨S100000x32, .f32⟩ : BufTy).Contents (Elt F)) ]

/-- The reference's @main: 159 operations. -/
abbrev rops : List (HloOp τ sig (Elt F)) :=
  ropsE ++ ropsL1 ++ ropsG1 ++ ropsL2 ++ ropsG2 ++ ropsL3 ++ ropsG3 ++ ropsL4 ++ ropsS ++ ropsH

end Cert.ReferenceIdeal.Hand

end
-- ==== Proof.RefRun.lean ====
import proofs.«401189_j18330920419815_1_alg».proof.Proof.RefOps
import proofs.«401189_j18330920419815_1_alg».proof.Proof.Spec

noncomputable section

namespace Cert.ReferenceIdeal.Hand

open Cert.ReferenceIdeal Idealize.ShloMosaic Idealize.ShloMosaic.TcCoe Idealize.SL.Sem Idealize.ShloMosaic.StableHlo Cert.Hand

variable {F : FTy → Type} [FloatOps F]

-- 159 binds re-associated: the rewriting under the chain recurses once per statement
set_option maxRecDepth 16384 in
set_option maxHeartbeats 4000000 in
/-- @main is the straight line of its operations, the called functions' bodies at their calls. -/
theorem main_eq (c : Dev nD) : main (F := F) c = seq rops := by
  simp only [main, main_part0, main_part1, main_part2, fn_relu.body, fn_relu_0.body, fn_relu_1.body, fn_var.body, fn_where.body,
    rops, ropsE, ropsL1, ropsG1, ropsL2, ropsG2, ropsL3, ropsG3, ropsL4, ropsS, ropsH, List.cons_append, List.nil_append,
    List.append_assoc, seq, bind_assoc, pure_bind]

/-- The signature scopes no TensorCore buffer. -/
theorem rrun_scopedRefs_eq : (Finset.univ.filter fun b : Ref sig .tc => b.isScoped) = ∅ := by decide
/-- The signature scopes no semaphore. -/
theorem rrun_scopedSems_eq : (Finset.univ.filter fun sm : SemLoc sig => sm.isScoped .tc) = ∅ := by decide

/-! ## Every operation touches TensorCore buffers only, and none allocates: chunk by chunk, in the operations' order -/

/-- The buffers of the edge list's rows are TensorCore buffers. -/
theorem rrun_ropsE_sub : (ropsE : List (HloOp τ sig (Elt F))).Forall fun op => op.bufs ⊆ tcRefs τ sig :=
  ⟨unary_bufs_sub .., reshape_bufs_sub .., unary_bufs_sub .., reshape_bufs_sub ..⟩
/-- No operation of the edge list's rows allocates a buffer. -/
theorem rrun_ropsE_fresh : (ropsE : List (HloOp τ sig (Elt F))).Forall fun op => op.fresh = ∅ := by
  simp only [List.Forall]; repeat' constructor

/-- The buffers of the first dense layer are TensorCore buffers. -/
theorem rrun_ropsL1_sub : (ropsL1 : List (HloOp τ sig (Elt F))).Forall fun op => op.bufs ⊆ tcRefs τ sig :=
  ⟨binary_bufs_sub .., unary_bufs_sub .., unary_bufs_sub .., binary_bufs_sub .., nullary_bufs_sub ..,
    unary_bufs_sub .., binary_bufs_sub ..⟩
/-- No operation of the first dense layer allocates a buffer. -/
theorem rrun_ropsL1_fresh : (ropsL1 : List (HloOp τ sig (Elt F))).Forall fun op => op.fresh = ∅ := by
  simp only [List.Forall]; repeat' constructor

/-- The buffers of the first aggregation are TensorCore buffers. -/
theorem rrun_ropsG1_sub : (ropsG1 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub .., unary_bufs_sub .., binary_bufs_sub ..⟩
/-- No operation of the first aggregation allocates a buffer. -/
theorem rrun_ropsG1_fresh : (ropsG1 : List (HloOp τ sig (Elt F))).Forall fun op => op.fresh = ∅ := by
  simp only [List.Forall]; repeat' constructor

/-- The buffers of the second dense layer are TensorCore buffers. -/
theorem rrun_ropsL2_sub : (ropsL2 : List (HloOp τ sig (Elt F))).Forall fun op => op.bufs ⊆ tcRefs τ sig :=
  ⟨binary_bufs_sub .., unary_bufs_sub .., unary_bufs_sub .., binary_bufs_sub .., nullary_bufs_sub ..,
    unary_bufs_sub .., binary_bufs_sub ..⟩
/-- No operation of the second dense layer allocates a buffer. -/
theorem rrun_ropsL2_fresh : (ropsL2 : List (HloOp τ sig (Elt F))).Forall fun op => op.fresh = ∅ := by
  simp only [List.Forall]; repeat' constructor

/-- The buffers of the second aggregation are TensorCore buffers. -/
theorem rrun_ropsG2_sub : (ropsG2 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub .., unary_bufs_sub .., binary_bufs_sub ..⟩
/-- No operation of the second aggregation allocates a buffer. -/
theorem rrun_ropsG2_fresh : (ropsG2 : List (HloOp τ sig (Elt F))).Forall fun op => op.fresh = ∅ := by
  simp only [List.Forall]; repeat' constructor

/-- The buffers of the third dense layer are TensorCore buffers. -/
theorem rrun_ropsL3_sub : (ropsL3 : List (HloOp τ sig (Elt F))).Forall fun op => op.bufs ⊆ tcRefs τ sig :=
  ⟨binary_bufs_sub .., unary_bufs_sub .., unary_bufs_sub .., binary_bufs_sub .., nullary_bufs_sub ..,
    unary_bufs_sub .., binary_bufs_sub ..⟩
/-- No operation of the third dense layer allocates a buffer. -/
theorem rrun_ropsL3_fresh : (ropsL3 : List (HloOp τ sig (Elt F))).Forall fun op => op.fresh = ∅ := by
  simp only [List.Forall]; repeat' constructor

/-- The buffers of the third aggregation are TensorCore buffers. -/
theorem rrun_ropsG3_sub : (ropsG3 : List (HloOp τ sig (Elt F))).Forall fun op => op.bufs ⊆ tcRefs τ sig :=
  ⟨nullary_bufs_sub .., unary_bufs_sub .., binary_bufs_sub .., nullary_bufs_sub .., unary_bufs_sub ..,
    binary_bufs_sub .., ternary_bufs_sub .., unary_bufs_sub .., binary_bufs_sub .., nullary_bufs_sub ..,
    unary_bufs_sub .., unary_bufs_sub .., ternary_bufs_sub .., nullary_bufs_sub .., unary_bufs_sub ..,
    nullary_bufs_sub .., unary_bufs_sub .., unary_bufs_sub .., ternary_bufs_sub .., nullary_bufs_sub ..,
    unary_bufs_sub .., binary_bufs_sub .., unary_bufs_sub .., binary_bufs_sub ..⟩
/-- No operation of the third aggregation allocates a buffer. -/
theorem rrun_ropsG3_fresh : (ropsG3 : List (HloOp τ sig (Elt F))).Forall fun op => op.fresh = ∅ := by
  simp only [List.Forall]; repeat' constructor

/-- The buffers of the fourth dense layer are TensorCore buffers. -/
theorem rrun_ropsL4_sub : (ropsL4 : List (HloOp τ sig (Elt F))).Forall fun op => op.bufs ⊆ tcRefs τ sig :=
  ⟨binary_bufs_sub .., unary_bufs_sub .., unary_bufs_sub .., binary_bufs_sub .., nullary_bufs_sub ..,
    unary_bufs_sub .., binary_bufs_sub ..⟩
/-- No operation of the fourth dense layer allocates a buffer. -/
theorem rrun_ropsL4_fresh : (ropsL4 : List (HloOp τ sig (Elt F))).Forall fun op => op.fresh = ∅ := by
  simp only [List.Forall]; repeat' constructor

/-- The buffers of the batch statistics and the normalisation are TensorCore buffers. -/
theorem rrun_ropsS_sub : (ropsS : List (HloOp τ sig (Elt F))).Forall fun op => op.bufs ⊆ tcRefs τ sig :=
  ⟨nullary_bufs_sub .., binary_bufs_sub .., nullary_bufs_sub .., unary_bufs_sub .., binary_bufs_sub ..,
    nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub .., unary_bufs_sub .., unary_bufs_sub ..,
    binary_bufs_sub .., nullary_bufs_sub .., unary_bufs_sub .., binary_bufs_sub .., unary_bufs_sub ..,
    unary_bufs_sub .., unary_bufs_sub .., binary_bufs_sub .., unary_bufs_sub .., unary_bufs_sub ..,
    binary_bufs_sub .., unary_bufs_sub .., unary_bufs_sub .., binary_bufs_sub ..⟩
/-- No operation of the batch statistics and the normalisation allocates a buffer. -/
theorem rrun_ropsS_fresh : (ropsS : List (HloOp τ sig (Elt F))).Forall fun op => op.fresh = ∅ := by
  simp only [List.Forall]; repeat' constructor

/-- The buffers of the last two dense layers are TensorCore buffers. -/
theorem rrun_ropsH_sub : (ropsH : List (HloOp τ sig (Elt F))).Forall fun op => op.bufs ⊆ tcRefs τ sig :=
  ⟨binary_bufs_sub .., unary_bufs_sub .., unary_bufs_sub .., binary_bufs_sub .., nullary_bufs_sub ..,
    unary_bufs_sub .., binary_bufs_sub .., binary_bufs_sub .., unary_bufs_sub .., unary_bufs_sub ..,
    binary_bufs_sub ..⟩
/-- No operation of the last two dense layers allocates a buffer. -/
theorem rrun_ropsH_fresh : (ropsH : List (HloOp τ sig (Elt F))).Forall fun op => op.fresh = ∅ := by
  simp only [List.Forall]; repeat' constructor

/-- Every operation of @main touches TensorCore buffers only: the chunks' facts over the concatenation. -/
theorem rrun_ops_sub : (rops : List (HloOp τ sig (Elt F))).Forall fun op => op.bufs ⊆ tcRefs τ sig :=
  List.forall_append.2 ⟨List.forall_append.2 ⟨List.forall_append.2 ⟨List.forall_append.2 ⟨List.forall_append.2 ⟨
    List.forall_append.2 ⟨List.forall_append.2 ⟨List.forall_append.2 ⟨List.forall_append.2 ⟨rrun_ropsE_sub, rrun_ropsL1_sub⟩, rrun_ropsG1_sub⟩, rrun_ropsL2_sub⟩, rrun_ropsG2_sub⟩,
    rrun_ropsL3_sub⟩, rrun_ropsG3_sub⟩, rrun_ropsL4_sub⟩, rrun_ropsS_sub⟩, rrun_ropsH_sub⟩

/-- No operation of @main allocates a buffer. -/
theorem rrun_ops_fresh : (rops : List (HloOp τ sig (Elt F))).Forall fun op => op.fresh = ∅ :=
  List.forall_append.2 ⟨List.forall_append.2 ⟨List.forall_append.2 ⟨List.forall_append.2 ⟨List.forall_append.2 ⟨
    List.forall_append.2 ⟨List.forall_append.2 ⟨List.forall_append.2 ⟨List.forall_append.2 ⟨rrun_ropsE_fresh, rrun_ropsL1_fresh⟩, rrun_ropsG1_fresh⟩, rrun_ropsL2_fresh⟩, rrun_ropsG2_fresh⟩,
    rrun_ropsL3_fresh⟩, rrun_ropsG3_fresh⟩, rrun_ropsL4_fresh⟩, rrun_ropsS_fresh⟩, rrun_ropsH_fresh⟩

/-- Every weakly fair execution of the reference terminates, nothing faulting, with every buffer at the operations'
    fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after rops (launchContents m c) (b : DevRef τ sig) := by
  exact run_seq rrun_scopedRefs_eq rrun_scopedSems_eq defs main (fun _ => rops) main_eq (fun _ => rrun_ops_sub) m ρ
    (fun _ => List.forall_iff_forall_mem.mp rrun_ops_fresh)

end Cert.ReferenceIdeal.Hand

end
-- ==== Proof.RefValue.lean ====
import proofs.«401189_j18330920419815_1_alg».proof.Proof.RefOps
import proofs.«401189_j18330920419815_1_alg».proof.Proof.Spec

noncomputable section

namespace Cert.ReferenceIdeal.Hand

open Cert.ReferenceIdeal Idealize.ShloMosaic Idealize.ShloMosaic.TcCoe Idealize.SL.Sem Idealize.ShloMosaic.StableHlo Cert.Hand

variable {F : FTy → Type} [FloatOps F]

/-- Running two lists of operations one after the other is running their concatenation. -/
theorem rval_after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A one-element set of buffers lies inside the buffers of a list of references that has the element. -/
theorem rval_sub1 {L : List (Ref sig .tc)} {y : Ref sig .tc} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-! ## What each layer writes, and that it leaves every other buffer alone -/

/-- The buffers written by this group of operations, in order. -/
abbrev rval_wE : List (Ref sig .tc) :=
  [main_v0, main_v1, main_v2, main_v3]

/-- A buffer outside that list keeps its contents through the group. -/
theorem rval_keepE (W : Valuation τ sig (Elt F)) {r : Ref sig .tc} (hr : r ∉ rval_wE) :
    after ropsE W (Proc.devRef .tc r) = W (Proc.devRef .tc r) :=
  after_of_writes_sub _ W
    ⟨rval_sub1 (by decide), rval_sub1 (by decide), rval_sub1 (by decide), rval_sub1 (by decide)⟩ hr

/-- The buffers written by this group of operations, in order. -/
abbrev rval_wL1 : List (Ref sig .tc) :=
  [main_v4, main_v5, main_v6, main_v7, (main_call0.cst).ref, (main_call0.v0).ref, (main_call0.v1).ref]

/-- A buffer outside that list keeps its contents through the group. -/
theorem rval_keepL1 (W : Valuation τ sig (Elt F)) {r : Ref sig .tc} (hr : r ∉ rval_wL1) :
    after ropsL1 W (Proc.devRef .tc r) = W (Proc.devRef .tc r) :=
  after_of_writes_sub _ W
    ⟨rval_sub1 (by decide), rval_sub1 (by decide), rval_sub1 (by decide), rval_sub1 (by decide), rval_sub1 (by decide), rval_sub1 (by decide), rval_sub1 (by decide)⟩ hr

/-- The buffers written by this group of operations, in order. -/
abbrev rval_wG1 : List (Ref sig .tc) :=
  [main_c, main_v9, main_v10, main_c_0, main_v11, main_v12, main_v13, main_v14, main_v15, main_cst, main_v16, main_v17, main_v18, main_cst_1, main_v19, main_cst_2, main_v20, main_v21, main_v22, main_cst_3, main_v23, main_v24, main_v25, main_v26]

/-- A buffer outside that list keeps its contents through the group. -/
theorem rval_keepG1 (W : Valuation τ sig (Elt F)) {r : Ref sig .tc} (hr : r ∉ rval_wG1) :
    after ropsG1 W (Proc.devRef .tc r) = W (Proc.devRef .tc r) :=
  after_of_writes_sub _ W
    ⟨rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide)⟩ hr

/-- The buffers written by this group of operations, in order. -/
abbrev rval_wL2 : List (Ref sig .tc) :=
  [main_v27, main_v28, main_v29, main_v30, (main_call1.cst).ref, (main_call1.v0).ref, (main_call1.v1).ref]

/-- A buffer outside that list keeps its contents through the group. -/
theorem rval_keepL2 (W : Valuation τ sig (Elt F)) {r : Ref sig .tc} (hr : r ∉ rval_wL2) :
    after ropsL2 W (Proc.devRef .tc r) = W (Proc.devRef .tc r) :=
  after_of_writes_sub _ W
    ⟨rval_sub1 (by decide), rval_sub1 (by decide), rval_sub1 (by decide), rval_sub1 (by decide), rval_sub1 (by decide), rval_sub1 (by decide), rval_sub1 (by decide)⟩ hr

/-- The buffers written by this group of operations, in order. -/
abbrev rval_wG2 : List (Ref sig .tc) :=
  [main_c_4, main_v32, main_v33, main_c_5, main_v34, main_v35, main_v36, main_v37, main_v38, main_cst_6, main_v39, main_v40, main_v41, main_cst_7, main_v42, main_cst_8, main_v43, main_v44, main_v45, main_cst_9, main_v46, main_v47, main_v48, main_v49]

/-- A buffer outside that list keeps its contents through the group. -/
theorem rval_keepG2 (W : Valuation τ sig (Elt F)) {r : Ref sig .tc} (hr : r ∉ rval_wG2) :
    after ropsG2 W (Proc.devRef .tc r) = W (Proc.devRef .tc r) :=
  after_of_writes_sub _ W
    ⟨rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide)⟩ hr

/-- The buffers written by this group of operations, in order. -/
abbrev rval_wL3 : List (Ref sig .tc) :=
  [main_v50, main_v51, main_v52, main_v53, (main_call2.cst).ref, (main_call2.v0).ref, (main_call2.v1).ref]

/-- A buffer outside that list keeps its contents through the group. -/
theorem rval_keepL3 (W : Valuation τ sig (Elt F)) {r : Ref sig .tc} (hr : r ∉ rval_wL3) :
    after ropsL3 W (Proc.devRef .tc r) = W (Proc.devRef .tc r) :=
  after_of_writes_sub _ W
    ⟨rval_sub1 (by decide), rval_sub1 (by decide), rval_sub1 (by decide), rval_sub1 (by decide), rval_sub1 (by decide), rval_sub1 (by decide), rval_sub1 (by decide)⟩ hr

/-- The buffers written by this group of operations, in order. -/
abbrev rval_wG3 : List (Ref sig .tc) :=
  [main_c_10, main_v55, main_v56, main_c_11, main_v57, main_v58, main_v59, main_v60, main_v61, main_cst_12, main_v62, main_v63, main_v64, main_cst_13, main_v65, main_cst_14, main_v66, main_v67, main_v68, main_cst_15, main_v69, main_v70, main_v71, main_v72]

/-- A buffer outside that list keeps its contents through the group. -/
theorem rval_keepG3 (W : Valuation τ sig (Elt F)) {r : Ref sig .tc} (hr : r ∉ rval_wG3) :
    after ropsG3 W (Proc.devRef .tc r) = W (Proc.devRef .tc r) :=
  after_of_writes_sub _ W
    ⟨rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide)⟩ hr

/-- The buffers written by this group of operations, in order. -/
abbrev rval_wL4 : List (Ref sig .tc) :=
  [main_v73, main_v74, main_v75, main_v76, (main_call3.cst).ref, (main_call3.v0).ref, (main_call3.v1).ref]

/-- A buffer outside that list keeps its contents through the group. -/
theorem rval_keepL4 (W : Valuation τ sig (Elt F)) {r : Ref sig .tc} (hr : r ∉ rval_wL4) :
    after ropsL4 W (Proc.devRef .tc r) = W (Proc.devRef .tc r) :=
  after_of_writes_sub _ W
    ⟨rval_sub1 (by decide), rval_sub1 (by decide), rval_sub1 (by decide), rval_sub1 (by decide), rval_sub1 (by decide), rval_sub1 (by decide), rval_sub1 (by decide)⟩ hr

/-- The buffers written by this group of operations, in order. -/
abbrev rval_wS : List (Ref sig .tc) :=
  [main_cst_16, main_v78, main_cst_17, main_v79, main_v80, main_c_18, (main_call4.cst).ref, (main_call4.v0).ref, (main_call4.v1).ref, (main_call4.cst_0).ref, (main_call4.v2).ref, (main_call4.v3).ref, (main_call4.v4).ref, (main_call4.v5).ref, (main_call4.v6).ref, (main_call4.v7).ref, (main_call4.cst_1).ref, (main_call4.v8).ref, (main_call4.cst_2).ref, (main_call4.v9).ref, (main_call4.v10).ref, (main_call4.v11).ref, (main_call4.cst_3).ref, (main_call4.v12).ref, (main_call4.cst_4).ref, (main_call4.call0.v0).ref, (main_call4.call0.v1).ref, (main_call4.call0.v2).ref, main_v82, main_v83, main_v84, main_cst_19, main_v85, main_v86, main_v87, main_v88, main_v89, main_v90, main_v91, main_v92, main_v93, main_v94, main_v95, main_v96]

/-- A buffer outside that list keeps its contents through the group. -/
theorem rval_keepS (W : Valuation τ sig (Elt F)) {r : Ref sig .tc} (hr : r ∉ rval_wS) :
    after ropsS W (Proc.devRef .tc r) = W (Proc.devRef .tc r) :=
  after_of_writes_sub _ W
    ⟨rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide)⟩ hr

/-- The buffers written by this group of operations, in order. -/
abbrev rval_wH : List (Ref sig .tc) :=
  [main_v97, main_v98, main_v99, main_v100, (main_call5.cst).ref, (main_call5.v0).ref, (main_call5.v1).ref, main_v102, main_v103, main_v104, main_v105]

/-- A buffer outside that list keeps its contents through the group. -/
theorem rval_keepH (W : Valuation τ sig (Elt F)) {r : Ref sig .tc} (hr : r ∉ rval_wH) :
    after ropsH W (Proc.devRef .tc r) = W (Proc.devRef .tc r) :=
  after_of_writes_sub _ W
    ⟨rval_sub1 (by decide), rval_sub1 (by decide), rval_sub1 (by decide), rval_sub1 (by decide), rval_sub1 (by decide), rval_sub1 (by decide), rval_sub1 (by decide), rval_sub1 (by decide), rval_sub1 (by decide), rval_sub1 (by decide), rval_sub1 (by decide)⟩ hr

/-! ## What each layer computes, from any starting contents -/

attribute [local irreducible] Host.gather Host.scatterAdd Host.reduceAdd Host.divf Host.rsqrt

/-- The first row of the edge list. -/
theorem rval_valE1 (W : Valuation τ sig (Elt F)) :
    after ropsE W (main_v1 : DevRef τ sig) = srcOf (W (main_arg15 : DevRef τ sig)) := by
  after_results
  rfl

/-- The second row of the edge list. -/
theorem rval_valE3 (W : Valuation τ sig (Elt F)) :
    after ropsE W (main_v3 : DevRef τ sig) = dstOf (W (main_arg15 : DevRef τ sig)) := by
  after_results
  rfl

/-- The group's result as the specification's function of the buffers it reads. -/
theorem rval_valL1 (W : Valuation τ sig (Elt F)) :
    after ropsL1 W (main_v8 : DevRef τ sig) = lin1 (W (main_arg0 : DevRef τ sig)) (W (main_arg1 : DevRef τ sig)) (W (main_arg2 : DevRef τ sig)) := by
  after_results
  rfl

set_option maxHeartbeats 1000000 in
/-- The group's result as the specification's function of the buffers it reads. -/
theorem rval_valG1 (W : Valuation τ sig (Elt F)) :
    after ropsG1 W (main_v26 : DevRef τ sig) = agg128 (W (main_v8 : DevRef τ sig)) (W (main_v1 : DevRef τ sig)) (W (main_v3 : DevRef τ sig)) := by
  after_results_simp
  rfl

/-- The group's result as the specification's function of the buffers it reads. -/
theorem rval_valL2 (W : Valuation τ sig (Elt F)) :
    after ropsL2 W (main_v31 : DevRef τ sig) = lin2 (W (main_v26 : DevRef τ sig)) (W (main_arg3 : DevRef τ sig)) (W (main_arg4 : DevRef τ sig)) := by
  after_results
  rfl

set_option maxHeartbeats 1000000 in
/-- The group's result as the specification's function of the buffers it reads. -/
theorem rval_valG2 (W : Valuation τ sig (Elt F)) :
    after ropsG2 W (main_v49 : DevRef τ sig) = agg64 (W (main_v31 : DevRef τ sig)) (W (main_v1 : DevRef τ sig)) (W (main_v3 : DevRef τ sig)) := by
  after_results_simp
  rfl

/-- The group's result as the specification's function of the buffers it reads. -/
theorem rval_valL3 (W : Valuation τ sig (Elt F)) :
    after ropsL3 W (main_v54 : DevRef τ sig) = lin3 (W (main_v49 : DevRef τ sig)) (W (main_arg5 : DevRef τ sig)) (W (main_arg6 : DevRef τ sig)) := by
  after_results
  rfl

set_option maxHeartbeats 1000000 in
/-- The group's result as the specification's function of the buffers it reads. -/
theorem rval_valG3 (W : Valuation τ sig (Elt F)) :
    after ropsG3 W (main_v72 : DevRef τ sig) = agg64 (W (main_v54 : DevRef τ sig)) (W (main_v1 : DevRef τ sig)) (W (main_v3 : DevRef τ sig)) := by
  after_results_simp
  rfl

/-- The group's result as the specification's function of the buffers it reads. -/
theorem rval_valL4 (W : Valuation τ sig (Elt F)) :
    after ropsL4 W (main_v77 : DevRef τ sig) = lin3 (W (main_v72 : DevRef τ sig)) (W (main_arg7 : DevRef τ sig)) (W (main_arg8 : DevRef τ sig)) := by
  after_results
  rfl

set_option maxHeartbeats 1000000 in
/-- The group's result as the specification's function of the buffers it reads. -/
theorem rval_valS (W : Valuation τ sig (Elt F)) :
    after ropsS W (main_v96 : DevRef τ sig) = bnRef (W (main_v77 : DevRef τ sig)) (W (main_arg9 : DevRef τ sig)) (W (main_arg10 : DevRef τ sig)) := by
  after_results_simp
  rfl

/-- The group's result as the specification's function of the buffers it reads. -/
theorem rval_valH (W : Valuation τ sig (Elt F)) :
    after ropsH W (main_v105 : DevRef τ sig) = headRef (W (main_v96 : DevRef τ sig)) (W (main_arg11 : DevRef τ sig)) (W (main_arg12 : DevRef τ sig)) (W (main_arg13 : DevRef τ sig)) (W (main_arg14 : DevRef τ sig)) := by
  after_results
  rfl

/-! ## The layers chained -/

/-- Two groups run in turn leave alone every buffer that neither writes. -/
theorem rval_keep_append {l₁ l₂ : List (HloOp τ sig (Elt F))} {w₁ w₂ : List (Ref sig .tc)}
    (h₁ : ∀ (W : Valuation τ sig (Elt F)) {r : Ref sig .tc}, r ∉ w₁ → after l₁ W (Proc.devRef .tc r) = W (Proc.devRef .tc r))
    (h₂ : ∀ (W : Valuation τ sig (Elt F)) {r : Ref sig .tc}, r ∉ w₂ → after l₂ W (Proc.devRef .tc r) = W (Proc.devRef .tc r))
    (V : Valuation τ sig (Elt F)) {r : Ref sig .tc} (hr : r ∉ w₁ ++ w₂) :
    after (l₁ ++ l₂) V (Proc.devRef .tc r) = V (Proc.devRef .tc r) := by
  rw [rval_after_append, h₂ _ (fun h => hr (List.mem_append_right _ h)), h₁ _ (fun h => hr (List.mem_append_left _ h))]

/-- The operations up to and including each group, and the buffers they write. -/
abbrev rval_P1 : List (HloOp τ sig (Elt F)) := ropsE
abbrev rval_u1 : List (Ref sig .tc) := rval_wE
abbrev rval_P2 : List (HloOp τ sig (Elt F)) := rval_P1 ++ ropsL1
abbrev rval_u2 : List (Ref sig .tc) := rval_u1 ++ rval_wL1
abbrev rval_P3 : List (HloOp τ sig (Elt F)) := rval_P2 ++ ropsG1
abbrev rval_u3 : List (Ref sig .tc) := rval_u2 ++ rval_wG1
abbrev rval_P4 : List (HloOp τ sig (Elt F)) := rval_P3 ++ ropsL2
abbrev rval_u4 : List (Ref sig .tc) := rval_u3 ++ rval_wL2
abbrev rval_P5 : List (HloOp τ sig (Elt F)) := rval_P4 ++ ropsG2
abbrev rval_u5 : List (Ref sig .tc) := rval_u4 ++ rval_wG2
abbrev rval_P6 : List (HloOp τ sig (Elt F)) := rval_P5 ++ ropsL3
abbrev rval_u6 : List (Ref sig .tc) := rval_u5 ++ rval_wL3
abbrev rval_P7 : List (HloOp τ sig (Elt F)) := rval_P6 ++ ropsG3
abbrev rval_u7 : List (Ref sig .tc) := rval_u6 ++ rval_wG3
abbrev rval_P8 : List (HloOp τ sig (Elt F)) := rval_P7 ++ ropsL4
abbrev rval_u8 : List (Ref sig .tc) := rval_u7 ++ rval_wL4
abbrev rval_P9 : List (HloOp τ sig (Elt F)) := rval_P8 ++ ropsS
abbrev rval_u9 : List (Ref sig .tc) := rval_u8 ++ rval_wS
abbrev rval_P10 : List (HloOp τ sig (Elt F)) := rval_P9 ++ ropsH
abbrev rval_u10 : List (Ref sig .tc) := rval_u9 ++ rval_wH

theorem rval_keepP1 (V : Valuation τ sig (Elt F)) {r : Ref sig .tc} (hr : r ∉ rval_u1) :
    after rval_P1 V (Proc.devRef .tc r) = V (Proc.devRef .tc r) := rval_keepE V hr
theorem rval_keepP2 (V : Valuation τ sig (Elt F)) {r : Ref sig .tc} (hr : r ∉ rval_u2) :
    after rval_P2 V (Proc.devRef .tc r) = V (Proc.devRef .tc r) :=
  rval_keep_append (fun W _ h => rval_keepP1 W h) (fun W _ h => rval_keepL1 W h) V hr
theorem rval_keepP3 (V : Valuation τ sig (Elt F)) {r : Ref sig .tc} (hr : r ∉ rval_u3) :
    after rval_P3 V (Proc.devRef .tc r) = V (Proc.devRef .tc r) :=
  rval_keep_append (fun W _ h => rval_keepP2 W h) (fun W _ h => rval_keepG1 W h) V hr
theorem rval_keepP4 (V : Valuation τ sig (Elt F)) {r : Ref sig .tc} (hr : r ∉ rval_u4) :
    after rval_P4 V (Proc.devRef .tc r) = V (Proc.devRef .tc r) :=
  rval_keep_append (fun W _ h => rval_keepP3 W h) (fun W _ h => rval_keepL2 W h) V hr
theorem rval_keepP5 (V : Valuation τ sig (Elt F)) {r : Ref sig .tc} (hr : r ∉ rval_u5) :
    after rval_P5 V (Proc.devRef .tc r) = V (Proc.devRef .tc r) :=
  rval_keep_append (fun W _ h => rval_keepP4 W h) (fun W _ h => rval_keepG2 W h) V hr
theorem rval_keepP6 (V : Valuation τ sig (Elt F)) {r : Ref sig .tc} (hr : r ∉ rval_u6) :
    after rval_P6 V (Proc.devRef .tc r) = V (Proc.devRef .tc r) :=
  rval_keep_append (fun W _ h => rval_keepP5 W h) (fun W _ h => rval_keepL3 W h) V hr
theorem rval_keepP7 (V : Valuation τ sig (Elt F)) {r : Ref sig .tc} (hr : r ∉ rval_u7) :
    after rval_P7 V (Proc.devRef .tc r) = V (Proc.devRef .tc r) :=
  rval_keep_append (fun W _ h => rval_keepP6 W h) (fun W _ h => rval_keepG3 W h) V hr
theorem rval_keepP8 (V : Valuation τ sig (Elt F)) {r : Ref sig .tc} (hr : r ∉ rval_u8) :
    after rval_P8 V (Proc.devRef .tc r) = V (Proc.devRef .tc r) :=
  rval_keep_append (fun W _ h => rval_keepP7 W h) (fun W _ h => rval_keepL4 W h) V hr
theorem rval_keepP9 (V : Valuation τ sig (Elt F)) {r : Ref sig .tc} (hr : r ∉ rval_u9) :
    after rval_P9 V (Proc.devRef .tc r) = V (Proc.devRef .tc r) :=
  rval_keep_append (fun W _ h => rval_keepP8 W h) (fun W _ h => rval_keepS W h) V hr
theorem rval_keepP10 (V : Valuation τ sig (Elt F)) {r : Ref sig .tc} (hr : r ∉ rval_u10) :
    after rval_P10 V (Proc.devRef .tc r) = V (Proc.devRef .tc r) :=
  rval_keep_append (fun W _ h => rval_keepP9 W h) (fun W _ h => rval_keepH W h) V hr

/-- The edge rows and the successive activations, as functions of the starting contents. -/
abbrev rval_s (V : Valuation τ sig (Elt F)) := srcOf (V (main_arg15 : DevRef τ sig))
abbrev rval_d (V : Valuation τ sig (Elt F)) := dstOf (V (main_arg15 : DevRef τ sig))
abbrev rval_t2 (V : Valuation τ sig (Elt F)) := lin1 (V (main_arg0 : DevRef τ sig)) (V (main_arg1 : DevRef τ sig)) (V (main_arg2 : DevRef τ sig))
abbrev rval_t3 (V : Valuation τ sig (Elt F)) := agg128 (rval_t2 V) (rval_s V) (rval_d V)
abbrev rval_t4 (V : Valuation τ sig (Elt F)) := lin2 (rval_t3 V) (V (main_arg3 : DevRef τ sig)) (V (main_arg4 : DevRef τ sig))
abbrev rval_t5 (V : Valuation τ sig (Elt F)) := agg64 (rval_t4 V) (rval_s V) (rval_d V)
abbrev rval_t6 (V : Valuation τ sig (Elt F)) := lin3 (rval_t5 V) (V (main_arg5 : DevRef τ sig)) (V (main_arg6 : DevRef τ sig))
abbrev rval_t7 (V : Valuation τ sig (Elt F)) := agg64 (rval_t6 V) (rval_s V) (rval_d V)
abbrev rval_t8 (V : Valuation τ sig (Elt F)) := lin3 (rval_t7 V) (V (main_arg7 : DevRef τ sig)) (V (main_arg8 : DevRef τ sig))
abbrev rval_t9 (V : Valuation τ sig (Elt F)) := bnRef (rval_t8 V) (V (main_arg9 : DevRef τ sig)) (V (main_arg10 : DevRef τ sig))
abbrev rval_t10 (V : Valuation τ sig (Elt F)) := headRef (rval_t9 V) (V (main_arg11 : DevRef τ sig)) (V (main_arg12 : DevRef τ sig)) (V (main_arg13 : DevRef τ sig)) (V (main_arg14 : DevRef τ sig))

theorem rval_srcP1 (V : Valuation τ sig (Elt F)) : after rval_P1 V (main_v1 : DevRef τ sig) = rval_s V := rval_valE1 V
theorem rval_dstP1 (V : Valuation τ sig (Elt F)) : after rval_P1 V (main_v3 : DevRef τ sig) = rval_d V := rval_valE3 V
theorem rval_srcP2 (V : Valuation τ sig (Elt F)) : after rval_P2 V (main_v1 : DevRef τ sig) = rval_s V := by
  rw [rval_after_append, rval_keepL1 _ (r := main_v1) (by decide), rval_srcP1]
theorem rval_dstP2 (V : Valuation τ sig (Elt F)) : after rval_P2 V (main_v3 : DevRef τ sig) = rval_d V := by
  rw [rval_after_append, rval_keepL1 _ (r := main_v3) (by decide), rval_dstP1]
theorem rval_srcP3 (V : Valuation τ sig (Elt F)) : after rval_P3 V (main_v1 : DevRef τ sig) = rval_s V := by
  rw [rval_after_append, rval_keepG1 _ (r := main_v1) (by decide), rval_srcP2]
theorem rval_dstP3 (V : Valuation τ sig (Elt F)) : after rval_P3 V (main_v3 : DevRef τ sig) = rval_d V := by
  rw [rval_after_append, rval_keepG1 _ (r := main_v3) (by decide), rval_dstP2]
theorem rval_srcP4 (V : Valuation τ sig (Elt F)) : after rval_P4 V (main_v1 : DevRef τ sig) = rval_s V := by
  rw [rval_after_append, rval_keepL2 _ (r := main_v1) (by decide), rval_srcP3]
theorem rval_dstP4 (V : Valuation τ sig (Elt F)) : after rval_P4 V (main_v3 : DevRef τ sig) = rval_d V := by
  rw [rval_after_append, rval_keepL2 _ (r := main_v3) (by decide), rval_dstP3]
theorem rval_srcP5 (V : Valuation τ sig (Elt F)) : after rval_P5 V (main_v1 : DevRef τ sig) = rval_s V := by
  rw [rval_after_append, rval_keepG2 _ (r := main_v1) (by decide), rval_srcP4]
theorem rval_dstP5 (V : Valuation τ sig (Elt F)) : after rval_P5 V (main_v3 : DevRef τ sig) = rval_d V := by
  rw [rval_after_append, rval_keepG2 _ (r := main_v3) (by decide), rval_dstP4]
theorem rval_srcP6 (V : Valuation τ sig (Elt F)) : after rval_P6 V (main_v1 : DevRef τ sig) = rval_s V := by
  rw [rval_after_append, rval_keepL3 _ (r := main_v1) (by decide), rval_srcP5]
theorem rval_dstP6 (V : Valuation τ sig (Elt F)) : after rval_P6 V (main_v3 : DevRef τ sig) = rval_d V := by
  rw [rval_after_append, rval_keepL3 _ (r := main_v3) (by decide), rval_dstP5]
theorem rval_valP2 (V : Valuation τ sig (Elt F)) : after rval_P2 V (main_v8 : DevRef τ sig) = rval_t2 V := by
  rw [rval_after_append,
    rval_valL1,
    rval_keepP1 _ (r := main_arg0) (by decide),
    rval_keepP1 _ (r := main_arg1) (by decide),
    rval_keepP1 _ (r := main_arg2) (by decide)]
theorem rval_valP3 (V : Valuation τ sig (Elt F)) : after rval_P3 V (main_v26 : DevRef τ sig) = rval_t3 V := by
  rw [rval_after_append,
    rval_valG1,
    rval_valP2,
    rval_srcP2,
    rval_dstP2]
theorem rval_valP4 (V : Valuation τ sig (Elt F)) : after rval_P4 V (main_v31 : DevRef τ sig) = rval_t4 V := by
  rw [rval_after_append,
    rval_valL2,
    rval_valP3,
    rval_keepP3 _ (r := main_arg3) (by decide),
    rval_keepP3 _ (r := main_arg4) (by decide)]
theorem rval_valP5 (V : Valuation τ sig (Elt F)) : after rval_P5 V (main_v49 : DevRef τ sig) = rval_t5 V := by
  rw [rval_after_append,
    rval_valG2,
    rval_valP4,
    rval_srcP4,
    rval_dstP4]
theorem rval_valP6 (V : Valuation τ sig (Elt F)) : after rval_P6 V (main_v54 : DevRef τ sig) = rval_t6 V := by
  rw [rval_after_append,
    rval_valL3,
    rval_valP5,
    rval_keepP5 _ (r := main_arg5) (by decide),
    rval_keepP5 _ (r := main_arg6) (by decide)]
theorem rval_valP7 (V : Valuation τ sig (Elt F)) : after rval_P7 V (main_v72 : DevRef τ sig) = rval_t7 V := by
  rw [rval_after_append,
    rval_valG3,
    rval_valP6,
    rval_srcP6,
    rval_dstP6]
theorem rval_valP8 (V : Valuation τ sig (Elt F)) : after rval_P8 V (main_v77 : DevRef τ sig) = rval_t8 V := by
  rw [rval_after_append,
    rval_valL4,
    rval_valP7,
    rval_keepP7 _ (r := main_arg7) (by decide),
    rval_keepP7 _ (r := main_arg8) (by decide)]
theorem rval_valP9 (V : Valuation τ sig (Elt F)) : after rval_P9 V (main_v96 : DevRef τ sig) = rval_t9 V := by
  rw [rval_after_append,
    rval_valS,
    rval_valP8,
    rval_keepP8 _ (r := main_arg9) (by decide),
    rval_keepP8 _ (r := main_arg10) (by decide)]
theorem rval_valP10 (V : Valuation τ sig (Elt F)) : after rval_P10 V (main_v105 : DevRef τ sig) = rval_t10 V := by
  rw [rval_after_append,
    rval_valH,
    rval_valP9,
    rval_keepP9 _ (r := main_arg11) (by decide),
    rval_keepP9 _ (r := main_arg12) (by decide),
    rval_keepP9 _ (r := main_arg13) (by decide),
    rval_keepP9 _ (r := main_arg14) (by decide)]

/-- The fold at the result buffer is the reference's function of the argument arrays. -/
theorem rops_out (V : Valuation τ sig (Elt F)) :
    after rops V (main_v105 : DevRef τ sig)
      = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) := by
  exact rval_valP10 V

/-- No operation writes argument 0. -/
theorem rops_arg0 (V : Valuation τ sig (Elt F)) : after rops V (main_arg0 : DevRef τ sig) = V (main_arg0 : DevRef τ sig) := by
  exact rval_keepP10 V (by decide)

/-- No operation writes argument 1. -/
theorem rops_arg1 (V : Valuation τ sig (Elt F)) : after rops V (main_arg1 : DevRef τ sig) = V (main_arg1 : DevRef τ sig) := by
  exact rval_keepP10 V (by decide)

/-- No operation writes argument 2. -/
theorem rops_arg2 (V : Valuation τ sig (Elt F)) : after rops V (main_arg2 : DevRef τ sig) = V (main_arg2 : DevRef τ sig) := by
  exact rval_keepP10 V (by decide)

/-- No operation writes argument 3. -/
theorem rops_arg3 (V : Valuation τ sig (Elt F)) : after rops V (main_arg3 : DevRef τ sig) = V (main_arg3 : DevRef τ sig) := by
  exact rval_keepP10 V (by decide)

/-- No operation writes argument 4. -/
theorem rops_arg4 (V : Valuation τ sig (Elt F)) : after rops V (main_arg4 : DevRef τ sig) = V (main_arg4 : DevRef τ sig) := by
  exact rval_keepP10 V (by decide)

/-- No operation writes argument 5. -/
theorem rops_arg5 (V : Valuation τ sig (Elt F)) : after rops V (main_arg5 : DevRef τ sig) = V (main_arg5 : DevRef τ sig) := by
  exact rval_keepP10 V (by decide)

/-- No operation writes argument 6. -/
theorem rops_arg6 (V : Valuation τ sig (Elt F)) : after rops V (main_arg6 : DevRef τ sig) = V (main_arg6 : DevRef τ sig) := by
  exact rval_keepP10 V (by decide)

/-- No operation writes argument 7. -/
theorem rops_arg7 (V : Valuation τ sig (Elt F)) : after rops V (main_arg7 : DevRef τ sig) = V (main_arg7 : DevRef τ sig) := by
  exact rval_keepP10 V (by decide)

/-- No operation writes argument 8. -/
theorem rops_arg8 (V : Valuation τ sig (Elt F)) : after rops V (main_arg8 : DevRef τ sig) = V (main_arg8 : DevRef τ sig) := by
  exact rval_keepP10 V (by decide)

/-- No operation writes argument 9. -/
theorem rops_arg9 (V : Valuation τ sig (Elt F)) : after rops V (main_arg9 : DevRef τ sig) = V (main_arg9 : DevRef τ sig) := by
  exact rval_keepP10 V (by decide)

/-- No operation writes argument 10. -/
theorem rops_arg10 (V : Valuation τ sig (Elt F)) : after rops V (main_arg10 : DevRef τ sig) = V (main_arg10 : DevRef τ sig) := by
  exact rval_keepP10 V (by decide)

/-- No operation writes argument 11. -/
theorem rops_arg11 (V : Valuation τ sig (Elt F)) : after rops V (main_arg11 : DevRef τ sig) = V (main_arg11 : DevRef τ sig) := by
  exact rval_keepP10 V (by decide)

/-- No operation writes argument 12. -/
theorem rops_arg12 (V : Valuation τ sig (Elt F)) : after rops V (main_arg12 : DevRef τ sig) = V (main_arg12 : DevRef τ sig) := by
  exact rval_keepP10 V (by decide)

/-- No operation writes argument 13. -/
theorem rops_arg13 (V : Valuation τ sig (Elt F)) : after rops V (main_arg13 : DevRef τ sig) = V (main_arg13 : DevRef τ sig) := by
  exact rval_keepP10 V (by decide)

/-- No operation writes argument 14. -/
theorem rops_arg14 (V : Valuation τ sig (Elt F)) : after rops V (main_arg14 : DevRef τ sig) = V (main_arg14 : DevRef τ sig) := by
  exact rval_keepP10 V (by decide)

/-- No operation writes argument 15. -/
theorem rops_arg15 (V : Valuation τ sig (Elt F)) : after rops V (main_arg15 : DevRef τ sig) = V (main_arg15 : DevRef τ sig) := by
  exact rval_keepP10 V (by decide)

end Cert.ReferenceIdeal.Hand

end
-- ==== Proof.BridgeLin.lean ====
import proofs.«401189_j18330920419815_1_alg».proof.Proof.Spec
import Idealize.ShloMosaic.PureOps.Ideal.Laws

noncomputable section

open scoped BigOperators

namespace Cert.Hand

open Idealize.ShloMosaic Idealize.ShloMosaic.ValueIdx Cert.ReferenceIdeal Cert.ReferenceIdeal.Facts₀

variable [Cert.ReferenceIdeal.Facts]

/-! ## A rows-by-columns product read at an index

The dimension numbers of an ordinary matrix product [100000, K] · [K, D]: the left factor contracts its columns,
the right factor its rows, nothing is batched. For such numbers the left factor is read at (row of the result,
contraction position) and the right factor at (contraction position, column of the result). -/

section Dot
variable {K D : Nat} (d : DotDims ⟨2, ![100000, K]⟩ ⟨2, ![K, D]⟩ ⟨2, ![100000, D]⟩)
  (hlc : d.lhsContracting = [1]) (hrc : d.rhsContracting = [0]) (hln : d.lhsNonContracting = [0])
  (hrn : d.rhsNonContracting = [1]) (hlb : d.lhsBatch = []) (hrb : d.rhsBatch = [])
include hlc hrc hln hrn hlb hrb

/-- The contraction runs over one axis … -/
theorem blin_plain_contr_rank : d.contr.rank = 1 := by
  obtain ⟨lc, rc, ln, rn, lb, rb, wf⟩ := d
  subst hlc hrc hln hrn hlb hrb
  rfl

/-- … of extent K. -/
theorem blin_plain_contr_size (h0 : 0 < d.contr.rank) : d.contr.size ⟨0, h0⟩ = K := by
  obtain ⟨lc, rc, ln, rn, lb, rb, wf⟩ := d
  subst hlc hrc hln hrn hlb hrb
  rfl

/-- The left factor's row is the result's row. -/
theorem blin_plain_lhs_row (j : (⟨2, ![100000, D]⟩ : Shape).Idx) (k : d.contr.Idx) : (d.lhsIdx j k 0).val = (j 0).val := by
  obtain ⟨lc, rc, ln, rn, lb, rb, wf⟩ := d
  subst hlc hrc hln hrn hlb hrb
  rfl

/-- The left factor's column is the contraction position. -/
theorem blin_plain_lhs_col (j : (⟨2, ![100000, D]⟩ : Shape).Idx) (k : d.contr.Idx) (h0 : 0 < d.contr.rank) :
    (d.lhsIdx j k 1).val = (k ⟨0, h0⟩).val :=
  d.lhsIdx_val_of_single hlc j k

/-- The right factor's row is the contraction position. -/
theorem blin_plain_rhs_row (j : (⟨2, ![100000, D]⟩ : Shape).Idx) (k : d.contr.Idx) (h0 : 0 < d.contr.rank) :
    (d.rhsIdx j k 0).val = (k ⟨0, h0⟩).val :=
  d.rhsIdx_val_of_single hrc j k

/-- The right factor's column is the result's column. -/
theorem blin_plain_rhs_col (j : (⟨2, ![100000, D]⟩ : Shape).Idx) (k : d.contr.Idx) : (d.rhsIdx j k 1).val = (j 1).val := by
  obtain ⟨lc, rc, ln, rn, lb, rb, wf⟩ := d
  subst hlc hrc hln hrn hlb hrb
  rfl

/-- The product at (p, q) is Σ_k x[p,k] · W[k,q]: the sum over the one-axis contraction index, re-indexed by its
    coordinate. -/
theorem blin_plain_dot_apply (x : FVec Ideal ⟨2, ![100000, K]⟩ .f32) (W : FVec Ideal ⟨2, ![K, D]⟩ .f32) (p : Fin 100000) (q : Fin D) :
    Host.dotGeneral (F := Ideal) d none x W (ix2 p q) = ∑ k : Fin K, x (ix2 p k) * W (ix2 k q) := by
  have hr : d.contr.rank = 1 := blin_plain_contr_rank d hlc hrc hln hrn hlb hrb
  have hs : d.contr.size ⟨0, by omega⟩ = K := blin_plain_contr_size d hlc hrc hln hrn hlb hrb (by omega)
  show FloatOps.dotGeneral d none .single x W (ix2 p q) = _
  rw [Ideal.dotGeneral_apply, ← Equiv.sum_comp (contrEquiv1 d K hr hs).symm]
  refine Finset.sum_congr rfl fun k _ => ?_
  have hk := contrEquiv1_symm_val d K hr hs k
  congr 1
  · refine congrArg x (funext fun a => Fin.ext ?_)
    match a with
    | ⟨0, _⟩ => exact blin_plain_lhs_row d hlc hrc hln hrn hlb hrb _ _
    | ⟨1, _⟩ => exact (blin_plain_lhs_col d hlc hrc hln hrn hlb hrb _ _ (by omega)).trans hk
  · refine congrArg W (funext fun a => Fin.ext ?_)
    match a with
    | ⟨0, _⟩ => exact (blin_plain_rhs_row d hlc hrc hln hrn hlb hrb _ _ (by omega)).trans hk
    | ⟨1, _⟩ => exact blin_plain_rhs_col d hlc hrc hln hrn hlb hrb _ _

end Dot

/-! ## The bias row and the zero array read at an index -/

/-- A D-vector laid out as a row of every node ([D] → [1, D] → [100000, D]), read at (p, q), is the vector at q.
    (When D = 1 the column axis has extent one and is read at 0, which is then q.) -/
theorem blin_row_apply {D : Nat} (h2 : (⟨1, ![D]⟩ : Shape).BroadcastsInDim ⟨2, ![1, D]⟩ ![1])
    (h1 : (⟨2, ![1, D]⟩ : Shape).BroadcastsInDim ⟨2, ![100000, D]⟩ ![0, 1])
    (b : FVec Ideal ⟨1, ![D]⟩ .f32) (p : Fin 100000) (q : Fin D) :
    broadcastInDim ⟨2, ![100000, D]⟩ ![0, 1] h1 (broadcastInDim ⟨2, ![1, D]⟩ ![1] h2 b) (ix2 p q) = b (ix1 q) := by
  unfold broadcastInDim
  refine congrArg b (funext fun a => Fin.ext ?_)
  match a with
  | ⟨0, _⟩ =>
    beta_reduce
    split_ifs with ha hb
    · have hD : D = 1 := ha
      have := q.isLt
      show 0 = q.val
      omega
    · exact absurd hb ha
    · rfl

/-- The zero constant spread over every node and column is 0 everywhere. -/
theorem blin_zeros_apply {D : Nat} (h0 : (⟨0, ![]⟩ : Shape).BroadcastsInDim ⟨2, ![100000, D]⟩ ![])
    (i : (⟨2, ![100000, D]⟩ : Shape).Idx) :
    broadcastInDim ⟨2, ![100000, D]⟩ ![] h0 (constant (F := Ideal) ⟨0, ![]⟩ .f32 0x00000000#32) i = 0 := by
  unfold broadcastInDim
  rw [constant_apply]
  exact Ideal.ofBits_zero_f32

/-! ## The dense layer with its rectifier -/

/-- For an ordinary matrix product's dimension numbers, max (x · W + row b, 0) is, index by index,
    max (Σ_k x[i,k] · W[k,j] + b[j], 0). No entry needs to be finite: only the definitions are read. -/
theorem blin_lin_eq_Glin {K D : Nat} (d : DotDims ⟨2, ![100000, K]⟩ ⟨2, ![K, D]⟩ ⟨2, ![100000, D]⟩)
    (hlc : d.lhsContracting = [1]) (hrc : d.rhsContracting = [0]) (hln : d.lhsNonContracting = [0])
    (hrn : d.rhsNonContracting = [1]) (hlb : d.lhsBatch = []) (hrb : d.rhsBatch = [])
    (h2 : (⟨1, ![D]⟩ : Shape).BroadcastsInDim ⟨2, ![1, D]⟩ ![1])
    (h1 : (⟨2, ![1, D]⟩ : Shape).BroadcastsInDim ⟨2, ![100000, D]⟩ ![0, 1])
    (h0 : (⟨0, ![]⟩ : Shape).BroadcastsInDim ⟨2, ![100000, D]⟩ ![])
    (x : FVec Ideal ⟨2, ![100000, K]⟩ .f32) (W : FVec Ideal ⟨2, ![K, D]⟩ .f32) (b : FVec Ideal ⟨1, ![D]⟩ .f32) :
    maximumf (addf (Host.dotGeneral (F := Ideal) d none x W)
        (broadcastInDim ⟨2, ![100000, D]⟩ ![0, 1] h1 (broadcastInDim ⟨2, ![1, D]⟩ ![1] h2 b)))
      (broadcastInDim ⟨2, ![100000, D]⟩ ![] h0 (constant (F := Ideal) ⟨0, ![]⟩ .f32 0x00000000#32)) = Glin x W b := by
  funext i
  obtain ⟨p, q, rfl⟩ : ∃ (p : Fin 100000) (q : Fin D), i = ix2 p q := ⟨i 0, i 1, eq_ix2 i⟩
  rw [maximumf_apply, addf_apply, blin_plain_dot_apply d hlc hrc hln hrn hlb hrb, blin_row_apply, blin_zeros_apply]
  rfl

/-- The host's dense layer 512 → 128 with its rectifier, index by index: max (Σ_k x[i,k] · W[k,j] + b[j], 0). -/
theorem lin1_eq (x : FVec Ideal S100000x512 .f32) (W : FVec Ideal S512x128 .f32) (b : FVec Ideal S128 .f32) :
    lin1 (F := Ideal) x W b = Glin x W b := by
  unfold lin1 row128
  exact blin_lin_eq_Glin _ rfl rfl rfl rfl rfl rfl _ _ _ x W b

/-- The same, 128 → 64. -/
theorem lin2_eq (x : FVec Ideal S100000x128 .f32) (W : FVec Ideal S128x64 .f32) (b : FVec Ideal S64 .f32) :
    lin2 (F := Ideal) x W b = Glin x W b := by
  unfold lin2 row64
  exact blin_lin_eq_Glin _ rfl rfl rfl rfl rfl rfl _ _ _ x W b

/-- The same, 64 → 64. -/
theorem lin3_eq (x : FVec Ideal S100000x64 .f32) (W : FVec Ideal S64x64 .f32) (b : FVec Ideal S64 .f32) :
    lin3 (F := Ideal) x W b = Glin x W b := by
  unfold lin3 row64
  exact blin_lin_eq_Glin _ rfl rfl rfl rfl rfl rfl _ _ _ x W b

end Cert.Hand

end
-- ==== Proof.BridgeFin.lean ====
import proofs.«401189_j18330920419815_1_alg».proof.Proof.Spec
import Idealize.ShloMosaic.PureOps.Ideal.Laws
import Idealize.ShloMosaic.Lib.StackMember
import Idealize.ShloMosaic.Lib.IdealHost

noncomputable section

open scoped BigOperators

namespace Cert.Hand

open Idealize.ShloMosaic Idealize.ShloMosaic.ValueIdx Cert.ReferenceIdeal Cert.ReferenceIdeal.Facts₀

variable [Cert.ReferenceIdeal.Facts]

/-- A vector laid as the one row of a one-row matrix and copied down every row reads, at (p, q), its q-th entry. -/
theorem bfin_rowvec_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α) (p : Fin m) (q : Fin n) :
    broadcastInDim ⟨2, ![m, n]⟩ ![0, 1] h2 (broadcastInDim ⟨2, ![1, n]⟩ ![1] h1 b) (ix2 p q) = b (ix1 q) := by
  rw [broadcastInDim_oneRow_apply]
  refine broadcastInDim_apply ![1] h1 b (ix2 (0 : Fin 1) q) (ix1 q) ?_
  intro a
  match a with
  | ⟨0, _⟩ =>
    show q.val = if n = 1 then 0 else q.val
    split_ifs with hn
    · have := q.isLt; omega
    · rfl

/-- A 64-vector as a row of every node, at an index. -/
theorem bfin_row64_apply (b : FVec Ideal S64 .f32) (p : Fin 100000) (q : Fin 64) : row64 (F := Ideal) b (ix2 p q) = b (ix1 q) :=
  bfin_rowvec_apply _ _ b p q

/-- A 32-vector as a row of every node, at an index. -/
theorem bfin_row32_apply (b : FVec Ideal S32 .f32) (p : Fin 100000) (q : Fin 32) : row32 (F := Ideal) b (ix2 p q) = b (ix1 q) :=
  bfin_rowvec_apply _ _ b p q

/-- The 64-wide matrix product at an index: these dimension numbers are the plain rows-by-columns product. -/
theorem bfin_dot64_apply (A : FVec Ideal S100000x64 .f32) (B : FVec Ideal S64x32 .f32) (p : Fin 100000) (q : Fin 32) :
    Host.dotGeneral dot_S100000x64_S64x32_S100000x32_1_0_0_1_n_n none A B (ix2 p q) = ∑ c : Fin 64, A (ix2 p c) * B (ix2 c q) := by
  have e : dot_S100000x64_S64x32_S100000x32_1_0_0_1_n_n = DotDims.plain 100000 64 32 := rfl
  rw [e]
  exact StackMember.dotGeneral_plain_apply none A B p q

/-- The 32-wide matrix product at an index. -/
theorem bfin_dot32_apply (A : FVec Ideal S100000x32 .f32) (B : FVec Ideal S32x32 .f32) (p : Fin 100000) (q : Fin 32) :
    Host.dotGeneral dot_S100000x32_S32x32_S100000x32_1_0_0_1_n_n none A B (ix2 p q) = ∑ c : Fin 32, A (ix2 p c) * B (ix2 c q) := by
  have e : dot_S100000x32_S32x32_S100000x32_1_0_0_1_n_n = DotDims.plain 100000 32 32 := rfl
  rw [e]
  exact StackMember.dotGeneral_plain_apply none A B p q

/-- The broadcast zero constant reads 0 everywhere. -/
theorem bfin_zeros32_apply (i : S100000x32.Idx) :
    broadcastInDim S100000x32 ![] bcast_S_S100000x32 (constant (F := Ideal) S_ .f32 0x00000000#32) i = (0 : EReal) := by
  rw [broadcastInDim_scalar_apply, constant_apply, Ideal.ofBits_zero_f32]

/-- The reference's last two dense layers at an index. -/
theorem bfin_headRef_apply (hn : FVec Ideal S100000x64 .f32) (W2 : FVec Ideal S64x32 .f32) (b2 : FVec Ideal S32 .f32)
    (W3 : FVec Ideal S32x32 .f32) (b3 : FVec Ideal S32 .f32) (p : Fin 100000) (q : Fin 32) :
    headRef (F := Ideal) hn W2 b2 W3 b3 (ix2 p q)
      = (∑ k : Fin 32, max ((∑ k' : Fin 64, hn (ix2 p k') * W2 (ix2 k' k)) + b2 (ix1 k)) 0 * W3 (ix2 k q)) + b3 (ix1 q) := by
  unfold headRef
  rw [addf_apply, bfin_row32_apply, bfin_dot32_apply]
  congr 1
  refine Finset.sum_congr rfl fun k _ => ?_
  rw [maximumf_apply, addf_apply, bfin_row32_apply, bfin_dot64_apply, bfin_zeros32_apply]

/-- The reference's normalisation at an index. -/
theorem bfin_bnRef_apply (h : FVec Ideal S100000x64 .f32) (g β : FVec Ideal S64 .f32) (p : Fin 100000) (k : Fin 64) :
    bnRef (F := Ideal) h g β (ix2 p k)
      = ((h (ix2 p k) - meanOf (F := Ideal) h (ix1 k)) * rstdOf (F := Ideal) h (ix1 k)) * g (ix1 k) + β (ix1 k) := by
  unfold bnRef
  rw [addf_apply, mulf_apply, mulf_apply, subf_apply, bfin_row64_apply, bfin_row64_apply, bfin_row64_apply, bfin_row64_apply]

/-- The scale at a column: rstd · gamma. -/
theorem bfin_scaleOf_apply (h : FVec Ideal S100000x64 .f32) (g : FVec Ideal S64 .f32) (k : Fin 64) :
    scaleOf (F := Ideal) h g (ix1 k) = rstdOf (F := Ideal) h (ix1 k) * g (ix1 k) := rfl

/-- The shift at a column: beta − mean · (rstd · gamma). -/
theorem bfin_shiftOf_apply (h : FVec Ideal S100000x64 .f32) (g β : FVec Ideal S64 .f32) (k : Fin 64) :
    shiftOf (F := Ideal) h g β (ix1 k)
      = β (ix1 k) - meanOf (F := Ideal) h (ix1 k) * (rstdOf (F := Ideal) h (ix1 k) * g (ix1 k)) := rfl

/-- One scale and one shift against subtracting the mean first, on real numbers read as extended reals. -/
theorem bfin_affine_real (x m r g b : ℝ) :
    (x : EReal) * ((r : EReal) * (g : EReal)) + ((b : EReal) - (m : EReal) * ((r : EReal) * (g : EReal)))
      = (((x : EReal) - (m : EReal)) * (r : EReal)) * (g : EReal) + (b : EReal) := by
  rw [← EReal.coe_mul, ← EReal.coe_mul, ← EReal.coe_mul, ← EReal.coe_sub, ← EReal.coe_add, ← EReal.coe_sub, ← EReal.coe_mul,
    ← EReal.coe_mul, ← EReal.coe_add]
  congr 1
  ring

/-- The kernel folds the normalisation into one scale and one shift per column, the reference subtracts the mean first:
    h · (r · g) + (β − mean · (r · g)) = ((h − mean) · r) · g + β wherever all five are real numbers; the two dense
    layers after it are the same sums on both sides. -/
theorem fin_eq (h : FVec Ideal S100000x64 .f32) (g β : FVec Ideal S64 .f32) (W2 : FVec Ideal S64x32 .f32) (b2 : FVec Ideal S32 .f32)
    (W3 : FVec Ideal S32x32 .f32) (b3 : FVec Ideal S32 .f32)
    (hh : IsReal h) (hg : IsReal g) (hβ : IsReal β) (hm : IsReal (meanOf (F := Ideal) h)) (hr : IsReal (rstdOf (F := Ideal) h)) :
    Gfin h (scaleOf (F := Ideal) h g) (shiftOf (F := Ideal) h g β) W2 b2 W3 b3 = headRef (F := Ideal) (bnRef (F := Ideal) h g β) W2 b2 W3 b3 := by
  funext i
  obtain ⟨p, q, rfl⟩ : ∃ (p : Fin 100000) (q : Fin 32), i = ix2 p q := ⟨i 0, i 1, eq_ix2 i⟩
  rw [bfin_headRef_apply]
  show (∑ k : Fin 32, max ((∑ k' : Fin 64, (h (ix2 p k') * scaleOf (F := Ideal) h g (ix1 k') + shiftOf (F := Ideal) h g β (ix1 k'))
      * W2 (ix2 k' k)) + b2 (ix1 k)) 0 * W3 (ix2 k q)) + b3 (ix1 q) = _
  congr 1
  refine Finset.sum_congr rfl fun k _ => ?_
  congr 3
  refine Finset.sum_congr rfl fun k' _ => ?_
  congr 1
  rw [bfin_bnRef_apply, bfin_scaleOf_apply, bfin_shiftOf_apply]
  obtain ⟨x, hx⟩ := hh (ix2 p k')
  obtain ⟨gg, hgg⟩ := hg (ix1 k')
  obtain ⟨bb, hbb⟩ := hβ (ix1 k')
  obtain ⟨mm, hmm⟩ := hm (ix1 k')
  obtain ⟨rr, hrr⟩ := hr (ix1 k')
  rw [hx, hgg, hbb, hmm, hrr]
  exact bfin_affine_real x mm rr gg bb

end Cert.Hand

end
-- ==== Proof.LibGatherRows.lean ====
/- The gather of whole rows: operand [N, C] (or [N, A, B]), start indices [n, 1], result [n, C] (or [n, A, B]); the operand's axis 0 is collapsed and named by the one component of the index vector, the other axes are offset axes taken whole. Result row j is the operand's row at start index j, read signed and clamped into [0, N - 1]. -/
import Idealize.ShloMosaic.PureOps.Ideal
import Idealize.ShloMosaic.Lib.ValueIdx

noncomputable section

open scoped BigOperators

namespace Cert.LibGatherRows

open Idealize.ShloMosaic Idealize.ShloMosaic.ValueIdx

/-- An entry of a list read through two equations: of the lists and of the positions. -/
theorem getElem_of_eq_of_eq {β : Type} {l l' : List β} (h : l = l') {i i' : Nat} (hi : i = i') (w : i < l.length) :
    l[i] = l'[i']'(by subst h; subst hi; exact w) := by
  subst h; subst hi; rfl

/-- THE ROW GATHER READ AT (j, c), one offset axis. On axis 0 (collapsed, named by the start index map) the operand
    coordinate is the start word read signed and clamped so that a slice of size 1 fits; on axis 1 (an offset axis, not
    named by the start index map) the start is 0 and the offset coordinate is the result's coordinate. -/
theorem gather_rows2_apply {α : Type} {N n C w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (x : (⟨2, ![N, C]⟩ : Shape).Idx → α) (idx : IVec ⟨2, ![n, 1]⟩ w) (j : Fin n) (c : Fin C) :
    Host.gather d x idx (ix2 j c)
      = x (ix2 (⟨min (idx (ix2 j (0 : Fin 1))).toInt.toNat (N - 1), by omega⟩ : Fin N) c) := by
  unfold Host.gather
  congr 1
  funext a
  apply Fin.ext
  have hb : ∀ a : Fin 2, a ∉ d.operandBatchingDims := fun a => by rw [hob]; exact List.not_mem_nil
  -- a batch axis of the result is its axis 0 (the one axis that is not an offset axis)
  have ebatch : ∀ X : Fin 2, X ∈ d.batchDims → ((ix2 j c : (⟨2, ![n, C]⟩ : Shape).Idx) X).val = j.val := by
    intro X hX
    have hX0 : X = 0 := by
      simp only [GatherDims.batchDims, Shape.kept, hoff, List.mem_filter] at hX
      have h1 : X ≠ 1 := by simpa using hX.2
      match X with
      | ⟨0, _⟩ => rfl
      | ⟨1, _⟩ => exact absurd rfl h1
    subst hX0; rfl
  -- an offset axis of the result is its axis 1
  have eoff : ∀ X : Fin 2, X ∈ d.offsetDims → ((ix2 j c : (⟨2, ![n, C]⟩ : Shape).Idx) X).val = c.val := by
    intro X hX
    have hX1 : X = 1 := by rw [hoff] at hX; exact List.mem_singleton.mp hX
    subst hX1; rfl
  match a with
  | ⟨0, _⟩ =>
    -- the collapsed axis: the clamped start, no batching and no offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 j c) idx 0 + d.batchCoord (ix2 j c) 0 + d.offCoord (ix2 j c) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 j (0 : Fin 1))).toInt.toNat (N - 1)
    rw [hsl]
    congr 3
    congr 1
    funext b
    apply Fin.ext
    match b with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 2) d.startIndexMap = 0
      rw [hsim]; simp
  | ⟨1, _⟩ =>
    -- an offset axis: no start (the start index map does not name it), no batching coordinate, the result's coordinate
    have hk : (1 : Fin 2) ∈ d.sKept := by rw [GatherDims.mem_sKept, hcoll, hob]; simp
    have hm : (1 : Fin 2) ∉ d.startIndexMap := by rw [hsim]; simp
    show d.start (ix2 j c) idx 1 + d.batchCoord (ix2 j c) 1 + d.offCoord (ix2 j c) 1 = c.val
    rw [GatherDims.batchCoord_eq_zero _ _ _ (hb 1)]
    unfold GatherDims.start GatherDims.offCoord
    rw [dif_neg hm, dif_pos hk]
    simp only [Nat.zero_add]
    exact eoff _ (List.getElem_mem _)

/-- The same with two offset axes: the operand's kept axes 1 and 2 are read, in order, at the result's offset axes 1
    and 2. -/
theorem gather_rows3_apply {α : Type} {N n A B w : Nat} (hN : 0 < N) (d : GatherDims ⟨3, ![N, A, B]⟩ ⟨2, ![n, 1]⟩ ⟨3, ![n, A, B]⟩)
    (hoff : d.offsetDims = [1, 2]) (hcoll : d.collapsedSliceDims = [0]) (hob : d.operandBatchingDims = [])
    (hsb : d.startIndicesBatchingDims = []) (hsim : d.startIndexMap = [0]) (hivd : d.indexVectorDim = 1)
    (x : (⟨3, ![N, A, B]⟩ : Shape).Idx → α) (idx : IVec ⟨2, ![n, 1]⟩ w) (j : Fin n) (a : Fin A) (b : Fin B) :
    Host.gather d x idx (ix3 j a b)
      = x (ix3 (⟨min (idx (ix2 j (0 : Fin 1))).toInt.toNat (N - 1), by omega⟩ : Fin N) a b) := by
  unfold Host.gather
  congr 1
  funext q
  apply Fin.ext
  have hb : ∀ q : Fin 3, q ∉ d.operandBatchingDims := fun q => by rw [hob]; exact List.not_mem_nil
  -- the operand's axes that are neither collapsed nor batching: 1 and 2, in order
  have hsk : d.sKept = [1, 2] := by
    simp only [GatherDims.sKept, Shape.kept, hcoll, hob]
    rfl
  -- a batch axis of the result is its axis 0 (the one axis that is not an offset axis)
  have ebatch : ∀ X : Fin 3, X ∈ d.batchDims → ((ix3 j a b : (⟨3, ![n, A, B]⟩ : Shape).Idx) X).val = j.val := by
    intro X hX
    have hX0 : X = 0 := by
      simp only [GatherDims.batchDims, Shape.kept, hoff, List.mem_filter] at hX
      have h12 : X ≠ 1 ∧ X ≠ 2 := by simpa using hX.2
      match X with
      | ⟨0, _⟩ => rfl
      | ⟨1, _⟩ => exact absurd rfl h12.1
      | ⟨2, _⟩ => exact absurd rfl h12.2
    subst hX0; rfl
  -- the result's coordinates on its axes 1 and 2
  have e1 : ∀ X : Fin 3, X = 1 → ((ix3 j a b : (⟨3, ![n, A, B]⟩ : Shape).Idx) X).val = a.val := by
    intro X hX; subst hX; rfl
  have e2 : ∀ X : Fin 3, X = 2 → ((ix3 j a b : (⟨3, ![n, A, B]⟩ : Shape).Idx) X).val = b.val := by
    intro X hX; subst hX; rfl
  have hm : ∀ q : Fin 3, q ≠ 0 → q ∉ d.startIndexMap := fun q hq => by
    rw [hsim]; exact fun h => hq (List.mem_singleton.mp h)
  match q with
  | ⟨0, _⟩ =>
    -- the collapsed axis: the clamped start, no batching and no offset coordinate
    have hk : (0 : Fin 3) ∉ d.sKept := by rw [GatherDims.mem_sKept, hcoll]; simp
    have hm0 : (0 : Fin 3) ∈ d.startIndexMap := by rw [hsim]; exact List.mem_singleton.mpr rfl
    have hsl : d.sliceSizes 0 = 1 := d.slice_collapsed 0 (by rw [hcoll]; exact List.mem_singleton.mpr rfl)
    show d.start (ix3 j a b) idx 0 + d.batchCoord (ix3 j a b) 0 + d.offCoord (ix3 j a b) 0
      = min (idx (ix2 j (0 : Fin 1))).toInt.toNat (N - 1)
    rw [GatherDims.batchCoord_eq_zero _ _ _ (hb 0), GatherDims.offCoord_eq_zero _ _ _ hk]
    simp only [Nat.add_zero]
    unfold GatherDims.start
    rw [dif_pos hm0]
    show min (idx _).toInt.toNat (N - d.sliceSizes 0) = min (idx (ix2 j (0 : Fin 1))).toInt.toNat (N - 1)
    rw [hsl]
    congr 3
    congr 1
    funext p
    apply Fin.ext
    match p with
    | ⟨0, _⟩ =>
      -- the start indices' axis 0 is read at the result's batch coordinate
      unfold GatherDims.siIdx
      rw [dif_neg (by rw [hivd]; simp)]
      unfold GatherDims.siCoord
      simp only [Fin.val_cast]
      exact ebatch _ (List.getElem_mem _)
    | ⟨1, _⟩ =>
      -- the index vector's axis is read at the component's position in the start index map, the first
      unfold GatherDims.siIdx
      rw [dif_pos (by rw [hivd])]
      show List.idxOf (0 : Fin 3) d.startIndexMap = 0
      rw [hsim]; simp
  | ⟨1, _⟩ =>
    -- the first offset axis: no start, no batching coordinate, the result's coordinate on its axis 1
    have hk : (1 : Fin 3) ∈ d.sKept := by rw [hsk]; simp
    show d.start (ix3 j a b) idx 1 + d.batchCoord (ix3 j a b) 1 + d.offCoord (ix3 j a b) 1 = a.val
    rw [GatherDims.batchCoord_eq_zero _ _ _ (hb 1)]
    unfold GatherDims.start GatherDims.offCoord
    rw [dif_neg (hm 1 (by decide)), dif_pos hk]
    simp only [Nat.zero_add]
    exact e1 _ ((getElem_of_eq_of_eq hoff (show List.idxOf (1 : Fin 3) d.sKept = 0 by rw [hsk]; rfl) _).trans rfl)
  | ⟨2, _⟩ =>
    -- the second offset axis: the result's coordinate on its axis 2
    have hk : (2 : Fin 3) ∈ d.sKept := by rw [hsk]; simp
    show d.start (ix3 j a b) idx 2 + d.batchCoord (ix3 j a b) 2 + d.offCoord (ix3 j a b) 2 = b.val
    rw [GatherDims.batchCoord_eq_zero _ _ _ (hb 2)]
    unfold GatherDims.start GatherDims.offCoord
    rw [dif_neg (hm 2 (by decide)), dif_pos hk]
    simp only [Nat.zero_add]
    exact e2 _ ((getElem_of_eq_of_eq hoff (show List.idxOf (2 : Fin 3) d.sKept = 1 by rw [hsk]; rfl) _).trans rfl)

end Cert.LibGatherRows

end
-- ==== Proof.LibScatterAddRows.lean ====
/- The accumulating scatter of whole rows: operand [N, C] (or [N, A, B]), start indices [n, 1], updates [n, C] (or [n, A, B]); the operand's axis 0 is inserted and named by the one component of the index vector, the other axes are the update window. Update row j lands on operand row i exactly when its start index, read signed, equals i; a row outside [0, N) lands nowhere. -/
import Idealize.ShloMosaic.PureOps.Ideal
import Idealize.ShloMosaic.Lib.ValueIdx

noncomputable section

open scoped BigOperators

namespace Cert.LibScatterAddRows

open Idealize.ShloMosaic Idealize.ShloMosaic.ValueIdx

/-! ## One window axis -/

/-- An axis of a rank-2 shape is axis 0 or axis 1. -/
theorem axis2_cases {N C : Nat} (a : Fin (⟨2, ![N, C]⟩ : Shape).rank) : a = 0 ∨ a = 1 := by
  match a with
  | ⟨0, _⟩ => exact Or.inl rfl
  | ⟨1, _⟩ => exact Or.inr rfl

/-- The dimension numbers of a scatter of whole rows, one window axis. -/
abbrev rows2Dims (N n C : Nat) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Rows2
variable {N n C w : Nat} (wf : ScatterDims.WF ⟨2, ![N, C]⟩ ⟨2, ![n, 1]⟩ ⟨2, ![n, C]⟩ [1] [0] [0] 1)
  (j : Fin n) (c : Fin C) (idx : IVec ⟨2, ![n, 1]⟩ w)

/-- On the inserted axis the window of update (j, c) starts at row j's start index, read signed. -/
theorem rows2_start0 : (rows2Dims N n C wf).start (ix2 j c) idx 0 = (idx (ix2 j (0 : Fin 1))).toInt := by
  unfold ScatterDims.start
  rw [dif_pos (show (0 : Fin 2) ∈ (rows2Dims N n C wf).scatterDimsToOperandDims from List.mem_singleton.mpr rfl)]
  have hsi : (rows2Dims N n C wf).siIdx (ix2 j c) ⟨List.idxOf (0 : Fin 2) (rows2Dims N n C wf).scatterDimsToOperandDims,
      List.idxOf_lt_length_iff.2 (List.mem_singleton.mpr rfl)⟩ = ix2 j (0 : Fin 1) := by
    funext b; refine Fin.ext ?_
    match b with
    | ⟨0, _⟩ => rfl
    | ⟨1, _⟩ => rfl
  rw [hsi]

/-- On the window axis the start is 0. -/
theorem rows2_start1 : (rows2Dims N n C wf).start (ix2 j c) idx 1 = 0 := by
  unfold ScatterDims.start
  rw [dif_neg]
  simp

/-- The inserted axis has window coordinate 0. -/
theorem rows2_window0 : (rows2Dims N n C wf).window (ix2 j c) 0 = 0 := by
  unfold ScatterDims.window
  rw [dif_neg]
  simp [ScatterDims.sKept, Shape.kept, List.mem_filter, List.mem_finRange]

/-- The window axis has the update's column as window coordinate. -/
theorem rows2_window1 : (rows2Dims N n C wf).window (ix2 j c) 1 = c.val := by
  unfold ScatterDims.window
  rw [dif_pos (by simp [ScatterDims.sKept, Shape.kept, List.mem_filter, List.mem_finRange])]
  rfl

/-- Update (j, c) lands on (i, c') exactly when row j's start index, read signed, is i and the columns agree. -/
theorem rows2_resultIdx?_eq_some_iff (i : Fin N) (c' : Fin C) :
    (rows2Dims N n C wf).resultIdx? (ix2 j c) idx = some (ix2 i c')
      ↔ ((idx (ix2 j (0 : Fin 1))).toInt = (i.val : ℤ) ∧ c = c') := by
  unfold ScatterDims.resultIdx?
  have hs0 : (rows2Dims N n C wf).start (ix2 j c) idx 0 + ((rows2Dims N n C wf).window (ix2 j c) 0 : ℤ)
      = (idx (ix2 j (0 : Fin 1))).toInt := by
    rw [rows2_start0, rows2_window0]; simp
  have hs1 : (rows2Dims N n C wf).start (ix2 j c) idx 1 + ((rows2Dims N n C wf).window (ix2 j c) 1 : ℤ)
      = (c.val : ℤ) := by
    rw [rows2_start1, rows2_window1]; simp
  constructor
  · intro h
    split at h
    · rename_i hall
      have e := Option.some.inj h
      have h0 := congrArg Fin.val (congrFun e 0)
      have h1 := congrArg Fin.val (congrFun e 1)
      change ((rows2Dims N n C wf).start (ix2 j c) idx 0 + ((rows2Dims N n C wf).window (ix2 j c) 0 : ℤ)).toNat
        = i.val at h0
      change ((rows2Dims N n C wf).start (ix2 j c) idx 1 + ((rows2Dims N n C wf).window (ix2 j c) 1 : ℤ)).toNat
        = c'.val at h1
      have hp := (hall 0).1
      rw [hs0] at h0 hp
      rw [hs1] at h1
      exact ⟨by omega, Fin.ext (by omega)⟩
    · exact absurd h (by simp)
  · rintro ⟨h, rfl⟩
    have hall : ∀ a, 0 ≤ (rows2Dims N n C wf).start (ix2 j c) idx a + ((rows2Dims N n C wf).window (ix2 j c) a : ℤ) ∧
        (rows2Dims N n C wf).start (ix2 j c) idx a + ((rows2Dims N n C wf).window (ix2 j c) a : ℤ)
          < ((⟨2, ![N, C]⟩ : Shape).size a : ℤ) := by
      intro a
      rcases axis2_cases a with rfl | rfl
      · rw [hs0, h]
        have := i.isLt
        constructor
        · omega
        · change (i.val : ℤ) < (N : ℤ); omega
      · rw [hs1]
        have := c.isLt
        constructor
        · omega
        · change (c.val : ℤ) < (C : ℤ); omega
    rw [dif_pos hall]
    congr 1
    funext a
    refine Fin.ext ?_
    rcases axis2_cases a with rfl | rfl
    · change ((rows2Dims N n C wf).start (ix2 j c) idx 0 + ((rows2Dims N n C wf).window (ix2 j c) 0 : ℤ)).toNat = i.val
      rw [hs0, h]; simp
    · change ((rows2Dims N n C wf).start (ix2 j c) idx 1 + ((rows2Dims N n C wf).window (ix2 j c) 1 : ℤ)).toNat = c.val
      rw [hs1]; simp

end Rows2

/-- THE ROW SCATTER-ADD READ AT (i, c), one window axis: the operand there plus the sum, over the update rows whose
    start index is i, of the update at column c. -/
theorem scatterAdd_rows2_apply {N n C w : Nat} {φ : FTy} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1)
    (x : FVec Ideal ⟨2, ![N, C]⟩ φ) (idx : IVec ⟨2, ![n, 1]⟩ w) (upd : FVec Ideal ⟨2, ![n, C]⟩ φ) (i : Fin N) (c : Fin C) :
    Host.scatterAdd d x idx upd (ix2 i c)
      = x (ix2 i c) + ∑ j ∈ Finset.univ.filter (fun j : Fin n => (idx (ix2 j (0 : Fin 1))).toInt = (i.val : ℤ)), upd (ix2 j c) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix2 j c) ?_ ?_ ?_ ?_
  · intro j hj
    simp only [Finset.mem_filter, Finset.mem_univ, true_and] at hj ⊢
    exact (rows2_resultIdx?_eq_some_iff wf j c idx i c).2 ⟨hj, rfl⟩
  · intro j _ j' _ hjj
    exact congrFun hjj 0
  · intro p hp
    simp only [Finset.mem_filter, Finset.mem_univ, true_and] at hp
    rw [eq_ix2 p] at hp ⊢
    obtain ⟨h0, h1⟩ := (rows2_resultIdx?_eq_some_iff wf (p 0) (p 1) idx i c).1 hp
    exact ⟨p 0, Finset.mem_filter.2 ⟨Finset.mem_univ _, h0⟩, congrArg (ix2 (p 0)) h1.symm⟩
  · intro j _
    rfl

/-! ## Two window axes -/

/-- An axis of a rank-3 shape is axis 0, 1 or 2. -/
theorem axis3_cases {N A B : Nat} (a : Fin (⟨3, ![N, A, B]⟩ : Shape).rank) : a = 0 ∨ a = 1 ∨ a = 2 := by
  match a with
  | ⟨0, _⟩ => exact Or.inl rfl
  | ⟨1, _⟩ => exact Or.inr (Or.inl rfl)
  | ⟨2, _⟩ => exact Or.inr (Or.inr rfl)

/-- The dimension numbers of a scatter of whole rows, two window axes. -/
abbrev rows3Dims (N n A B : Nat)
    (wf : ScatterDims.WF ⟨3, ![N, A, B]⟩ ⟨2, ![n, 1]⟩ ⟨3, ![n, A, B]⟩ [1, 2] [0] [0] 1) :
    ScatterDims ⟨3, ![N, A, B]⟩ ⟨2, ![n, 1]⟩ ⟨3, ![n, A, B]⟩ where
  updateWindowDims := [1, 2]
  insertedWindowDims := [0]
  scatterDimsToOperandDims := [0]
  indexVectorDim := 1
  wf := wf

section Rows3
variable {N n A B w : Nat} (wf : ScatterDims.WF ⟨3, ![N, A, B]⟩ ⟨2, ![n, 1]⟩ ⟨3, ![n, A, B]⟩ [1, 2] [0] [0] 1)
  (j : Fin n) (a : Fin A) (b : Fin B) (idx : IVec ⟨2, ![n, 1]⟩ w)

/-- On the inserted axis the window of update (j, a, b) starts at row j's start index, read signed. -/
theorem rows3_start0 : (rows3Dims N n A B wf).start (ix3 j a b) idx 0 = (idx (ix2 j (0 : Fin 1))).toInt := by
  unfold ScatterDims.start
  rw [dif_pos (show (0 : Fin 3) ∈ (rows3Dims N n A B wf).scatterDimsToOperandDims from List.mem_singleton.mpr rfl)]
  have hsi : (rows3Dims N n A B wf).siIdx (ix3 j a b)
      ⟨List.idxOf (0 : Fin 3) (rows3Dims N n A B wf).scatterDimsToOperandDims,
        List.idxOf_lt_length_iff.2 (List.mem_singleton.mpr rfl)⟩ = ix2 j (0 : Fin 1) := by
    funext e; refine Fin.ext ?_
    match e with
    | ⟨0, _⟩ => rfl
    | ⟨1, _⟩ => rfl
  rw [hsi]

/-- On the first window axis the start is 0. -/
theorem rows3_start1 : (rows3Dims N n A B wf).start (ix3 j a b) idx 1 = 0 := by
  unfold ScatterDims.start
  rw [dif_neg]
  simp

/-- On the second window axis the start is 0. -/
theorem rows3_start2 : (rows3Dims N n A B wf).start (ix3 j a b) idx 2 = 0 := by
  unfold ScatterDims.start
  rw [dif_neg]
  simp

/-- The inserted axis has window coordinate 0. -/
theorem rows3_window0 : (rows3Dims N n A B wf).window (ix3 j a b) 0 = 0 := by
  unfold ScatterDims.window
  rw [dif_neg]
  simp [ScatterDims.sKept, Shape.kept, List.mem_filter, List.mem_finRange]

/-- The first window axis has the update's second coordinate as window coordinate. -/
theorem rows3_window1 : (rows3Dims N n A B wf).window (ix3 j a b) 1 = a.val := by
  unfold ScatterDims.window
  rw [dif_pos (by simp [ScatterDims.sKept, Shape.kept, List.mem_filter, List.mem_finRange])]
  rfl

/-- The second window axis has the update's third coordinate as window coordinate. -/
theorem rows3_window2 : (rows3Dims N n A B wf).window (ix3 j a b) 2 = b.val := by
  unfold ScatterDims.window
  rw [dif_pos (by simp [ScatterDims.sKept, Shape.kept, List.mem_filter, List.mem_finRange])]
  rfl

/-- Update (j, a, b) lands on (i, a', b') exactly when row j's start index, read signed, is i and the window
    coordinates agree. -/
theorem rows3_resultIdx?_eq_some_iff (i : Fin N) (a' : Fin A) (b' : Fin B) :
    (rows3Dims N n A B wf).resultIdx? (ix3 j a b) idx = some (ix3 i a' b')
      ↔ ((idx (ix2 j (0 : Fin 1))).toInt = (i.val : ℤ) ∧ a = a' ∧ b = b') := by
  unfold ScatterDims.resultIdx?
  have hs0 : (rows3Dims N n A B wf).start (ix3 j a b) idx 0 + ((rows3Dims N n A B wf).window (ix3 j a b) 0 : ℤ)
      = (idx (ix2 j (0 : Fin 1))).toInt := by
    rw [rows3_start0, rows3_window0]; simp
  have hs1 : (rows3Dims N n A B wf).start (ix3 j a b) idx 1 + ((rows3Dims N n A B wf).window (ix3 j a b) 1 : ℤ)
      = (a.val : ℤ) := by
    rw [rows3_start1, rows3_window1]; simp
  have hs2 : (rows3Dims N n A B wf).start (ix3 j a b) idx 2 + ((rows3Dims N n A B wf).window (ix3 j a b) 2 : ℤ)
      = (b.val : ℤ) := by
    rw [rows3_start2, rows3_window2]; simp
  constructor
  · intro h
    split at h
    · rename_i hall
      have e := Option.some.inj h
      have h0 := congrArg Fin.val (congrFun e 0)
      have h1 := congrArg Fin.val (congrFun e 1)
      have h2 := congrArg Fin.val (congrFun e 2)
      change ((rows3Dims N n A B wf).start (ix3 j a b) idx 0 + ((rows3Dims N n A B wf).window (ix3 j a b) 0 : ℤ)).toNat
        = i.val at h0
      change ((rows3Dims N n A B wf).start (ix3 j a b) idx 1 + ((rows3Dims N n A B wf).window (ix3 j a b) 1 : ℤ)).toNat
        = a'.val at h1
      change ((rows3Dims N n A B wf).start (ix3 j a b) idx 2 + ((rows3Dims N n A B wf).window (ix3 j a b) 2 : ℤ)).toNat
        = b'.val at h2
      have hp := (hall 0).1
      rw [hs0] at h0 hp
      rw [hs1] at h1
      rw [hs2] at h2
      exact ⟨by omega, Fin.ext (by omega), Fin.ext (by omega)⟩
    · exact absurd h (by simp)
  · rintro ⟨h, rfl, rfl⟩
    have hall : ∀ e, 0 ≤ (rows3Dims N n A B wf).start (ix3 j a b) idx e + ((rows3Dims N n A B wf).window (ix3 j a b) e : ℤ) ∧
        (rows3Dims N n A B wf).start (ix3 j a b) idx e + ((rows3Dims N n A B wf).window (ix3 j a b) e : ℤ)
          < ((⟨3, ![N, A, B]⟩ : Shape).size e : ℤ) := by
      intro e
      rcases axis3_cases e with rfl | rfl | rfl
      · rw [hs0, h]
        have := i.isLt
        constructor
        · omega
        · change (i.val : ℤ) < (N : ℤ); omega
      · rw [hs1]
        have := a.isLt
        constructor
        · omega
        · change (a.val : ℤ) < (A : ℤ); omega
      · rw [hs2]
        have := b.isLt
        constructor
        · omega
        · change (b.val : ℤ) < (B : ℤ); omega
    rw [dif_pos hall]
    congr 1
    funext e
    refine Fin.ext ?_
    rcases axis3_cases e with rfl | rfl | rfl
    · change ((rows3Dims N n A B wf).start (ix3 j a b) idx 0 + ((rows3Dims N n A B wf).window (ix3 j a b) 0 : ℤ)).toNat = i.val
      rw [hs0, h]; simp
    · change ((rows3Dims N n A B wf).start (ix3 j a b) idx 1 + ((rows3Dims N n A B wf).window (ix3 j a b) 1 : ℤ)).toNat = a.val
      rw [hs1]; simp
    · change ((rows3Dims N n A B wf).start (ix3 j a b) idx 2 + ((rows3Dims N n A B wf).window (ix3 j a b) 2 : ℤ)).toNat = b.val
      rw [hs2]; simp

end Rows3

/-- The same with two window axes. -/
theorem scatterAdd_rows3_apply {N n A B w : Nat} {φ : FTy} (d : ScatterDims ⟨3, ![N, A, B]⟩ ⟨2, ![n, 1]⟩ ⟨3, ![n, A, B]⟩)
    (hu : d.updateWindowDims = [1, 2]) (hi : d.insertedWindowDims = [0]) (hs : d.scatterDimsToOperandDims = [0])
    (hv : d.indexVectorDim = 1)
    (x : FVec Ideal ⟨3, ![N, A, B]⟩ φ) (idx : IVec ⟨2, ![n, 1]⟩ w) (upd : FVec Ideal ⟨3, ![n, A, B]⟩ φ)
    (i : Fin N) (a : Fin A) (b : Fin B) :
    Host.scatterAdd d x idx upd (ix3 i a b)
      = x (ix3 i a b) + ∑ j ∈ Finset.univ.filter (fun j : Fin n => (idx (ix2 j (0 : Fin 1))).toInt = (i.val : ℤ)), upd (ix3 j a b) := by
  obtain ⟨uw, iw, sd, iv, wf⟩ := d
  dsimp only at hu hi hs hv
  subst hu hi hs hv
  unfold Host.scatterAdd
  rw [Ideal.hostScatterAdd_def]
  unfold Ideal.hostScatterAdd
  congr 1
  symm
  refine Finset.sum_bij (fun j _ => ix3 j a b) ?_ ?_ ?_ ?_
  · intro j hj
    simp only [Finset.mem_filter, Finset.mem_univ, true_and] at hj ⊢
    exact (rows3_resultIdx?_eq_some_iff wf j a b idx i a b).2 ⟨hj, rfl, rfl⟩
  · intro j _ j' _ hjj
    exact congrFun hjj 0
  · intro p hp
    simp only [Finset.mem_filter, Finset.mem_univ, true_and] at hp
    rw [eq_ix3 p] at hp ⊢
    obtain ⟨h0, h1, h2⟩ := (rows3_resultIdx?_eq_some_iff wf (p 0) (p 1) (p 2) idx i a b).1 hp
    exact ⟨p 0, Finset.mem_filter.2 ⟨Finset.mem_univ _, h0⟩, congrArg₂ (ix3 (p 0)) h1.symm h2.symm⟩
  · intro j _
    rfl

end Cert.LibScatterAddRows

end
-- ==== Proof.RealLayers.lean ====
import proofs.«401189_j18330920419815_1_alg».proof.Proof.Spec
import Idealize.ShloMosaic.PureOps.Ideal.Laws
import proofs.«401189_j18330920419815_1_alg».proof.Proof.LibGatherRows
import proofs.«401189_j18330920419815_1_alg».proof.Proof.LibScatterAddRows

noncomputable section

open scoped BigOperators

namespace Cert.Hand

open Idealize.ShloMosaic Idealize.ShloMosaic.ValueIdx Cert.ReferenceIdeal Cert.ReferenceIdeal.Facts₀

variable [Cert.ReferenceIdeal.Facts]

/-! ## Closure of the real arrays under the elementwise operations -/

/-- The larger of two reals, read in the extended reals, is the larger of their readings. -/
theorem coe_max_real (a b : ℝ) : max (a : EReal) (b : EReal) = ((max a b : ℝ) : EReal) :=
  (EReal.coe_strictMono.monotone.map_max).symm

/-- A finite sum of reals, read in the extended reals, is the sum of their readings. -/
theorem coe_sum_real {ι : Type} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A finite sum whose terms are all real is real. -/
theorem exists_real_sum {ι : Type} (s : Finset ι) (g : ι → EReal) (hg : ∀ k, ∃ r : ℝ, g k = (r : EReal)) :
    ∃ r : ℝ, (∑ k ∈ s, g k) = (r : EReal) := by
  choose f hf using hg
  exact ⟨∑ k ∈ s, f k, by rw [← coe_sum_real]; exact Finset.sum_congr rfl fun k _ => hf k⟩

theorem isReal_addf {S : Shape} {x y : FVec Ideal S .f32} (hx : IsReal x) (hy : IsReal y) : IsReal (addf x y) := by
  intro i
  obtain ⟨a, ha⟩ := hx i
  obtain ⟨b, hb⟩ := hy i
  exact ⟨a + b, by show x i + y i = _; rw [ha, hb, EReal.coe_add]⟩

theorem isReal_maximumf {S : Shape} {x y : FVec Ideal S .f32} (hx : IsReal x) (hy : IsReal y) : IsReal (maximumf x y) := by
  intro i
  obtain ⟨a, ha⟩ := hx i
  obtain ⟨b, hb⟩ := hy i
  exact ⟨max a b, by show max (x i) (y i) = _; rw [ha, hb, coe_max_real]⟩

/-- Every entry of a broadcast is an entry of its operand. -/
theorem isReal_bcast {S T : Shape} (dims : Fin S.rank → Fin T.rank) (h : S.BroadcastsInDim T dims) {x : FVec Ideal S .f32}
    (hx : IsReal x) : IsReal (broadcastInDim T dims h x) := by
  intro j
  exact hx _

/-- The zero constant. -/
theorem isReal_zero {S : Shape} : IsReal (constant (F := Ideal) S .f32 0x00000000#32) := by
  intro i
  exact ⟨0, by show Ideal.ofBits .f32 0x00000000#32 = _; rw [Ideal.ofBits_zero_f32]; rfl⟩

/-- The host's dot product of real arrays: every entry is a finite sum of products of entries. -/
theorem isReal_dot {sl sr so : Shape} (d : DotDims sl sr so) {x : FVec Ideal sl .f32} {W : FVec Ideal sr .f32}
    (hx : IsReal x) (hW : IsReal W) : IsReal (Host.dotGeneral d none x W) := by
  intro j
  show ∃ r : ℝ, FloatOps.dotGeneral d none .single x W j = _
  rw [Ideal.dotGeneral_apply]
  refine exists_real_sum _ _ fun k => ?_
  obtain ⟨a, ha⟩ := hx (d.lhsIdx j k)
  obtain ⟨b, hb⟩ := hW (d.rhsIdx j k)
  exact ⟨a * b, by rw [ha, hb, EReal.coe_mul]⟩

/-- A dense layer of real arrays is real: a finite sum of products of reals, plus a real, against zero. -/
theorem isReal_lin1 {x : FVec Ideal S100000x512 .f32} {W : FVec Ideal S512x128 .f32} {b : FVec Ideal S128 .f32}
    (hx : IsReal x) (hW : IsReal W) (hb : IsReal b) : IsReal (lin1 (F := Ideal) x W b) :=
  isReal_maximumf (isReal_addf (isReal_dot _ hx hW) (isReal_bcast _ _ (isReal_bcast _ _ hb))) (isReal_bcast _ _ isReal_zero)

theorem isReal_lin2 {x : FVec Ideal S100000x128 .f32} {W : FVec Ideal S128x64 .f32} {b : FVec Ideal S64 .f32}
    (hx : IsReal x) (hW : IsReal W) (hb : IsReal b) : IsReal (lin2 (F := Ideal) x W b) :=
  isReal_maximumf (isReal_addf (isReal_dot _ hx hW) (isReal_bcast _ _ (isReal_bcast _ _ hb))) (isReal_bcast _ _ isReal_zero)

theorem isReal_lin3 {x : FVec Ideal S100000x64 .f32} {W : FVec Ideal S64x64 .f32} {b : FVec Ideal S64 .f32}
    (hx : IsReal x) (hW : IsReal W) (hb : IsReal b) : IsReal (lin3 (F := Ideal) x W b) :=
  isReal_maximumf (isReal_addf (isReal_dot _ hx hW) (isReal_bcast _ _ (isReal_bcast _ _ hb))) (isReal_bcast _ _ isReal_zero)

/-! ## The aggregation -/

/-- The constant 1. -/
theorem ofBits_one_f32 : Ideal.ofBits .f32 0x3F800000#32 = ((1 : ℝ) : EReal) := by
  simp [Ideal.ofBits, Ideal.ieee, -EReal.coe_mul]; norm_num

/-- Every entry is a real number at least 1. -/
def GeOne {S : Shape} (v : FVec Ideal S .f32) : Prop := ∀ i, ∃ r : ℝ, 1 ≤ r ∧ v i = (r : EReal)

theorem geOne_bcast {S T : Shape} (dims : Fin S.rank → Fin T.rank) (h : S.BroadcastsInDim T dims) {x : FVec Ideal S .f32}
    (hx : GeOne x) : GeOne (broadcastInDim T dims h x) := by
  intro j
  exact hx _

/-- The larger of a real array and the constant 1 is real and at least 1. -/
theorem geOne_max_one {S : Shape} {x : FVec Ideal S .f32} (hx : IsReal x) :
    GeOne (maximumf x (constant (F := Ideal) S .f32 0x3F800000#32)) := by
  intro i
  obtain ⟨a, ha⟩ := hx i
  refine ⟨max a 1, le_max_right _ _, ?_⟩
  show max (x i) (Ideal.ofBits .f32 0x3F800000#32) = _
  rw [ha, ofBits_one_f32, coe_max_real]

/-- A real over a real at least 1 is real. -/
theorem isReal_hostDivf {S : Shape} {x y : FVec Ideal S .f32} (hx : IsReal x) (hy : GeOne y) : IsReal (Host.divf x y) := by
  intro i
  obtain ⟨a, ha⟩ := hx i
  obtain ⟨b, hb1, hb⟩ := hy i
  refine ⟨a * (1 / b), ?_⟩
  show Ideal.div (x i) (y i) = _
  rw [ha, hb, Ideal.div_coe (by linarith), EReal.coe_mul]

/-- Every row of a row gather is a row of the operand. -/
theorem isReal_gather_rows {N n C w : Nat} (hN : 0 < N) (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    {x : FVec Ideal ⟨2, ![N, C]⟩ .f32} (hx : IsReal x) (idx : IVec ⟨2, ![n, 1]⟩ w) : IsReal (Host.gather d x idx) := by
  intro i
  obtain ⟨p, q, rfl⟩ : ∃ (p : Fin n) (q : Fin C), i = ix2 p q := ⟨i 0, i 1, eq_ix2 i⟩
  rw [Cert.LibGatherRows.gather_rows2_apply hN d hoff hcoll hob hsb hsim hivd]
  exact hx _

/-- Every entry of a row scatter-add of real arrays is an entry of the operand plus a finite sum of entries of the updates. -/
theorem isReal_scatterAdd_rows {N n C w : Nat} (d : ScatterDims ⟨2, ![N, C]⟩ ⟨2, ![n, 1]⟩ ⟨2, ![n, C]⟩)
    (hu : d.updateWindowDims = [1]) (hi : d.insertedWindowDims = [0]) (hs : d.scatterDimsToOperandDims = [0])
    (hv : d.indexVectorDim = 1) {x : FVec Ideal ⟨2, ![N, C]⟩ .f32} (hx : IsReal x) (idx : IVec ⟨2, ![n, 1]⟩ w)
    {upd : FVec Ideal ⟨2, ![n, C]⟩ .f32} (hupd : IsReal upd) : IsReal (Host.scatterAdd d x idx upd) := by
  intro i
  obtain ⟨p, q, rfl⟩ : ∃ (p : Fin N) (q : Fin C), i = ix2 p q := ⟨i 0, i 1, eq_ix2 i⟩
  rw [Cert.LibScatterAddRows.scatterAdd_rows2_apply d hu hi hs hv]
  obtain ⟨a, ha⟩ := hx (ix2 p q)
  obtain ⟨b, hb⟩ := exists_real_sum (Finset.univ.filter (fun j : Fin n => (idx (ix2 j (0 : Fin 1))).toInt = (p.val : ℤ)))
    (fun j => upd (ix2 j q)) (fun j => hupd _)
  exact ⟨a + b, by rw [ha, hb, EReal.coe_add]⟩

/-- The in-degree is a real number at least 1. -/
theorem geOne_degOf (d : IVec S1600000 32) : GeOne (degOf (F := Ideal) d) :=
  geOne_max_one (isReal_scatterAdd_rows (N := 100000) (n := 1600000) (C := 1) scatter_S100000x1_S1600000x1_S1600000x1_1_0_0_1 rfl rfl rfl rfl
    (isReal_bcast _ _ isReal_zero) _ (isReal_bcast _ _ (fun i => ⟨1, ofBits_one_f32⟩)))

/-- The mean aggregation of a real array is real, whatever the edge list holds: a gathered row is a row of the array, a
    scattered sum is a finite sum of such rows, and the in-degree is a real number at least 1. -/
theorem isReal_agg128 {h : FVec Ideal S100000x128 .f32} (hh : IsReal h) (s d : IVec S1600000 32) :
    IsReal (agg128 (F := Ideal) h s d) :=
  isReal_hostDivf
    (isReal_scatterAdd_rows (N := 100000) (n := 1600000) (C := 128) scatter_S100000x128_S1600000x1_S1600000x128_1_0_0_1 rfl rfl rfl rfl
      (isReal_bcast _ _ isReal_zero) _
      (isReal_gather_rows (N := 100000) (n := 1600000) (C := 128) (by norm_num) gather_S100000x128_S1600000x1_S1600000x128_1_0_n_n_0_1_1128
        rfl rfl rfl rfl rfl rfl hh _))
    (geOne_bcast _ _ (geOne_degOf d))

theorem isReal_agg64 {h : FVec Ideal S100000x64 .f32} (hh : IsReal h) (s d : IVec S1600000 32) :
    IsReal (agg64 (F := Ideal) h s d) :=
  isReal_hostDivf
    (isReal_scatterAdd_rows (N := 100000) (n := 1600000) (C := 64) scatter_S100000x64_S1600000x1_S1600000x64_1_0_0_1 rfl rfl rfl rfl
      (isReal_bcast _ _ isReal_zero) _
      (isReal_gather_rows (N := 100000) (n := 1600000) (C := 64) (by norm_num) gather_S100000x64_S1600000x1_S1600000x64_1_0_n_n_0_1_164
        rfl rfl rfl rfl rfl rfl hh _))
    (geOne_bcast _ _ (geOne_degOf d))

end Cert.Hand

end
-- ==== Proof.RealStats.lean ====
import proofs.«401189_j18330920419815_1_alg».proof.Proof.Spec
import Idealize.ShloMosaic.PureOps.Ideal.Laws

noncomputable section

open scoped BigOperators

namespace Cert.Hand

open Idealize.ShloMosaic Idealize.ShloMosaic.ValueIdx Cert.ReferenceIdeal Cert.ReferenceIdeal.Facts₀

variable [Cert.ReferenceIdeal.Facts]

/-! ## The constants the statistics spell -/

/-- The pattern of the node count denotes the real number 100000. -/
theorem ofBits_100000 : Ideal.ofBits .f32 0x47C35000#32 = ((100000 : ℝ) : EReal) := by
  simp [Ideal.ofBits, Ideal.ieee, -EReal.coe_mul]; norm_num

/-- The pattern of the variance's guard (about 1e-5) denotes a positive real number. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-! ## Finite sums of real numbers -/

/-- A value plus a finite sum stays in any class of real numbers that is closed under addition. -/
theorem exists_real_add_sum {ι : Type} (P : ℝ → Prop) (hadd : ∀ a b, P a → P b → P (a + b)) (a : EReal)
    (ha : ∃ r : ℝ, P r ∧ a = (r : EReal)) (s : Finset ι) (f : ι → EReal)
    (hf : ∀ i ∈ s, ∃ r : ℝ, P r ∧ f i = (r : EReal)) : ∃ r : ℝ, P r ∧ a + ∑ i ∈ s, f i = (r : EReal) := by
  classical
  induction s using Finset.induction_on with
  | empty => simpa using ha
  | insert b s hb ih =>
    obtain ⟨rb, hPb, hrb⟩ := hf b (Finset.mem_insert_self b s)
    obtain ⟨rs, hPs, hrs⟩ := ih (fun i hi => hf i (Finset.mem_insert_of_mem hi))
    refine ⟨rb + rs, hadd _ _ hPb hPs, ?_⟩
    rw [Finset.sum_insert hb, add_left_comm, hrs, hrb, EReal.coe_add]

/-- The host's sum at an index is its initial value plus a finite sum of entries of the operand, so it stays in
    any class of real numbers closed under addition that holds the initial value and every entry. -/
theorem hostSum_real (P : ℝ → Prop) (hadd : ∀ a b, P a → P b → P (a + b)) {s t u : Shape} {axes : List (Fin s.rank)}
    (x : FVec Ideal s .f32) (init : FVec Ideal u .f32) (hr : s.ReducesTo axes t) (hu : 0 < u.numel)
    (hx : ∀ i, ∃ r : ℝ, P r ∧ x i = (r : EReal)) (hi : ∀ i, ∃ r : ℝ, P r ∧ init i = (r : EReal)) (j : t.Idx) :
    ∃ r : ℝ, P r ∧ Host.reduceAdd x init hr hu j = (r : EReal) := by
  unfold Host.reduceAdd
  rw [Ideal.hostReduceAdd_def]
  unfold Ideal.hostReduceAdd
  exact exists_real_add_sum P hadd _ (hi _) _ _ (fun i _ => hx i)

/-! ## Entry by entry -/

/-- A broadcast only re-reads entries of its operand. -/
theorem isReal_broadcastInDim {s t : Shape} (dims : Fin s.rank → Fin t.rank) (hb : s.BroadcastsInDim t dims)
    {x : FVec Ideal s .f32} (hx : IsReal x) : IsReal (broadcastInDim t dims hb x) := fun j => hx _

/-- The difference of two real arrays is real. -/
theorem isReal_subf {s : Shape} {a b : FVec Ideal s .f32} (ha : IsReal a) (hb : IsReal b) : IsReal (subf a b) := by
  intro i
  obtain ⟨ra, hra⟩ := ha i
  obtain ⟨rb, hrb⟩ := hb i
  refine ⟨ra - rb, ?_⟩
  show a i - b i = _
  rw [hra, hrb, EReal.coe_sub]

/-- The constant 100000 is real. -/
theorem isReal_const100000 {s : Shape} : IsReal (constant (F := Ideal) s .f32 0x47C35000#32) :=
  fun _ => ⟨100000, ofBits_100000⟩

/-- The constant zero is the real number 0. -/
theorem const_zero_apply {s : Shape} (i : s.Idx) : constant (F := Ideal) s .f32 0x00000000#32 i = ((0 : ℝ) : EReal) := by
  show Ideal.ofBits .f32 0x00000000#32 = _
  rw [Ideal.ofBits_zero_f32, EReal.coe_zero]

/-- A real array over an array of nonzero reals is real, and stays nonnegative over positive reals. -/
theorem hostDivf_real {s : Shape} {a b : FVec Ideal s .f32} (i : s.Idx) {ra rb : ℝ} (hra : a i = (ra : EReal))
    (hrb : b i = (rb : EReal)) (hne : rb ≠ 0) : Host.divf a b i = ((ra * (1 / rb) : ℝ) : EReal) := by
  show Ideal.div (a i) (b i) = _
  rw [hrb, Ideal.div_coe hne, hra, EReal.coe_mul]

/-- The host's column sums of a real array are real. -/
theorem isReal_hostSum {h : FVec Ideal S100000x64 .f32} (hh : IsReal h) :
    IsReal (Host.reduceAdd h (constant S_ .f32 0x00000000#32) reducesTo_S100000x64_S64_d0 h_S_) := by
  intro j
  obtain ⟨r, -, hr⟩ := hostSum_real (fun _ => True) (fun _ _ _ _ => trivial) h (constant S_ .f32 0x00000000#32)
    reducesTo_S100000x64_S64_d0 h_S_ (fun i => (hh i).imp fun r hr => ⟨trivial, hr⟩)
    (fun i => ⟨0, trivial, const_zero_apply i⟩) j
  exact ⟨r, hr⟩

/-- The column means of a real array are real: a finite sum divided by 100000. -/
theorem isReal_meanOf {h : FVec Ideal S100000x64 .f32} (hh : IsReal h) : IsReal (meanOf (F := Ideal) h) := by
  intro j
  obtain ⟨r, hr⟩ := isReal_hostSum hh j
  exact ⟨_, hostDivf_real j hr ofBits_100000 (by norm_num)⟩

/-! ## The variance -/

/-- The row of column means that the variance subtracts is real. -/
theorem isReal_varMean {h : FVec Ideal S100000x64 .f32} (hh : IsReal h) : IsReal (varMean (F := Ideal) h) := by
  refine isReal_broadcastInDim _ _ ?_
  intro j
  obtain ⟨r, hr⟩ := isReal_broadcastInDim ![1] bcast_S64_S1x64_1 (isReal_hostSum hh) j
  exact ⟨_, hostDivf_real j hr ofBits_100000 (by norm_num)⟩

/-- The variance's divisor, 100000 minus the zero correction, is the real number 100000. -/
theorem varDen_apply (i : S_.Idx) : varDen (F := Ideal) i = ((100000 : ℝ) : EReal) := by
  show Ideal.ofBits .f32 0x47C35000#32 - (((0#32 : BitVec 32).toInt : ℝ) : EReal) = _
  rw [ofBits_100000]; simp

/-- The divisor is positive, so the variance's guard passes at every column. -/
theorem varMask_apply (j : S64.Idx) :
    broadcastInDim S64 ![] bcast_S_S64 (cmpf .ogt (varDen (F := Ideal)) (constant S_ .f32 0x00000000#32)) j = 1 := by
  show Ideal.cmp .ogt (varDen (F := Ideal) _) (Ideal.ofBits .f32 0x00000000#32) = 1
  rw [varDen_apply, Ideal.ofBits_zero_f32]
  have hpos : (0 : EReal) < ((100000 : ℝ) : EReal) := EReal.coe_pos.mpr (by norm_num)
  simp [Ideal.cmp, hpos]

/-- The column variances of a real array are nonnegative reals: a finite sum of squares over 100000. -/
theorem varOf_real {h : FVec Ideal S100000x64 .f32} (hh : IsReal h) (j : S64.Idx) :
    ∃ v : ℝ, 0 ≤ v ∧ varOf (F := Ideal) h j = (v : EReal) := by
  have hsq : ∀ i, ∃ r : ℝ, 0 ≤ r ∧
      mulf (subf h (varMean (F := Ideal) h)) (subf h (varMean (F := Ideal) h)) i = (r : EReal) := by
    intro i
    obtain ⟨d, hd⟩ := isReal_subf hh (isReal_varMean hh) i
    refine ⟨d * d, mul_self_nonneg d, ?_⟩
    show subf h (varMean (F := Ideal) h) i * subf h (varMean (F := Ideal) h) i = _
    rw [hd, EReal.coe_mul]
  obtain ⟨r, hr0, hr⟩ := hostSum_real (fun r => 0 ≤ r) (fun _ _ ha hb => add_nonneg ha hb) _
    (constant S_ .f32 0x00000000#32) reducesTo_S100000x64_S64_d0 h_S_ hsq
    (fun i => ⟨0, le_refl 0, const_zero_apply i⟩) j
  refine ⟨r * (1 / 100000), by positivity, ?_⟩
  unfold varOf select Scalar.select
  rw [if_pos (varMask_apply j)]
  exact hostDivf_real j hr (varDen_apply _) (by norm_num)

/-- 1 / sqrt (variance + 1e-5) of a real array is real: the variance is a real number ≥ 0 (a sum of squares over the
    positive divisor 100000 − 0), so the argument of the reciprocal square root is a positive real. -/
theorem isReal_rstdOf {h : FVec Ideal S100000x64 .f32} (hh : IsReal h) : IsReal (rstdOf (F := Ideal) h) := by
  intro j
  obtain ⟨v, hv0, hv⟩ := varOf_real hh j
  obtain ⟨e, he0, he⟩ := ofBits_eps
  have hpos : 0 < v + e := add_pos_of_nonneg_of_pos hv0 he0
  refine ⟨(Real.sqrt (v + e))⁻¹, ?_⟩
  show Ideal.rsqrt (varOf (F := Ideal) h j + Ideal.ofBits .f32 0x3727C5AC#32) = _
  rw [hv, he, ← EReal.coe_add, Ideal.rsqrt_coe, if_neg (not_lt.mpr hpos.le), if_neg hpos.ne']

end Cert.Hand

end
-- ==== Proof.MathMain.lean ====
import proofs.«401189_j18330920419815_1_alg».proof.Proof.Spec
import proofs.«401189_j18330920419815_1_alg».proof.Proof.BridgeLin
import proofs.«401189_j18330920419815_1_alg».proof.Proof.BridgeFin
import proofs.«401189_j18330920419815_1_alg».proof.Proof.RealLayers
import proofs.«401189_j18330920419815_1_alg».proof.Proof.RealStats

noncomputable section

open scoped BigOperators

namespace Cert.Hand

open Idealize.ShloMosaic Idealize.ShloMosaic.ValueIdx Cert.ReferenceIdeal Cert.ReferenceIdeal.Facts₀

variable [Cert.ReferenceIdeal.Facts]

variable (x : FVec Ideal S100000x512 .f32) (W1 : FVec Ideal S512x128 .f32) (b1 : FVec Ideal S128 .f32) (Wc1 : FVec Ideal S128x64 .f32)
  (bc1 : FVec Ideal S64 .f32) (Wc2 : FVec Ideal S64x64 .f32) (bc2 : FVec Ideal S64 .f32) (Wc3 : FVec Ideal S64x64 .f32)
  (bc3 : FVec Ideal S64 .f32) (g β : FVec Ideal S64 .f32) (W2 : FVec Ideal S64x32 .f32) (b2 : FVec Ideal S32 .f32)
  (W3 : FVec Ideal S32x32 .f32) (b3 : FVec Ideal S32 .f32) (ei : IVec S2x1600000 32)

/-- The kernel's dense regions compute the host's dense layers, so the activations after the third aggregating layer are
    the same array on both sides. -/
theorem h4K_eq : h4K x W1 b1 Wc1 bc1 Wc2 bc2 Wc3 bc3 ei = h4Of (F := Ideal) x W1 b1 Wc1 bc1 Wc2 bc2 Wc3 bc3 ei := by
  unfold h4K h4Of
  rw [← lin1_eq, ← lin2_eq, ← lin3_eq, ← lin3_eq]

/-- Those activations are real numbers when the arguments are: every layer keeps real arrays real. -/
theorem isReal_h4Of (hx : IsReal x) (hW1 : IsReal W1) (hb1 : IsReal b1) (hWc1 : IsReal Wc1) (hbc1 : IsReal bc1)
    (hWc2 : IsReal Wc2) (hbc2 : IsReal bc2) (hWc3 : IsReal Wc3) (hbc3 : IsReal bc3) :
    IsReal (h4Of (F := Ideal) x W1 b1 Wc1 bc1 Wc2 bc2 Wc3 bc3 ei) :=
  isReal_lin3 (isReal_agg64 (isReal_lin3 (isReal_agg64 (isReal_lin2 (isReal_agg128 (isReal_lin1 hx hW1 hb1) _ _) hWc1 hbc1) _ _)
    hWc2 hbc2) _ _) hWc3 hbc3

/-- Kernel and reference compute one function of real arguments. -/
theorem kerOut_eq_refOut (hx : IsReal x) (hW1 : IsReal W1) (hb1 : IsReal b1) (hWc1 : IsReal Wc1) (hbc1 : IsReal bc1)
    (hWc2 : IsReal Wc2) (hbc2 : IsReal bc2) (hWc3 : IsReal Wc3) (hbc3 : IsReal bc3) (hg : IsReal g) (hβ : IsReal β) :
    kerOut x W1 b1 Wc1 bc1 Wc2 bc2 Wc3 bc3 g β W2 b2 W3 b3 ei = refOut (F := Ideal) x W1 b1 Wc1 bc1 Wc2 bc2 Wc3 bc3 g β W2 b2 W3 b3 ei := by
  unfold kerOut refOut
  rw [h4K_eq]
  have hh := isReal_h4Of x W1 b1 Wc1 bc1 Wc2 bc2 Wc3 bc3 ei hx hW1 hb1 hWc1 hbc1 hWc2 hbc2 hWc3 hbc3
  exact fin_eq _ g β W2 b2 W3 b3 hh hg hβ (isReal_meanOf hh) (isReal_rstdOf hh)

end Cert.Hand

end
-- ==== Proof.PreReal.lean ====
import proofs.«401189_j18330920419815_1_alg».proof.Defs
import proofs.«401189_j18330920419815_1_alg».proof.Proof.Gen.Pre_finite_inputs
import proofs.«401189_j18330920419815_1_alg».proof.Proof.Gen.KernelIdeal
import proofs.«401189_j18330920419815_1_alg».proof.Proof.Spec
import Idealize.ShloMosaic.Lib.ReduceAll

noncomputable section

namespace Cert.Hand

open Idealize.ShloMosaic Idealize.ShloMosaic.TcCoe Idealize.SL.Sem

/-- A rank-0 array has exactly one index. -/
instance preReal_subsingleton_scalarIdx : Subsingleton (Cert.Pre_finite_inputs.S_).Idx :=
  ⟨fun a b => funext fun d => d.elim0⟩

/-- An extended real whose absolute value max x (−x) lies strictly below +∞ is neither infinity, so it is a real number. -/
theorem preReal_exists_real_of_abs_lt_top (x : EReal) (h : max x (-x) < ⊤) : ∃ r : ℝ, x = (r : EReal) := by
  induction x using EReal.rec with
  | bot => simp at h
  | coe r => exact ⟨r, rfl⟩
  | top => simp at h

/-- The 32-bit pattern of +∞ denotes the top of the extended reals. -/
theorem preReal_ofBits_inf_f32 : Ideal.ofBits .f32 0x7F800000#32 = ⊤ := by simp [Ideal.ofBits, Ideal.ieee]

/-- One conjunct of the precondition, at any shape: if the conjunction over all entries of |x| < +∞ is 1, then every
    entry of x is a real number. -/
theorem preReal_isReal_of_all {S : Shape} {axes : List (Fin S.rank)} (x : FVec Ideal S .f32)
    (hb : (Cert.Pre_finite_inputs.S_).BroadcastsInDim S (![] : Fin 0 → Fin S.rank))
    (hr : S.ReducesTo axes Cert.Pre_finite_inputs.S_) (hu : 0 < (Cert.Pre_finite_inputs.S_).numel)
    (e : Host.reduce IntOp.andi (cmpf .olt (Host.absf x)
          (broadcastInDim S ![] hb (constant Cert.Pre_finite_inputs.S_ .f32 0x7F800000#32)))
        (constantI Cert.Pre_finite_inputs.S_ 1 1#1) hr hu ValueIdx.ix0 = 1#1) : IsReal x := by
  intro i
  -- the conjunction is 1, so the comparison is 1 at the entry i
  have h := Host.reduce_andi_all _ _ hr hu _ e i
  simp only [cmpf, Host.absf, broadcastInDim, constant] at h
  change Ideal.cmp .olt (max (x i) (-(x i))) (Ideal.ofBits .f32 0x7F800000#32) = 1#1 at h
  rw [preReal_ofBits_inf_f32] at h
  refine preReal_exists_real_of_abs_lt_top (x i) ?_
  by_contra hn
  simp [Ideal.cmp, hn] at h

/-- Under the precondition every float argument array holds real numbers only: the precondition's fifteen conjuncts say
    |x| < +∞ of every entry of each. -/
theorem real_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    IsReal (S := Cert.ReferenceIdeal.S100000x512) (m ((c.tc : Thread Cert.KernelIdeal.nD Cert.KernelIdeal.τ).loc Cert.KernelIdeal.main_arg0))
    ∧ IsReal (S := Cert.ReferenceIdeal.S512x128) (m ((c.tc : Thread Cert.KernelIdeal.nD Cert.KernelIdeal.τ).loc Cert.KernelIdeal.main_arg1))
    ∧ IsReal (S := Cert.ReferenceIdeal.S128) (m ((c.tc : Thread Cert.KernelIdeal.nD Cert.KernelIdeal.τ).loc Cert.KernelIdeal.main_arg2))
    ∧ IsReal (S := Cert.ReferenceIdeal.S128x64) (m ((c.tc : Thread Cert.KernelIdeal.nD Cert.KernelIdeal.τ).loc Cert.KernelIdeal.main_arg3))
    ∧ IsReal (S := Cert.ReferenceIdeal.S64) (m ((c.tc : Thread Cert.KernelIdeal.nD Cert.KernelIdeal.τ).loc Cert.KernelIdeal.main_arg4))
    ∧ IsReal (S := Cert.ReferenceIdeal.S64x64) (m ((c.tc : Thread Cert.KernelIdeal.nD Cert.KernelIdeal.τ).loc Cert.KernelIdeal.main_arg5))
    ∧ IsReal (S := Cert.ReferenceIdeal.S64) (m ((c.tc : Thread Cert.KernelIdeal.nD Cert.KernelIdeal.τ).loc Cert.KernelIdeal.main_arg6))
    ∧ IsReal (S := Cert.ReferenceIdeal.S64x64) (m ((c.tc : Thread Cert.KernelIdeal.nD Cert.KernelIdeal.τ).loc Cert.KernelIdeal.main_arg7))
    ∧ IsReal (S := Cert.ReferenceIdeal.S64) (m ((c.tc : Thread Cert.KernelIdeal.nD Cert.KernelIdeal.τ).loc Cert.KernelIdeal.main_arg8))
    ∧ IsReal (S := Cert.ReferenceIdeal.S64) (m ((c.tc : Thread Cert.KernelIdeal.nD Cert.KernelIdeal.τ).loc Cert.KernelIdeal.main_arg9))
    ∧ IsReal (S := Cert.ReferenceIdeal.S64) (m ((c.tc : Thread Cert.KernelIdeal.nD Cert.KernelIdeal.τ).loc Cert.KernelIdeal.main_arg10))
    ∧ IsReal (S := Cert.ReferenceIdeal.S64x32) (m ((c.tc : Thread Cert.KernelIdeal.nD Cert.KernelIdeal.τ).loc Cert.KernelIdeal.main_arg11))
    ∧ IsReal (S := Cert.ReferenceIdeal.S32) (m ((c.tc : Thread Cert.KernelIdeal.nD Cert.KernelIdeal.τ).loc Cert.KernelIdeal.main_arg12))
    ∧ IsReal (S := Cert.ReferenceIdeal.S32x32) (m ((c.tc : Thread Cert.KernelIdeal.nD Cert.KernelIdeal.τ).loc Cert.KernelIdeal.main_arg13))
    ∧ IsReal (S := Cert.ReferenceIdeal.S32) (m ((c.tc : Thread Cert.KernelIdeal.nD Cert.KernelIdeal.τ).loc Cert.KernelIdeal.main_arg14)) := by
  -- the predicate's one entry: a left-nested conjunction of the fifteen terms
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, andi] at h
  simp only [IntOp.andi_eq_one] at h
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := h
  exact ⟨preReal_isReal_of_all _ _ _ _ h0, preReal_isReal_of_all _ _ _ _ h1, preReal_isReal_of_all _ _ _ _ h2, preReal_isReal_of_all _ _ _ _ h3,
    preReal_isReal_of_all _ _ _ _ h4, preReal_isReal_of_all _ _ _ _ h5, preReal_isReal_of_all _ _ _ _ h6, preReal_isReal_of_all _ _ _ _ h7,
    preReal_isReal_of_all _ _ _ _ h8, preReal_isReal_of_all _ _ _ _ h9, preReal_isReal_of_all _ _ _ _ h10, preReal_isReal_of_all _ _ _ _ h11,
    preReal_isReal_of_all _ _ _ _ h12, preReal_isReal_of_all _ _ _ _ h13, preReal_isReal_of_all _ _ _ _ h14⟩

end Cert.Hand

end
-- ==== Proof.lean ====
/- The certificate of a three-layer mean-aggregating graph network (100000 nodes, 1600000 edges): the kernel's five
   dense regions among host gathers and scatters against the plain reference, equal on the extended reals wherever the
   float arguments are finite.
   Both programs gather, scatter-add and divide by the in-degree with the same host operations; a dense region with its
   rectifier is the host's dot product, bias and maximum index by index (a sum of products on the extended reals either
   way); and the last region's folded normalisation h · (r · γ) + (β − mean · (r · γ)) is the reference's
   ((h − mean) · r) · γ + β because every quantity in it is a real number: finite arguments stay real through every dense
   layer and every aggregation, the variance is a real number ≥ 0 and r = 1 / sqrt (variance + 1e-5) is real. -/
import proofs.«401189_j18330920419815_1_alg».proof.Defs
import proofs.«401189_j18330920419815_1_alg».proof.Proof.Gen.Kernel
import proofs.«401189_j18330920419815_1_alg».proof.Proof.Gen.Kernel.Frame
import proofs.«401189_j18330920419815_1_alg».proof.Proof.Gen.KernelIdeal
import proofs.«401189_j18330920419815_1_alg».proof.Proof.Gen.KernelIdeal.Frame
import proofs.«401189_j18330920419815_1_alg».proof.Proof.Gen.ReferenceIdeal
import proofs.«401189_j18330920419815_1_alg».proof.Proof.Gen.Pre_finite_inputs
import proofs.«401189_j18330920419815_1_alg».proof.Proof.KRun
import proofs.«401189_j18330920419815_1_alg».proof.Proof.KValue
import proofs.«401189_j18330920419815_1_alg».proof.Proof.RefRun
import proofs.«401189_j18330920419815_1_alg».proof.Proof.RefValue
import proofs.«401189_j18330920419815_1_alg».proof.Proof.MathMain
import proofs.«401189_j18330920419815_1_alg».proof.Proof.PreReal
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: no operation of its straight line writes one. -/
theorem frame_ri : Cert.frame_ReferenceIdeal := fun m ρ _ =>
  (θ_run Cert.ReferenceIdeal.defs _ _).mono (fun _ h c =>
    ⟨(h c Cert.ReferenceIdeal.main_arg0).trans (Cert.ReferenceIdeal.Hand.rops_arg0 _),
     (h c Cert.ReferenceIdeal.main_arg1).trans (Cert.ReferenceIdeal.Hand.rops_arg1 _),
     (h c Cert.ReferenceIdeal.main_arg2).trans (Cert.ReferenceIdeal.Hand.rops_arg2 _),
     (h c Cert.ReferenceIdeal.main_arg3).trans (Cert.ReferenceIdeal.Hand.rops_arg3 _),
     (h c Cert.ReferenceIdeal.main_arg4).trans (Cert.ReferenceIdeal.Hand.rops_arg4 _),
     (h c Cert.ReferenceIdeal.main_arg5).trans (Cert.ReferenceIdeal.Hand.rops_arg5 _),
     (h c Cert.ReferenceIdeal.main_arg6).trans (Cert.ReferenceIdeal.Hand.rops_arg6 _),
     (h c Cert.ReferenceIdeal.main_arg7).trans (Cert.ReferenceIdeal.Hand.rops_arg7 _),
     (h c Cert.ReferenceIdeal.main_arg8).trans (Cert.ReferenceIdeal.Hand.rops_arg8 _),
     (h c Cert.ReferenceIdeal.main_arg9).trans (Cert.ReferenceIdeal.Hand.rops_arg9 _),
     (h c Cert.ReferenceIdeal.main_arg10).trans (Cert.ReferenceIdeal.Hand.rops_arg10 _),
     (h c Cert.ReferenceIdeal.main_arg11).trans (Cert.ReferenceIdeal.Hand.rops_arg11 _),
     (h c Cert.ReferenceIdeal.main_arg12).trans (Cert.ReferenceIdeal.Hand.rops_arg12 _),
     (h c Cert.ReferenceIdeal.main_arg13).trans (Cert.ReferenceIdeal.Hand.rops_arg13 _),
     (h c Cert.ReferenceIdeal.main_arg14).trans (Cert.ReferenceIdeal.Hand.rops_arg14 _),
     (h c Cert.ReferenceIdeal.main_arg15).trans (Cert.ReferenceIdeal.Hand.rops_arg15 _)⟩)
    (Cert.ReferenceIdeal.Hand.run_all (F := Ideal) m ρ)

/-- The ideal pass rewrote nothing. -/
theorem preserves : Cert.preserves_Kernel_KernelIdeal := trivial

/-- From memories agreeing on the arguments both programs end at one array: the kernel's function of the arguments
    (read off its run boundary by boundary), which on real arguments is the reference's. -/
theorem algebraic : Cert.algebraic_KernelIdeal_ReferenceIdeal := by
  intro m ρ m' ρ' hpre hagree
  refine ⟨fun c => Cert.Hand.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono (fun _ h c => ⟨(h c).1.trans (Cert.Hand.W12_value m ρ c), (h c).2⟩)
      (Cert.KernelIdeal.Gen.run_out (F := Ideal) m ρ)
  · refine (θ_run Cert.ReferenceIdeal.defs _ _).mono (fun _ h c =>
      ⟨?_, (h c Cert.ReferenceIdeal.main_arg0).trans (Cert.ReferenceIdeal.Hand.rops_arg0 _),
       (h c Cert.ReferenceIdeal.main_arg1).trans (Cert.ReferenceIdeal.Hand.rops_arg1 _),
       (h c Cert.ReferenceIdeal.main_arg2).trans (Cert.ReferenceIdeal.Hand.rops_arg2 _),
       (h c Cert.ReferenceIdeal.main_arg3).trans (Cert.ReferenceIdeal.Hand.rops_arg3 _),
       (h c Cert.ReferenceIdeal.main_arg4).trans (Cert.ReferenceIdeal.Hand.rops_arg4 _),
       (h c Cert.ReferenceIdeal.main_arg5).trans (Cert.ReferenceIdeal.Hand.rops_arg5 _),
       (h c Cert.ReferenceIdeal.main_arg6).trans (Cert.ReferenceIdeal.Hand.rops_arg6 _),
       (h c Cert.ReferenceIdeal.main_arg7).trans (Cert.ReferenceIdeal.Hand.rops_arg7 _),
       (h c Cert.ReferenceIdeal.main_arg8).trans (Cert.ReferenceIdeal.Hand.rops_arg8 _),
       (h c Cert.ReferenceIdeal.main_arg9).trans (Cert.ReferenceIdeal.Hand.rops_arg9 _),
       (h c Cert.ReferenceIdeal.main_arg10).trans (Cert.ReferenceIdeal.Hand.rops_arg10 _),
       (h c Cert.ReferenceIdeal.main_arg11).trans (Cert.ReferenceIdeal.Hand.rops_arg11 _),
       (h c Cert.ReferenceIdeal.main_arg12).trans (Cert.ReferenceIdeal.Hand.rops_arg12 _),
       (h c Cert.ReferenceIdeal.main_arg13).trans (Cert.ReferenceIdeal.Hand.rops_arg13 _),
       (h c Cert.ReferenceIdeal.main_arg14).trans (Cert.ReferenceIdeal.Hand.rops_arg14 _),
       (h c Cert.ReferenceIdeal.main_arg15).trans (Cert.ReferenceIdeal.Hand.rops_arg15 _)⟩)
      (Cert.ReferenceIdeal.Hand.run_all (F := Ideal) m' ρ')
    obtain ⟨a0, a1, a2, a3, a4, a5, a6, a7, a8, a9, a10, a11, a12, a13, a14, a15⟩ := hagree c
    obtain ⟨r0, r1, r2, r3, r4, r5, r6, r7, r8, r9, r10, r11, r12, r13, r14⟩ := Cert.Hand.real_of_pre m hpre c
    refine ((h c Cert.ReferenceIdeal.main_v105).trans (Cert.ReferenceIdeal.Hand.rops_out _)).trans ?_
    have e0 : StableHlo.launchContents m' c (Cert.ReferenceIdeal.main_arg0 : DevRef Cert.ReferenceIdeal.τ Cert.ReferenceIdeal.sig) = (m ((c.tc : Thread Cert.KernelIdeal.nD Cert.KernelIdeal.τ).loc Cert.KernelIdeal.main_arg0)) := a0
    have e1 : StableHlo.launchContents m' c (Cert.ReferenceIdeal.main_arg1 : DevRef Cert.ReferenceIdeal.τ Cert.ReferenceIdeal.sig) = (m ((c.tc : Thread Cert.KernelIdeal.nD Cert.KernelIdeal.τ).loc Cert.KernelIdeal.main_arg1)) := a1
    have e2 : StableHlo.launchContents m' c (Cert.ReferenceIdeal.main_arg2 : DevRef Cert.ReferenceIdeal.τ Cert.ReferenceIdeal.sig) = (m ((c.tc : Thread Cert.KernelIdeal.nD Cert.KernelIdeal.τ).loc Cert.KernelIdeal.main_arg2)) := a2
    have e3 : StableHlo.launchContents m' c (Cert.ReferenceIdeal.main_arg3 : DevRef Cert.ReferenceIdeal.τ Cert.ReferenceIdeal.sig) = (m ((c.tc : Thread Cert.KernelIdeal.nD Cert.KernelIdeal.τ).loc Cert.KernelIdeal.main_arg3)) := a3
    have e4 : StableHlo.launchContents m' c (Cert.ReferenceIdeal.main_arg4 : DevRef Cert.ReferenceIdeal.τ Cert.ReferenceIdeal.sig) = (m ((c.tc : Thread Cert.KernelIdeal.nD Cert.KernelIdeal.τ).loc Cert.KernelIdeal.main_arg4)) := a4
    have e5 : StableHlo.launchContents m' c (Cert.ReferenceIdeal.main_arg5 : DevRef Cert.ReferenceIdeal.τ Cert.ReferenceIdeal.sig) = (m ((c.tc : Thread Cert.KernelIdeal.nD Cert.KernelIdeal.τ).loc Cert.KernelIdeal.main_arg5)) := a5
    have e6 : StableHlo.launchContents m' c (Cert.ReferenceIdeal.main_arg6 : DevRef Cert.ReferenceIdeal.τ Cert.ReferenceIdeal.sig) = (m ((c.tc : Thread Cert.KernelIdeal.nD Cert.KernelIdeal.τ).loc Cert.KernelIdeal.main_arg6)) := a6
    have e7 : StableHlo.launchContents m' c (Cert.ReferenceIdeal.main_arg7 : DevRef Cert.ReferenceIdeal.τ Cert.ReferenceIdeal.sig) = (m ((c.tc : Thread Cert.KernelIdeal.nD Cert.KernelIdeal.τ).loc Cert.KernelIdeal.main_arg7)) := a7
    have e8 : StableHlo.launchContents m' c (Cert.ReferenceIdeal.main_arg8 : DevRef Cert.ReferenceIdeal.τ Cert.ReferenceIdeal.sig) = (m ((c.tc : Thread Cert.KernelIdeal.nD Cert.KernelIdeal.τ).loc Cert.KernelIdeal.main_arg8)) := a8
    have e9 : StableHlo.launchContents m' c (Cert.ReferenceIdeal.main_arg9 : DevRef Cert.ReferenceIdeal.τ Cert.ReferenceIdeal.sig) = (m ((c.tc : Thread Cert.KernelIdeal.nD Cert.KernelIdeal.τ).loc Cert.KernelIdeal.main_arg9)) := a9
    have e10 : StableHlo.launchContents m' c (Cert.ReferenceIdeal.main_arg10 : DevRef Cert.ReferenceIdeal.τ Cert.ReferenceIdeal.sig) = (m ((c.tc : Thread Cert.KernelIdeal.nD Cert.KernelIdeal.τ).loc Cert.KernelIdeal.main_arg10)) := a10
    have e11 : StableHlo.launchContents m' c (Cert.ReferenceIdeal.main_arg11 : DevRef Cert.ReferenceIdeal.τ Cert.ReferenceIdeal.sig) = (m ((c.tc : Thread Cert.KernelIdeal.nD Cert.KernelIdeal.τ).loc Cert.KernelIdeal.main_arg11)) := a11
    have e12 : StableHlo.launchContents m' c (Cert.ReferenceIdeal.main_arg12 : DevRef Cert.ReferenceIdeal.τ Cert.ReferenceIdeal.sig) = (m ((c.tc : Thread Cert.KernelIdeal.nD Cert.KernelIdeal.τ).loc Cert.KernelIdeal.main_arg12)) := a12
    have e13 : StableHlo.launchContents m' c (Cert.ReferenceIdeal.main_arg13 : DevRef Cert.ReferenceIdeal.τ Cert.ReferenceIdeal.sig) = (m ((c.tc : Thread Cert.KernelIdeal.nD Cert.KernelIdeal.τ).loc Cert.KernelIdeal.main_arg13)) := a13
    have e14 : StableHlo.launchContents m' c (Cert.ReferenceIdeal.main_arg14 : DevRef Cert.ReferenceIdeal.τ Cert.ReferenceIdeal.sig) = (m ((c.tc : Thread Cert.KernelIdeal.nD Cert.KernelIdeal.τ).loc Cert.KernelIdeal.main_arg14)) := a14
    have e15 : StableHlo.launchContents m' c (Cert.ReferenceIdeal.main_arg15 : DevRef Cert.ReferenceIdeal.τ Cert.ReferenceIdeal.sig) = (m ((c.tc : Thread Cert.KernelIdeal.nD Cert.KernelIdeal.τ).loc Cert.KernelIdeal.main_arg15)) := a15
    rw [e0, e1, e2, e3, e4, e5, e6, e7, e8, e9, e10, e11, e12, e13, e14, e15]
    exact (Cert.Hand.kerOut_eq_refOut _ _ _ _ _ _ _ _ _ _ _ _ _ _ _ _ r0 r1 r2 r3 r4 r5 r6 r7 r8 r9 r10).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
